-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v182) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x512 : Shape := ⟨2, ![65536, 512]⟩
abbrev S65536x2 : Shape := ⟨2, ![65536, 2]⟩
abbrev S10x128 : Shape := ⟨2, ![10, 128]⟩
abbrev S128 : Shape := ⟨1, ![128]⟩
abbrev S128x128 : Shape := ⟨2, ![128, 128]⟩
abbrev S2x64 : Shape := ⟨2, ![2, 64]⟩
abbrev S64 : Shape := ⟨1, ![64]⟩
abbrev S640x256 : Shape := ⟨2, ![640, 256]⟩
abbrev S256 : Shape := ⟨1, ![256]⟩
abbrev S256x256 : Shape := ⟨2, ![256, 256]⟩
abbrev S256x64 : Shape := ⟨2, ![256, 64]⟩
abbrev S_ : Shape := ⟨0, ![]⟩

class Facts : Prop where
  bcast_S_S65536x512 : S_.BroadcastsInDim S65536x512 (![] : Fin 0 → Fin S65536x512.rank)
  reducesTo_S65536x512_S_d0_1 : S65536x512.ReducesTo [0, 1] S_
  h_S_ : 0 < S_.numel
  bcast_S_S65536x2 : S_.BroadcastsInDim S65536x2 (![] : Fin 0 → Fin S65536x2.rank)
  reducesTo_S65536x2_S_d0_1 : S65536x2.ReducesTo [0, 1] S_
  bcast_S_S10x128 : S_.BroadcastsInDim S10x128 (![] : Fin 0 → Fin S10x128.rank)
  reducesTo_S10x128_S_d0_1 : S10x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S2x64 : S_.BroadcastsInDim S2x64 (![] : Fin 0 → Fin S2x64.rank)
  reducesTo_S2x64_S_d0_1 : S2x64.ReducesTo [0, 1] S_
  bcast_S_S64 : S_.BroadcastsInDim S64 (![] : Fin 0 → Fin S64.rank)
  reducesTo_S64_S_d0 : S64.ReducesTo [0] S_
  bcast_S_S640x256 : S_.BroadcastsInDim S640x256 (![] : Fin 0 → Fin S640x256.rank)
  reducesTo_S640x256_S_d0_1 : S640x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x64 : S_.BroadcastsInDim S256x64 (![] : Fin 0 → Fin S256x64.rank)
  reducesTo_S256x64_S_d0_1 : S256x64.ReducesTo [0, 1] S_

variable [Facts]

def fn_part7 {F : FTy → Type} [FloatOps F] (main_arg25 : FVec F S64 .f32) (main_v118 : IVec S_ 1) (main_v119 : FVec F S256x64 .f32) : IVec S_ 1 :=
  let main_cst_46 : FVec F S_ .f32 := constant S_ .f32 0x7F800000#32
  let main_v120 : FVec F S256x64 .f32 := broadcastInDim S256x64 ![] bcast_S_S256x64 main_cst_46
  let main_v121 : IVec S256x64 1 := cmpf .olt main_v119 main_v120
  let main_c_47 : IVec S_ 1 := constantI S_ 1 1#1
  let main_v122 : IVec S_ 1 := (fun x v => Host.reduce IntOp.andi x v reducesTo_S256x64_S_d0_1 h_S_) main_v121 main_c_47
  let main_v123 : IVec S_ 1 := andi main_v118 main_v122
  let main_v124 : FVec F S64 .f32 := Host.absf main_arg25
  let main_cst_48 : FVec F S_ .f32 := constant S_ .f32 0x7F800000#32
  let main_v125 : FVec F S64 .f32 := broadcastInDim S64 ![] bcast_S_S64 main_cst_48
  let main_v126 : IVec S64 1 := cmpf .olt main_v124 main_v125
  let main_c_49 : IVec S_ 1 := constantI S_ 1 1#1
  let main_v127 : IVec S_ 1 := (fun x v => Host.reduce IntOp.andi x v reducesTo_S64_S_d0 h_S_) main_v126 main_c_49
  let main_v128 : IVec S_ 1 := andi main_v123 main_v127
  main_v128

def fn_part6 {F : FTy → Type} [FloatOps F] (main_arg21 : FVec F S256 .f32) (main_arg22 : FVec F S256x64 .f32) (main_arg23 : FVec F S64 .f32) (main_arg24 : FVec F S256x64 .f32) (main_arg25 : FVec F S64 .f32) (main_v98 : IVec S_ 1) (main_v101 : IVec S256 1) (main_c_39 : IVec S_ 1) : IVec S_ 1 :=
  let main_v102 : IVec S_ 1 := (fun x v => Host.reduce IntOp.andi x v reducesTo_S256_S_d0 h_S_) main_v101 main_c_39
  let main_v103 : IVec S_ 1 := andi main_v98 main_v102
  let main_v104 : FVec F S256 .f32 := Host.absf main_arg21
  let main_cst_40 : FVec F S_ .f32 := constant S_ .f32 0x7F800000#32
  let main_v105 : FVec F S256 .f32 := broadcastInDim S256 ![] bcast_S_S256 main_cst_40
  let main_v106 : IVec S256 1 := cmpf .olt main_v104 main_v105
  let main_c_41 : IVec S_ 1 := constantI S_ 1 1#1
  let main_v107 : IVec S_ 1 := (fun x v => Host.reduce IntOp.andi x v reducesTo_S256_S_d0 h_S_) main_v106 main_c_41
  let main_v108 : IVec S_ 1 := andi main_v103 main_v107
  let main_v109 : FVec F S256x64 .f32 := Host.absf main_arg22
  let main_cst_42 : FVec F S_ .f32 := constant S_ .f32 0x7F800000#32
  let main_v110 : FVec F S256x64 .f32 := broadcastInDim S256x64 ![] bcast_S_S256x64 main_cst_42
  let main_v111 : IVec S256x64 1 := cmpf .olt main_v109 main_v110
  let main_c_43 : IVec S_ 1 := constantI S_ 1 1#1
  let main_v112 : IVec S_ 1 := (fun x v => Host.reduce IntOp.andi x v reducesTo_S256x64_S_d0_1 h_S_) main_v111 main_c_43
  let main_v113 : IVec S_ 1 := andi main_v108 main_v112
  let main_v114 : FVec F S64 .f32 := Host.absf main_arg23
  let main_cst_44 : FVec F S_ .f32 := constant S_ .f32 0x7F800000#32
  let main_v115 : FVec F S64 .f32 := broadcastInDim S64 ![] bcast_S_S64 main_cst_44
  let main_v116 : IVec S64 1 := cmpf .olt main_v114 main_v115
  let main_c_45 : IVec S_ 1 := constantI S_ 1 1#1
  let main_v117 : IVec S_ 1 := (fun x v => Host.reduce IntOp.andi x v reducesTo_S64_S_d0 h_S_) main_v116 main_c_45
  let main_v118 : IVec S_ 1 := andi main_v113 main_v117
  let main_v119 : FVec F S256x64 .f32 := Host.absf main_arg24
  fn_part7 (F := F) main_arg25 main_v118 main_v119

def fn_part5 {F : FTy → Type} [FloatOps F] (main_arg18 : FVec F S256x256 .f32) (main_arg19 : FVec F S256 .f32) (main_arg20 : FVec F S256 .f32) (main_arg21 : FVec F S256 .f32) (main_arg22 : FVec F S256x64 .f32) (main_arg23 : FVec F S64 .f32) (main_arg24 : FVec F S256x64 .f32) (main_arg25 : FVec F S64 .f32) (main_v83 : IVec S_ 1) (main_v84 : FVec F S256 .f32) (main_cst_32 : FVec F S_ .f32) : IVec S_ 1 :=
  let main_v85 : FVec F S256 .f32 := broadcastInDim S256 ![] bcast_S_S256 main_cst_32
  let main_v86 : IVec S256 1 := cmpf .olt main_v84 main_v85
  let main_c_33 : IVec S_ 1 := constantI S_ 1 1#1
  let main_v87 : IVec S_ 1 := (fun x v => Host.reduce IntOp.andi x v reducesTo_S256_S_d0 h_S_) main_v86 main_c_33
  let main_v88 : IVec S_ 1 := andi main_v83 main_v87
  let main_v89 : FVec F S256x256 .f32 := Host.absf main_arg18
  let main_cst_34 : FVec F S_ .f32 := constant S_ .f32 0x7F800000#32
  let main_v90 : FVec F S256x256 .f32 := broadcastInDim S256x256 ![] bcast_S_S256x256 main_cst_34
  let main_v91 : IVec S256x256 1 := cmpf .olt main_v89 main_v90
  let main_c_35 : IVec S_ 1 := constantI S_ 1 1#1
  let main_v92 : IVec S_ 1 := (fun x v => Host.reduce IntOp.andi x v reducesTo_S256x256_S_d0_1 h_S_) main_v91 main_c_35
  let main_v93 : IVec S_ 1 := andi main_v88 main_v92
  let main_v94 : FVec F S256 .f32 := Host.absf main_arg19
  let main_cst_36 : FVec F S_ .f32 := constant S_ .f32 0x7F800000#32
  let main_v95 : FVec F S256 .f32 := broadcastInDim S256 ![] bcast_S_S256 main_cst_36
  let main_v96 : IVec S256 1 := cmpf .olt main_v94 main_v95
  let main_c_37 : IVec S_ 1 := constantI S_ 1 1#1
  let main_v97 : IVec S_ 1 := (fun x v => Host.reduce IntOp.andi x v reducesTo_S256_S_d0 h_S_) main_v96 main_c_37
  let main_v98 : IVec S_ 1 := andi main_v93 main_v97
  let main_v99 : FVec F S256 .f32 := Host.absf main_arg20
  let main_cst_38 : FVec F S_ .f32 := constant S_ .f32 0x7F800000#32
  let main_v100 : FVec F S256 .f32 := broadcastInDim S256 ![] bcast_S_S256 main_cst_38
  let main_v101 : IVec S256 1 := cmpf .olt main_v99 main_v100
  let main_c_39 : IVec S_ 1 := constantI S_ 1 1#1
  fn_part6 (F := F) main_arg21 main_arg22 main_arg23 main_arg24 main_arg25 main_v98 main_v101 main_c_39

def fn_part4 {F : FTy → Type} [FloatOps F] (main_arg14 : FVec F S640x256 .f32) (main_arg15 : FVec F S256 .f32) (main_arg16 : FVec F S256 .f32) (main_arg17 : FVec F S256 .f32) (main_arg18 : FVec F S256x256 .f32) (main_arg19 : FVec F S256 .f32) (main_arg20 : FVec F S256 .f32) (main_arg21 : FVec F S256 .f32) (main_arg22 : FVec F S256x64 .f32) (main_arg23 : FVec F S64 .f32) (main_arg24 : FVec F S256x64 .f32) (main_arg25 : FVec F S64 .f32) (main_v63 : IVec S_ 1) (main_v67 : IVec S_ 1) : IVec S_ 1 :=
  let main_v68 : IVec S_ 1 := andi main_v63 main_v67
  let main_v69 : FVec F S640x256 .f32 := Host.absf main_arg14
  let main_cst_26 : FVec F S_ .f32 := constant S_ .f32 0x7F800000#32
  let main_v70 : FVec F S640x256 .f32 := broadcastInDim S640x256 ![] bcast_S_S640x256 main_cst_26
  let main_v71 : IVec S640x256 1 := cmpf .olt main_v69 main_v70
  let main_c_27 : IVec S_ 1 := constantI S_ 1 1#1
  let main_v72 : IVec S_ 1 := (fun x v => Host.reduce IntOp.andi x v reducesTo_S640x256_S_d0_1 h_S_) main_v71 main_c_27
  let main_v73 : IVec S_ 1 := andi main_v68 main_v72
  let main_v74 : FVec F S256 .f32 := Host.absf main_arg15
  let main_cst_28 : FVec F S_ .f32 := constant S_ .f32 0x7F800000#32
  let main_v75 : FVec F S256 .f32 := broadcastInDim S256 ![] bcast_S_S256 main_cst_28
  let main_v76 : IVec S256 1 := cmpf .olt main_v74 main_v75
  let main_c_29 : IVec S_ 1 := constantI S_ 1 1#1
  let main_v77 : IVec S_ 1 := (fun x v => Host.reduce IntOp.andi x v reducesTo_S256_S_d0 h_S_) main_v76 main_c_29
  let main_v78 : IVec S_ 1 := andi main_v73 main_v77
  let main_v79 : FVec F S256 .f32 := Host.absf main_arg16
  let main_cst_30 : FVec F S_ .f32 := constant S_ .f32 0x7F800000#32
  let main_v80 : FVec F S256 .f32 := broadcastInDim S256 ![] bcast_S_S256 main_cst_30
  let main_v81 : IVec S256 1 := cmpf .olt main_v79 main_v80
  let main_c_31 : IVec S_ 1 := constantI S_ 1 1#1
  let main_v82 : IVec S_ 1 := (fun x v => Host.reduce IntOp.andi x v reducesTo_S256_S_d0 h_S_) main_v81 main_c_31
  let main_v83 : IVec S_ 1 := andi main_v78 main_v82
  let main_v84 : FVec F S256 .f32 := Host.absf main_arg17
  let main_cst_32 : FVec F S_ .f32 := constant S_ .f32 0x7F800000#32
  fn_part5 (F := F) main_arg18 main_arg19 main_arg20 main_arg21 main_arg22 main_arg23 main_arg24 main_arg25 main_v83 main_v84 main_cst_32

def fn_part3 {F : FTy → Type} [FloatOps F] (main_arg11 : FVec F S64 .f32) (main_arg12 : FVec F S64 .f32) (main_arg13 : FVec F S64 .f32) (main_arg14 : FVec F S640x256 .f32) (main_arg15 : FVec F S256 .f32) (main_arg16 : FVec F S256 .f32) (main_arg17 : FVec F S256 .f32) (main_arg18 : FVec F S256x256 .f32) (main_arg19 : FVec F S256 .f32) (main_arg20 : FVec F S256 .f32) (main_arg21 : FVec F S256 .f32) (main_arg22 : FVec F S256x64 .f32) (main_arg23 : FVec F S64 .f32) (main_arg24 : FVec F S256x64 .f32) (main_arg25 : FVec F S64 .f32) (main_v48 : IVec S_ 1) (main_v49 : FVec F S2x64 .f32) (main_v50 : FVec F S2x64 .f32) : IVec S_ 1 :=
  let main_v51 : IVec S2x64 1 := cmpf .olt main_v49 main_v50
  let main_c_19 : IVec S_ 1 := constantI S_ 1 1#1
  let main_v52 : IVec S_ 1 := (fun x v => Host.reduce IntOp.andi x v reducesTo_S2x64_S_d0_1 h_S_) main_v51 main_c_19
  let main_v53 : IVec S_ 1 := andi main_v48 main_v52
  let main_v54 : FVec F S64 .f32 := Host.absf main_arg11
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg12
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64 .f32 := Host.absf main_arg13
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg14 main_arg15 main_arg16 main_arg17 main_arg18 main_arg19 main_arg20 main_arg21 main_arg22 main_arg23 main_arg24 main_arg25 main_v63 main_v67

def fn_part2 {F : FTy → Type} [FloatOps F] (main_arg7 : FVec F S128 .f32) (main_arg8 : FVec F S128 .f32) (main_arg9 : FVec F S128 .f32) (main_arg10 : FVec F S2x64 .f32) (main_arg11 : FVec F S64 .f32) (main_arg12 : FVec F S64 .f32) (main_arg13 : FVec F S64 .f32) (main_arg14 : FVec F S640x256 .f32) (main_arg15 : FVec F S256 .f32) (main_arg16 : FVec F S256 .f32) (main_arg17 : FVec F S256 .f32) (main_arg18 : FVec F S256x256 .f32) (main_arg19 : FVec F S256 .f32) (main_arg20 : FVec F S256 .f32) (main_arg21 : FVec F S256 .f32) (main_arg22 : FVec F S256x64 .f32) (main_arg23 : FVec F S64 .f32) (main_arg24 : FVec F S256x64 .f32) (main_arg25 : FVec F S64 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S2x64 .f32 := Host.absf main_arg10
  let main_cst_18 : FVec F S_ .f32 := constant S_ .f32 0x7F800000#32
  let main_v50 : FVec F S2x64 .f32 := broadcastInDim S2x64 ![] bcast_S_S2x64 main_cst_18
  fn_part3 (F := F) main_arg11 main_arg12 main_arg13 main_arg14 main_arg15 main_arg16 main_arg17 main_arg18 main_arg19 main_arg20 main_arg21 main_arg22 main_arg23 main_arg24 main_arg25 main_v48 main_v49 main_v50

def fn_part1 {F : FTy → Type} [FloatOps F] (main_arg4 : FVec F S128 .f32) (main_arg5 : FVec F S128 .f32) (main_arg6 : FVec F S128x128 .f32) (main_arg7 : FVec F S128 .f32) (main_arg8 : FVec F S128 .f32) (main_arg9 : FVec F S128 .f32) (main_arg10 : FVec F S2x64 .f32) (main_arg11 : FVec F S64 .f32) (main_arg12 : FVec F S64 .f32) (main_arg13 : FVec F S64 .f32) (main_arg14 : FVec F S640x256 .f32) (main_arg15 : FVec F S256 .f32) (main_arg16 : FVec F S256 .f32) (main_arg17 : FVec F S256 .f32) (main_arg18 : FVec F S256x256 .f32) (main_arg19 : FVec F S256 .f32) (main_arg20 : FVec F S256 .f32) (main_arg21 : FVec F S256 .f32) (main_arg22 : FVec F S256x64 .f32) (main_arg23 : FVec F S64 .f32) (main_arg24 : FVec F S256x64 .f32) (main_arg25 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_arg25 main_v33

def fn {F : FTy → Type} [FloatOps F] (main_arg0 : FVec F S65536x512 .f32) (main_arg1 : FVec F S65536x2 .f32) (main_arg2 : FVec F S10x128 .f32) (main_arg3 : FVec F S128 .f32) (main_arg4 : FVec F S128 .f32) (main_arg5 : FVec F S128 .f32) (main_arg6 : FVec F S128x128 .f32) (main_arg7 : FVec F S128 .f32) (main_arg8 : FVec F S128 .f32) (main_arg9 : FVec F S128 .f32) (main_arg10 : FVec F S2x64 .f32) (main_arg11 : FVec F S64 .f32) (main_arg12 : FVec F S64 .f32) (main_arg13 : FVec F S64 .f32) (main_arg14 : FVec F S640x256 .f32) (main_arg15 : FVec F S256 .f32) (main_arg16 : FVec F S256 .f32) (main_arg17 : FVec F S256 .f32) (main_arg18 : FVec F S256x256 .f32) (main_arg19 : FVec F S256 .f32) (main_arg20 : FVec F S256 .f32) (main_arg21 : FVec F S256 .f32) (main_arg22 : FVec F S256x64 .f32) (main_arg23 : FVec F S64 .f32) (main_arg24 : FVec F S256x64 .f32) (main_arg25 : FVec F S64 .f32) : IVec S_ 1 :=
  let main_v0 : FVec F S65536x512 .f32 := Host.absf main_arg0
  let main_cst : FVec F S_ .f32 := constant S_ .f32 0x7F800000#32
  let main_v1 : FVec F S65536x512 .f32 := broadcastInDim S65536x512 ![] bcast_S_S65536x512 main_cst
  let main_v2 : IVec S65536x512 1 := cmpf .olt main_v0 main_v1
  let main_c : IVec S_ 1 := constantI S_ 1 1#1
  let main_v3 : IVec S_ 1 := (fun x v => Host.reduce IntOp.andi x v reducesTo_S65536x512_S_d0_1 h_S_) main_v2 main_c
  let main_v4 : FVec F S65536x2 .f32 := Host.absf main_arg1
  let main_cst_0 : FVec F S_ .f32 := constant S_ .f32 0x7F800000#32
  let main_v5 : FVec F S65536x2 .f32 := broadcastInDim S65536x2 ![] bcast_S_S65536x2 main_cst_0
  let main_v6 : IVec S65536x2 1 := cmpf .olt main_v4 main_v5
  let main_c_1 : IVec S_ 1 := constantI S_ 1 1#1
  let main_v7 : IVec S_ 1 := (fun x v => Host.reduce IntOp.andi x v reducesTo_S65536x2_S_d0_1 h_S_) main_v6 main_c_1
  let main_v8 : IVec S_ 1 := andi main_v3 main_v7
  let main_v9 : FVec F S10x128 .f32 := Host.absf main_arg2
  let main_cst_2 : FVec F S_ .f32 := constant S_ .f32 0x7F800000#32
  let main_v10 : FVec F S10x128 .f32 := broadcastInDim S10x128 ![] bcast_S_S10x128 main_cst_2
  let main_v11 : IVec S10x128 1 := cmpf .olt main_v9 main_v10
  let main_c_3 : IVec S_ 1 := constantI S_ 1 1#1
  let main_v12 : IVec S_ 1 := (fun x v => Host.reduce IntOp.andi x v reducesTo_S10x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_v13 main_v16
-- ==== Kernel.lean ====
abbrev S65536x512 : Shape := ⟨2, ![65536, 512]⟩
abbrev S65536x2 : Shape := ⟨2, ![65536, 2]⟩
abbrev S10x128 : Shape := ⟨2, ![10, 128]⟩
abbrev S128 : Shape := ⟨1, ![128]⟩
abbrev S128x128 : Shape := ⟨2, ![128, 128]⟩
abbrev S2x64 : Shape := ⟨2, ![2, 64]⟩
abbrev S64 : Shape := ⟨1, ![64]⟩
abbrev S640x256 : Shape := ⟨2, ![640, 256]⟩
abbrev S256 : Shape := ⟨1, ![256]⟩
abbrev S256x256 : Shape := ⟨2, ![256, 256]⟩
abbrev S256x64 : Shape := ⟨2, ![256, 64]⟩
abbrev S65536x64x2 : Shape := ⟨3, ![65536, 64, 2]⟩
abbrev S1024x512 : Shape := ⟨2, ![1024, 512]⟩
abbrev S1024x2 : Shape := ⟨2, ![1024, 2]⟩
abbrev S1024x64x2 : Shape := ⟨3, ![1024, 64, 2]⟩
abbrev S1024x64 : Shape := ⟨2, ![1024, 64]⟩
abbrev S1024x68 : Shape := ⟨2, ![1024, 68]⟩
abbrev S1024x380 : Shape := ⟨2, ![1024, 380]⟩
abbrev S1024x448 : Shape := ⟨2, ![1024, 448]⟩
abbrev S1024 : Shape := ⟨1, ![1024]⟩
abbrev S1024x1 : Shape := ⟨2, ![1024, 1]⟩
abbrev S1024x10 : Shape := ⟨2, ![1024, 10]⟩
abbrev S1024x128 : Shape := ⟨2, ![1024, 128]⟩
abbrev S1x128 : Shape := ⟨2, ![1, 128]⟩
abbrev S1x64 : Shape := ⟨2, ![1, 64]⟩
abbrev S1024x640 : Shape := ⟨2, ![1024, 640]⟩
abbrev S1024x256 : Shape := ⟨2, ![1024, 256]⟩
abbrev S1x256 : Shape := ⟨2, ![1, 256]⟩
abbrev S1024x64x1 : Shape := ⟨3, ![1024, 64, 1]⟩

abbrev nBuf : Space → Nat
  | .hbm => 27
  | .vmem => 30
  | .smem => 0
  | _ => 0

abbrev bufTy : (tb : Table) → Fin (tcTables nBuf tb) → BufTy
  | .hbm, ⟨0, _⟩ => ⟨S65536x512, .f32⟩
  | .hbm, ⟨1, _⟩ => ⟨S65536x2, .f32⟩
  | .hbm, ⟨2, _⟩ => ⟨S10x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S2x64, .f32⟩
  | .hbm, ⟨11, _⟩ => ⟨S64, .f32⟩
  | .hbm, ⟨12, _⟩ => ⟨S64, .f32⟩
  | .hbm, ⟨13, _⟩ => ⟨S64, .f32⟩
  | .hbm, ⟨14, _⟩ => ⟨S640x256, .f32⟩
  | .hbm, ⟨15, _⟩ => ⟨S256, .f32⟩
  | .hbm, ⟨16, _⟩ => ⟨S256, .f32⟩
  | .hbm, ⟨17, _⟩ => ⟨S256, .f32⟩
  | .hbm, ⟨18, _⟩ => ⟨S256x256, .f32⟩
  | .hbm, ⟨19, _⟩ => ⟨S256, .f32⟩
  | .hbm, ⟨20, _⟩ => ⟨S256, .f32⟩
  | .hbm, ⟨21, _⟩ => ⟨S256, .f32⟩
  | .hbm, ⟨22, _⟩ => ⟨S256x64, .f32⟩
  | .hbm, ⟨23, _⟩ => ⟨S64, .f32⟩
  | .hbm, ⟨24, _⟩ => ⟨S256x64, .f32⟩
  | .hbm, ⟨25, _⟩ => ⟨S64, .f32⟩
  | .hbm, ⟨26, _⟩ => ⟨S65536x64x2, .f32⟩
  | .local _ .vmem, ⟨0, _⟩ => ⟨S1024x512, .f32⟩
  | .local _ .vmem, ⟨1, _⟩ => ⟨S1024x512, .f32⟩
  | .local _ .vmem, ⟨2, _⟩ => ⟨S1024x2, .f32⟩
  | .local _ .vmem, ⟨3, _⟩ => ⟨S1024x2, .f32⟩
  | .local _ .vmem, ⟨4, _⟩ => ⟨S10x128, .f32⟩
  | .local _ .vmem, ⟨5, _⟩ => ⟨S128, .f32⟩
  | .local _ .vmem, ⟨6, _⟩ => ⟨S128, .f32⟩
  | .local _ .vmem, ⟨7, _⟩ => ⟨S128, .f32⟩
  | .local _ .vmem, ⟨8, _⟩ => ⟨S128x128, .f32⟩
  | .local _ .vmem, ⟨9, _⟩ => ⟨S128, .f32⟩
  | .local _ .vmem, ⟨10, _⟩ => ⟨S128, .f32⟩
  | .local _ .vmem, ⟨11, _⟩ => ⟨S128, .f32⟩
  | .local _ .vmem, ⟨12, _⟩ => ⟨S2x64, .f32⟩
  | .local _ .vmem, ⟨13, _⟩ => ⟨S64, .f32⟩
  | .local _ .vmem, ⟨14, _⟩ => ⟨S64, .f32⟩
  | .local _ .vmem, ⟨15, _⟩ => ⟨S64, .f32⟩
  | .local _ .vmem, ⟨16, _⟩ => ⟨S640x256, .f32⟩
  | .local _ .vmem, ⟨17, _⟩ => ⟨S256, .f32⟩
  | .local _ .vmem, ⟨18, _⟩ => ⟨S256, .f32⟩
  | .local _ .vmem, ⟨19, _⟩ => ⟨S256, .f32⟩
  | .local _ .vmem, ⟨20, _⟩ => ⟨S256x256, .f32⟩
  | .local _ .vmem, ⟨21, _⟩ => ⟨S256, .f32⟩
  | .local _ .vmem, ⟨22, _⟩ => ⟨S256, .f32⟩
  | .local _ .vmem, ⟨23, _⟩ => ⟨S256, .f32⟩
  | .local _ .vmem, ⟨24, _⟩ => ⟨S256x64, .f32⟩
  | .local _ .vmem, ⟨25, _⟩ => ⟨S64, .f32⟩
  | .local _ .vmem, ⟨26, _⟩ => ⟨S256x64, .f32⟩
  | .local _ .vmem, ⟨27, _⟩ => ⟨S64, .f32⟩
  | .local _ .vmem, ⟨28, _⟩ => ⟨S1024x64x2, .f32⟩
  | .local _ .vmem, ⟨29, _⟩ => ⟨S1024x64x2, .f32⟩
  | _, _ => ⟨S65536x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg19_0 : Ref sig .tc := ⟨.vmem, 21, rfl⟩
abbrev cc0_stg20_0 : Ref sig .tc := ⟨.vmem, 22, rfl⟩
abbrev cc0_stg21_0 : Ref sig .tc := ⟨.vmem, 23, rfl⟩
abbrev cc0_stg22_0 : Ref sig .tc := ⟨.vmem, 24, rfl⟩
abbrev cc0_stg23_0 : Ref sig .tc := ⟨.vmem, 25, rfl⟩
abbrev cc0_stg24_0 : Ref sig .tc := ⟨.vmem, 26, rfl⟩
abbrev cc0_stg25_0 : Ref sig .tc := ⟨.vmem, 27, rfl⟩
abbrev cc0_stg26_0 : Ref sig .tc := ⟨.vmem, 28, rfl⟩
abbrev cc0_stg26_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20
abbrev cc0_sem19_0 : DmaSem sig := 21
abbrev cc0_sem20_0 : DmaSem sig := 22
abbrev cc0_sem21_0 : DmaSem sig := 23
abbrev cc0_sem22_0 : DmaSem sig := 24
abbrev cc0_sem23_0 : DmaSem sig := 25
abbrev cc0_sem24_0 : DmaSem sig := 26
abbrev cc0_sem25_0 : DmaSem sig := 27
abbrev cc0_sem26_0 : DmaSem sig := 28
abbrev cc0_sem26_1 : DmaSem sig := 29

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_16 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_17 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_20 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_21 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_26 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S10x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S640x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S256x256 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S256 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S256 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S256 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S256x64 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S64 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S256x64 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S64 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 2 → Memref sig .tc .vmem S1024x64x2 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

class Facts₀ : Prop where
  inb_S1024x512_S1024x512_0_0 : ∀ a, (![0, 0] : Fin 2 → Nat) a + S1024x512.size a ≤ S1024x512.size a
  h_S1024x512 : 0 < S1024x512.numel
  inb_S1024x2_S1024x2_0_0 : ∀ a, (![0, 0] : Fin 2 → Nat) a + S1024x2.size a ≤ S1024x2.size a
  h_S1024x2 : 0 < S1024x2.numel
  slices_S1024x512_o0_68_S1024x64 : S1024x512.Slices ![0, 68] S1024x64
  slices_S1024x512_o0_0_S1024x68 : S1024x512.Slices ![0, 0] S1024x68
  slices_S1024x512_o0_132_S1024x380 : S1024x512.Slices ![0, 132] S1024x380
  concatenates_S1024x68_S1024x380_S1024x448_d1 : Shape.Concatenates [S1024x68, S1024x380] S1024x448 1
  natLt_1_32 : 1 < 32
  reduces_S1024x64_S1024 : S1024x64.Reduces [1] S1024
  shapeCasts_S1024_S1024x1 : S1024.ShapeCasts S1024x1
  concatenates_S1024x1_S1024x1_S1024x1_S1024x1_S1024x1_S1024x1_S1024x1_S1024x1_S1024x1_S1024x1_S1024x10_d1 : Shape.Concatenates [S1024x1, S1024x1, S1024x1, S1024x1, S1024x1, S1024x1, S1024x1, S1024x1, S1024x1, S1024x1] S1024x10 1
  reduces_S1024x10_S1024 : S1024x10.Reduces [1] S1024
  broadcasts_S1024x1_S1024x10 : S1024x1.Broadcasts S1024x10
  inb_S10x128_S10x128_0_0 : ∀ a, (![0, 0] : Fin 2 → Nat) a + S10x128.size a ≤ S10x128.size a
  h_S10x128 : 0 < S10x128.numel
  inb_S128_S128_0 : ∀ a, (![0] : Fin 1 → Nat) a + S128.size a ≤ S128.size a
  h_S128 : 0 < S128.numel
  bitsLt_bf16_f32 : FTy.bits .bf16 < FTy.bits .f32
  shapeCasts_S128_S1x128 : S128.ShapeCasts S1x128
  broadcasts_S1x128_S1024x128 : S1x128.Broadcasts S1024x128
  reduces_S1024x128_S1024 : S1024x128.Reduces [1] S1024
  broadcasts_S1024x1_S1024x128 : S1024x1.Broadcasts S1024x128
  inb_S128x128_S128x128_0_0 : ∀ a, (![0, 0] : Fin 2 → Nat) a + S128x128.size a ≤ S128x128.size a
  h_S128x128 : 0 < S128x128.numel
  inb_S2x64_S2x64_0_0 : ∀ a, (![0, 0] : Fin 2 → Nat) a + S2x64.size a ≤ S2x64.size a
  h_S2x64 : 0 < S2x64.numel
  inb_S64_S64_0 : ∀ a, (![0] : Fin 1 → Nat) a + S64.size a ≤ S64.size a
  h_S64 : 0 < S64.numel
  shapeCasts_S64_S1x64 : S64.ShapeCasts S1x64
  broadcasts_S1x64_S1024x64 : S1x64.Broadcasts S1024x64
  broadcasts_S1024x1_S1024x64 : S1024x1.Broadcasts S1024x64
  concatenates_S1024x448_S1024x128_S1024x64_S1024x640_d1 : Shape.Concatenates [S1024x448, S1024x128, S1024x64] S1024x640 1
  inb_S640x256_S640x256_0_0 : ∀ a, (![0, 0] : Fin 2 → Nat) a + S640x256.size a ≤ S640x256.size a
  h_S640x256 : 0 < S640x256.numel
  inb_S256_S256_0 : ∀ a, (![0] : Fin 1 → Nat) a + S256.size a ≤ S256.size a
  h_S256 : 0 < S256.numel
  shapeCasts_S256_S1x256 : S256.ShapeCasts S1x256
  broadcasts_S1x256_S1024x256 : S1x256.Broadcasts S1024x256
  reduces_S1024x256_S1024 : S1024x256.Reduces [1] S1024
  broadcasts_S1024x1_S1024x256 : S1024x1.Broadcasts S1024x256
  inb_S256x256_S256x256_0_0 : ∀ a, (![0, 0] : Fin 2 → Nat) a + S256x256.size a ≤ S256x256.size a
  h_S256x256 : 0 < S256x256.numel
  inb_S256x64_S256x64_0_0 : ∀ a, (![0, 0] : Fin 2 → Nat) a + S256x64.size a ≤ S256x64.size a
  h_S256x64 : 0 < S256x64.numel
  shapeCasts_S1024x64_S1024x64x1 : S1024x64.ShapeCasts S1024x64x1
  concatenates_S1024x64x1_S1024x64x1_S1024x64x2_d2 : Shape.Concatenates [S1024x64x1, S1024x64x1] S1024x64x2 2
  inb_S1024x64x2_S1024x64x2_0_0_0 : ∀ a, (![0, 0, 0] : Fin 3 → Nat) a + S1024x64x2.size a ≤ S1024x64x2.size a
  h_S1024x64x2 : 0 < S1024x64x2.numel
  dot_S1024x10_S10x128_S1024x128_1_0_0_1_n_n_wf : DotDims.WF S1024x10 S10x128 S1024x128 [1] [0] [0] [1] [] []
  dot_S1024x128_S128x128_S1024x128_1_0_0_1_n_n_wf : DotDims.WF S1024x128 S128x128 S1024x128 [1] [0] [0] [1] [] []
  dot_S1024x2_S2x64_S1024x64_1_0_0_1_n_n_wf : DotDims.WF S1024x2 S2x64 S1024x64 [1] [0] [0] [1] [] []
  dot_S1024x640_S640x256_S1024x256_1_0_0_1_n_n_wf : DotDims.WF S1024x640 S640x256 S1024x256 [1] [0] [0] [1] [] []
  dot_S1024x256_S256x256_S1024x256_1_0_0_1_n_n_wf : DotDims.WF S1024x256 S256x256 S1024x256 [1] [0] [0] [1] [] []
  dot_S1024x256_S256x64_S1024x64_1_0_0_1_n_n_wf : DotDims.WF S1024x256 S256x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S65536x512.size a
  hwx0_0 : ∀ i : grid0.Coords, EltTy.bits .f32 = 32 ∨ (Rect.block (s := S65536x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2.size a ≤ S65536x2.size a
  hwx0_1 : ∀ i : grid0.Coords, EltTy.bits .f32 = 32 ∨ (Rect.block (s := S65536x2) S1024x2.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10x128.size a ≤ S10x128.size a
  hwx0_2 : ∀ i : grid0.Coords, EltTy.bits .f32 = 32 ∨ (Rect.block (s := S10x128) S10x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128.size a ≤ S128.size a
  hwx0_9 : ∀ i : grid0.Coords, EltTy.bits .f32 = 32 ∨ (Rect.block (s := S128) S128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S2x64.size a ≤ S2x64.size a
  hwx0_10 : ∀ i : grid0.Coords, EltTy.bits .f32 = 32 ∨ (Rect.block (s := S2x64) S2x64.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S64.size a ≤ S64.size a
  hwx0_11 : ∀ i : grid0.Coords, EltTy.bits .f32 = 32 ∨ (Rect.block (s := S64) S64.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S64.size a ≤ S64.size a
  hwx0_12 : ∀ i : grid0.Coords, EltTy.bits .f32 = 32 ∨ (Rect.block (s := S64) S64.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S64.size a ≤ S64.size a
  hwx0_13 : ∀ i : grid0.Coords, EltTy.bits .f32 = 32 ∨ (Rect.block (s := S64) S64.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S640x256.size a ≤ S640x256.size a
  hwx0_14 : ∀ i : grid0.Coords, EltTy.bits .f32 = 32 ∨ (Rect.block (s := S640x256) S640x256.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S256.size a ≤ S256.size a
  hwx0_15 : ∀ i : grid0.Coords, EltTy.bits .f32 = 32 ∨ (Rect.block (s := S256) S256.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S256.size a ≤ S256.size a
  hwx0_16 : ∀ i : grid0.Coords, EltTy.bits .f32 = 32 ∨ (Rect.block (s := S256) S256.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S256.size a ≤ S256.size a
  hwx0_17 : ∀ i : grid0.Coords, EltTy.bits .f32 = 32 ∨ (Rect.block (s := S256) S256.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S256x256.size a ≤ S256x256.size a
  hwx0_18 : ∀ i : grid0.Coords, EltTy.bits .f32 = 32 ∨ (Rect.block (s := S256x256) S256x256.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S256.size a ≤ S256.size a
  hwx0_19 : ∀ i : grid0.Coords, EltTy.bits .f32 = 32 ∨ (Rect.block (s := S256) S256.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S256.size a ≤ S256.size a
  hwx0_20 : ∀ i : grid0.Coords, EltTy.bits .f32 = 32 ∨ (Rect.block (s := S256) S256.size (cc0_transform_20 i) (hinb0_20 i)).WholeWords (EltTy.packing .f32)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S256.size a ≤ S256.size a
  hwx0_21 : ∀ i : grid0.Coords, EltTy.bits .f32 = 32 ∨ (Rect.block (s := S256) S256.size (cc0_transform_21 i) (hinb0_21 i)).WholeWords (EltTy.packing .f32)
  hstage0_22 : ∀ j, (stage0_22 j).IsWhole
  nbuf0_22 : grid0.bufCount reads0_22 true = 1
  hreads0_22 : ∀ i i' : grid0.Coords, (∀ a, reads0_22 a = true → i a = i' a) → cc0_transform_22 i = cc0_transform_22 i'
  hinb0_22 : ∀ (i : grid0.Coords) a, (cc0_transform_22 i a + 1) * S256x64.size a ≤ S256x64.size a
  hwx0_22 : ∀ i : grid0.Coords, EltTy.bits .f32 = 32 ∨ (Rect.block (s := S256x64) S256x64.size (cc0_transform_22 i) (hinb0_22 i)).WholeWords (EltTy.packing .f32)
  hstage0_23 : ∀ j, (stage0_23 j).IsWhole
  nbuf0_23 : grid0.bufCount reads0_23 true = 1
  hreads0_23 : ∀ i i' : grid0.Coords, (∀ a, reads0_23 a = true → i a = i' a) → cc0_transform_23 i = cc0_transform_23 i'
  hinb0_23 : ∀ (i : grid0.Coords) a, (cc0_transform_23 i a + 1) * S64.size a ≤ S64.size a
  hwx0_23 : ∀ i : grid0.Coords, EltTy.bits .f32 = 32 ∨ (Rect.block (s := S64) S64.size (cc0_transform_23 i) (hinb0_23 i)).WholeWords (EltTy.packing .f32)
  hstage0_24 : ∀ j, (stage0_24 j).IsWhole
  nbuf0_24 : grid0.bufCount reads0_24 true = 1
  hreads0_24 : ∀ i i' : grid0.Coords, (∀ a, reads0_24 a = true → i a = i' a) → cc0_transform_24 i = cc0_transform_24 i'
  hinb0_24 : ∀ (i : grid0.Coords) a, (cc0_transform_24 i a + 1) * S256x64.size a ≤ S256x64.size a
  hwx0_24 : ∀ i : grid0.Coords, EltTy.bits .f32 = 32 ∨ (Rect.block (s := S256x64) S256x64.size (cc0_transform_24 i) (hinb0_24 i)).WholeWords (EltTy.packing .f32)
  hstage0_25 : ∀ j, (stage0_25 j).IsWhole
  nbuf0_25 : grid0.bufCount reads0_25 true = 1
  hreads0_25 : ∀ i i' : grid0.Coords, (∀ a, reads0_25 a = true → i a = i' a) → cc0_transform_25 i = cc0_transform_25 i'
  hinb0_25 : ∀ (i : grid0.Coords) a, (cc0_transform_25 i a + 1) * S64.size a ≤ S64.size a
  hwx0_25 : ∀ i : grid0.Coords, EltTy.bits .f32 = 32 ∨ (Rect.block (s := S64) S64.size (cc0_transform_25 i) (hinb0_25 i)).WholeWords (EltTy.packing .f32)
  hstage0_26 : ∀ j, (stage0_26 j).IsWhole
  nbuf0_26 : grid0.bufCount reads0_26 false = 2
  hreads0_26 : ∀ i i' : grid0.Coords, (∀ a, reads0_26 a = true → i a = i' a) → cc0_transform_26 i = cc0_transform_26 i'
  hinb0_26 : ∀ (i : grid0.Coords) a, (cc0_transform_26 i a + 1) * S1024x64x2.size a ≤ S65536x64x2.size a
  hwx0_26 : ∀ i : grid0.Coords, EltTy.bits .f32 = 32 ∨ (Rect.block (s := S65536x64x2) S1024x64x2.size (cc0_transform_26 i) (hinb0_26 i)).WholeWords (EltTy.packing .f32)

variable [Facts₀]

def dot_S1024x10_S10x128_S1024x128_1_0_0_1_n_n : DotDims S1024x10 S10x128 S1024x128 where
  lhsContracting := [1]
  rhsContracting := [0]
  lhsNonContracting := [0]
  rhsNonContracting := [1]
  lhsBatch := []
  rhsBatch := []
  wf := dot_S1024x10_S10x128_S1024x128_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1024x2_S2x64_S1024x64_1_0_0_1_n_n : DotDims S1024x2 S2x64 S1024x64 where
  lhsContracting := [1]
  rhsContracting := [0]
  lhsNonContracting := [0]
  rhsNonContracting := [1]
  lhsBatch := []
  rhsBatch := []
  wf := dot_S1024x2_S2x64_S1024x64_1_0_0_1_n_n_wf
def dot_S1024x640_S640x256_S1024x256_1_0_0_1_n_n : DotDims S1024x640 S640x256 S1024x256 where
  lhsContracting := [1]
  rhsContracting := [0]
  lhsNonContracting := [0]
  rhsNonContracting := [1]
  lhsBatch := []
  rhsBatch := []
  wf := dot_S1024x640_S640x256_S1024x256_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S1024x256_S256x64_S1024x64_1_0_0_1_n_n : DotDims S1024x256 S256x64 S1024x64 where
  lhsContracting := [1]
  rhsContracting := [0]
  lhsNonContracting := [0]
  rhsNonContracting := [1]
  lhsBatch := []
  rhsBatch := []
  wf := dot_S1024x256_S256x64_S1024x64_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S10x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S2x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S64.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S64.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S64.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg14) S640x256.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg15) S256.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg16) S256.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_arg17) S256.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_arg18) S256x256.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_arg19) S256.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_arg20) S256.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_arg21) S256.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_arg22) S256x64.size cc0_transform_22 reads0_22 false true 1 stage0_22 sem0_22
    hrank0 hreads0_22 hinb0_22 nbuf0_22 (Memref.isWhole_whole _) hwx0_22 hstage0_22

abbrev win0_23 : Pipeline.Window sig grid0 :=
  Pipeline.Window.ofSpec (Memref.whole main_arg23) S64.size cc0_transform_23 reads0_23 false true 1 stage0_23 sem0_23
    hrank0 hreads0_23 hinb0_23 nbuf0_23 (Memref.isWhole_whole _) hwx0_23 hstage0_23

abbrev win0_24 : Pipeline.Window sig grid0 :=
  Pipeline.Window.ofSpec (Memref.whole main_arg24) S256x64.size cc0_transform_24 reads0_24 false true 1 stage0_24 sem0_24
    hrank0 hreads0_24 hinb0_24 nbuf0_24 (Memref.isWhole_whole _) hwx0_24 hstage0_24

abbrev win0_25 : Pipeline.Window sig grid0 :=
  Pipeline.Window.ofSpec (Memref.whole main_arg25) S64.size cc0_transform_25 reads0_25 false true 1 stage0_25 sem0_25
    hrank0 hreads0_25 hinb0_25 nbuf0_25 (Memref.isWhole_whole _) hwx0_25 hstage0_25

abbrev win0_26 : Pipeline.Window sig grid0 :=
  Pipeline.Window.ofSpec (Memref.whole main_v0) S1024x64x2.size cc0_transform_26 reads0_26 true false 2 stage0_26 sem0_26
    hrank0 hreads0_26 hinb0_26 nbuf0_26 (Memref.isWhole_whole _) hwx0_26 hstage0_26

abbrev win0 : Fin 27 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | 24 => win0_24 | 25 => win0_25 | 26 => win0_26 | ⟨_ + 27, h⟩ => absurd h (Nat.not_lt.2 (Nat.le_add_left _ _))
abbrev spec0 : Fin 27 → Pipeline.WinSpec sig grid0.rank := fun w => (win0 w).toWinSpec

class Facts : Prop extends Facts₀ where

variable [Facts]
-- ==== ReferenceIdeal.lean ====
abbrev S65536x512 : Shape := ⟨2, ![65536, 512]⟩
abbrev S65536x2 : Shape := ⟨2, ![65536, 2]⟩
abbrev S10x128 : Shape := ⟨2, ![10, 128]⟩
abbrev S128 : Shape := ⟨1, ![128]⟩
abbrev S128x128 : Shape := ⟨2, ![128, 128]⟩
abbrev S2x64 : Shape := ⟨2, ![2, 64]⟩
abbrev S64 : Shape := ⟨1, ![64]⟩
abbrev S640x256 : Shape := ⟨2, ![640, 256]⟩
abbrev S256 : Shape := ⟨1, ![256]⟩
abbrev S256x256 : Shape := ⟨2, ![256, 256]⟩
abbrev S256x64 : Shape := ⟨2, ![256, 64]⟩
abbrev S65536x64 : Shape := ⟨2, ![65536, 64]⟩
abbrev S65536x68 : Shape := ⟨2, ![65536, 68]⟩
abbrev S65536x380 : Shape := ⟨2, ![65536, 380]⟩
abbrev S65536x448 : Shape := ⟨2, ![65536, 448]⟩
abbrev S_ : Shape := ⟨0, ![]⟩
abbrev S65536x64x1 : Shape := ⟨3, ![65536, 64, 1]⟩
abbrev S1x1x10 : Shape := ⟨3, ![1, 1, 10]⟩
abbrev S65536x64x10 : Shape := ⟨3, ![65536, 64, 10]⟩
abbrev S65536x10 : Shape := ⟨2, ![65536, 10]⟩
abbrev S65536 : Shape := ⟨1, ![65536]⟩
abbrev S65536x1 : Shape := ⟨2, ![65536, 1]⟩
abbrev S65536x128 : Shape := ⟨2, ![65536, 128]⟩
abbrev S1x128 : Shape := ⟨2, ![1, 128]⟩
abbrev S1x64 : Shape := ⟨2, ![1, 64]⟩
abbrev S65536x640 : Shape := ⟨2, ![65536, 640]⟩
abbrev S65536x256 : Shape := ⟨2, ![65536, 256]⟩
abbrev S1x256 : Shape := ⟨2, ![1, 256]⟩
abbrev S65536x64x2 : Shape := ⟨3, ![65536, 64, 2]⟩

abbrev nBuf : Space → Nat
  | .hbm => 262
  | .vmem => 0
  | .smem => 0
  | _ => 0

abbrev hbmTy0_0 (i : Nat) : BufTy := match i % 128 with
  | 0 => ⟨S65536x512, .f32⟩
  | 1 => ⟨S65536x2, .f32⟩
  | 2 => ⟨S10x128, .f32⟩
  | 3 => ⟨S128, .f32⟩
  | 4 => ⟨S128, .f32⟩
  | 5 => ⟨S128, .f32⟩
  | 6 => ⟨S128x128, .f32⟩
  | 7 => ⟨S128, .f32⟩
  | 8 => ⟨S128, .f32⟩
  | 9 => ⟨S128, .f32⟩
  | 10 => ⟨S2x64, .f32⟩
  | 11 => ⟨S64, .f32⟩
  | 12 => ⟨S64, .f32⟩
  | 13 => ⟨S64, .f32⟩
  | 14 => ⟨S640x256, .f32⟩
  | 15 => ⟨S256, .f32⟩
  | 16 => ⟨S256, .f32⟩
  | 17 => ⟨S256, .f32⟩
  | 18 => ⟨S256x256, .f32⟩
  | 19 => ⟨S256, .f32⟩
  | 20 => ⟨S256, .f32⟩
  | 21 => ⟨S256, .f32⟩
  | 22 => ⟨S256x64, .f32⟩
  | 23 => ⟨S64, .f32⟩
  | 24 => ⟨S256x64, .f32⟩
  | 25 => ⟨S64, .f32⟩
  | 26 => ⟨S65536x64, .f32⟩
  | 27 => ⟨S65536x68, .f32⟩
  | 28 => ⟨S65536x380, .f32⟩
  | 29 => ⟨S65536x448, .f32⟩
  | 30 => ⟨S_, .f32⟩
  | 31 => ⟨S65536x64, .f32⟩
  | 32 => ⟨S65536x64, .f32⟩
  | 33 => ⟨S65536x64, .f32⟩
  | 34 => ⟨S65536x64, .i32⟩
  | 35 => ⟨S_, .i32⟩
  | 36 => ⟨S_, .i32⟩
  | 37 => ⟨S_, .i32⟩
  | 38 => ⟨S65536x64, .i32⟩
  | 39 => ⟨S65536x64, .i32⟩
  | 40 => ⟨S_, .i32⟩
  | 41 => ⟨S65536x64, .i32⟩
  | 42 => ⟨S65536x64, .i32⟩
  | 43 => ⟨S_, .f32⟩
  | 44 => ⟨S65536x64, .f32⟩
  | 45 => ⟨S65536x64, .i1⟩
  | 46 => ⟨S_, .f32⟩
  | 47 => ⟨S65536x64, .f32⟩
  | 48 => ⟨S65536x64, .i1⟩
  | 49 => ⟨S65536x64, .i1⟩
  | 50 => ⟨S65536x64, .f32⟩
  | 51 => ⟨S65536x64x1, .i32⟩
  | 52 => ⟨S1x1x10, .i32⟩
  | 53 => ⟨S65536x64x10, .i32⟩
  | 54 => ⟨S65536x64x10, .i32⟩
  | 55 => ⟨S65536x64x10, .i1⟩
  | 56 => ⟨S65536x64x10, .f32⟩
  | 57 => ⟨S65536x64x1, .f32⟩
  | 58 => ⟨S65536x64x10, .f32⟩
  | 59 => ⟨S65536x64x10, .f32⟩
  | 60 => ⟨S_, .f32⟩
  | 61 => ⟨S65536x10, .f32⟩
  | 62 => ⟨S_, .f32⟩
  | 63 => ⟨S65536, .f32⟩
  | 64 => ⟨S65536x1, .f32⟩
  | 65 => ⟨S_, .f32⟩
  | 66 => ⟨S65536x1, .f32⟩
  | 67 => ⟨S65536x1, .f32⟩
  | 68 => ⟨S65536x10, .f32⟩
  | 69 => ⟨S65536x10, .f32⟩
  | 70 => ⟨S65536x128, .f32⟩
  | 71 => ⟨S1x128, .f32⟩
  | 72 => ⟨S65536x128, .f32⟩
  | 73 => ⟨S65536x128, .f32⟩
  | 74 => ⟨S_, .f32⟩
  | 75 => ⟨S65536x128, .f32⟩
  | 76 => ⟨S65536x128, .f32⟩
  | 77 => ⟨S_, .f32⟩
  | 78 => ⟨S65536, .f32⟩
  | 79 => ⟨S65536x1, .f32⟩
  | 80 => ⟨S_, .f32⟩
  | 81 => ⟨S65536x1, .f32⟩
  | 82 => ⟨S65536x1, .f32⟩
  | 83 => ⟨S65536x128, .f32⟩
  | 84 => ⟨S65536x128, .f32⟩
  | 85 => ⟨S65536x128, .f32⟩
  | 86 => ⟨S_, .f32⟩
  | 87 => ⟨S65536, .f32⟩
  | 88 => ⟨S65536x1, .f32⟩
  | 89 => ⟨S_, .f32⟩
  | 90 => ⟨S65536x1, .f32⟩
  | 91 => ⟨S65536x1, .f32⟩
  | 92 => ⟨S65536x128, .f32⟩
  | 93 => ⟨S65536x128, .f32⟩
  | 94 => ⟨S_, .f32⟩
  | 95 => ⟨S65536x1, .f32⟩
  | 96 => ⟨S65536x1, .f32⟩
  | 97 => ⟨S65536x1, .f32⟩
  | 98 => ⟨S65536x128, .f32⟩
  | 99 => ⟨S65536x128, .f32⟩
  | 100 => ⟨S1x128, .f32⟩
  | 101 => ⟨S65536x128, .f32⟩
  | 102 => ⟨S65536x128, .f32⟩
  | 103 => ⟨S1x128, .f32⟩
  | 104 => ⟨S65536x128, .f32⟩
  | 105 => ⟨S65536x128, .f32⟩
  | 106 => ⟨S65536x128, .f32⟩
  | 107 => ⟨S1x128, .f32⟩
  | 108 => ⟨S65536x128, .f32⟩
  | 109 => ⟨S65536x128, .f32⟩
  | 110 => ⟨S_, .f32⟩
  | 111 => ⟨S65536x128, .f32⟩
  | 112 => ⟨S65536x128, .f32⟩
  | 113 => ⟨S_, .f32⟩
  | 114 => ⟨S65536, .f32⟩
  | 115 => ⟨S65536x1, .f32⟩
  | 116 => ⟨S_, .f32⟩
  | 117 => ⟨S65536x1, .f32⟩
  | 118 => ⟨S65536x1, .f32⟩
  | 119 => ⟨S65536x128, .f32⟩
  | 120 => ⟨S65536x128, .f32⟩
  | 121 => ⟨S65536x128, .f32⟩
  | 122 => ⟨S_, .f32⟩
  | 123 => ⟨S65536, .f32⟩
  | 124 => ⟨S65536x1, .f32⟩
  | 125 => ⟨S_, .f32⟩
  | 126 => ⟨S65536x1, .f32⟩
  | 127 => ⟨S65536x1, .f32⟩
  | _ => ⟨S65536x512, .f32⟩

abbrev hbmTy0_1 (i : Nat) : BufTy := match i % 128 with
  | 0 => ⟨S65536x128, .f32⟩
  | 1 => ⟨S65536x128, .f32⟩
  | 2 => ⟨S_, .f32⟩
  | 3 => ⟨S65536x1, .f32⟩
  | 4 => ⟨S65536x1, .f32⟩
  | 5 => ⟨S65536x1, .f32⟩
  | 6 => ⟨S65536x128, .f32⟩
  | 7 => ⟨S65536x128, .f32⟩
  | 8 => ⟨S1x128, .f32⟩
  | 9 => ⟨S65536x128, .f32⟩
  | 10 => ⟨S65536x128, .f32⟩
  | 11 => ⟨S1x128, .f32⟩
  | 12 => ⟨S65536x128, .f32⟩
  | 13 => ⟨S65536x128, .f32⟩
  | 14 => ⟨S65536x64, .f32⟩
  | 15 => ⟨S1x64, .f32⟩
  | 16 => ⟨S65536x64, .f32⟩
  | 17 => ⟨S65536x64, .f32⟩
  | 18 => ⟨S_, .f32⟩
  | 19 => ⟨S65536x64, .f32⟩
  | 20 => ⟨S65536x64, .f32⟩
  | 21 => ⟨S_, .f32⟩
  | 22 => ⟨S65536, .f32⟩
  | 23 => ⟨S65536x1, .f32⟩
  | 24 => ⟨S_, .f32⟩
  | 25 => ⟨S65536x1, .f32⟩
  | 26 => ⟨S65536x1, .f32⟩
  | 27 => ⟨S65536x64, .f32⟩
  | 28 => ⟨S65536x64, .f32⟩
  | 29 => ⟨S65536x64, .f32⟩
  | 30 => ⟨S_, .f32⟩
  | 31 => ⟨S65536, .f32⟩
  | 32 => ⟨S65536x1, .f32⟩
  | 33 => ⟨S_, .f32⟩
  | 34 => ⟨S65536x1, .f32⟩
  | 35 => ⟨S65536x1, .f32⟩
  | 36 => ⟨S65536x64, .f32⟩
  | 37 => ⟨S65536x64, .f32⟩
  | 38 => ⟨S_, .f32⟩
  | 39 => ⟨S65536x1, .f32⟩
  | 40 => ⟨S65536x1, .f32⟩
  | 41 => ⟨S65536x1, .f32⟩
  | 42 => ⟨S65536x64, .f32⟩
  | 43 => ⟨S65536x64, .f32⟩
  | 44 => ⟨S1x64, .f32⟩
  | 45 => ⟨S65536x64, .f32⟩
  | 46 => ⟨S65536x64, .f32⟩
  | 47 => ⟨S1x64, .f32⟩
  | 48 => ⟨S65536x64, .f32⟩
  | 49 => ⟨S65536x64, .f32⟩
  | 50 => ⟨S65536x640, .f32⟩
  | 51 => ⟨S65536x256, .f32⟩
  | 52 => ⟨S1x256, .f32⟩
  | 53 => ⟨S65536x256, .f32⟩
  | 54 => ⟨S65536x256, .f32⟩
  | 55 => ⟨S_, .f32⟩
  | 56 => ⟨S65536x256, .f32⟩
  | 57 => ⟨S65536x256, .f32⟩
  | 58 => ⟨S_, .f32⟩
  | 59 => ⟨S65536, .f32⟩
  | 60 => ⟨S65536x1, .f32⟩
  | 61 => ⟨S_, .f32⟩
  | 62 => ⟨S65536x1, .f32⟩
  | 63 => ⟨S65536x1, .f32⟩
  | 64 => ⟨S65536x256, .f32⟩
  | 65 => ⟨S65536x256, .f32⟩
  | 66 => ⟨S65536x256, .f32⟩
  | 67 => ⟨S_, .f32⟩
  | 68 => ⟨S65536, .f32⟩
  | 69 => ⟨S65536x1, .f32⟩
  | 70 => ⟨S_, .f32⟩
  | 71 => ⟨S65536x1, .f32⟩
  | 72 => ⟨S65536x1, .f32⟩
  | 73 => ⟨S65536x256, .f32⟩
  | 74 => ⟨S65536x256, .f32⟩
  | 75 => ⟨S_, .f32⟩
  | 76 => ⟨S65536x1, .f32⟩
  | 77 => ⟨S65536x1, .f32⟩
  | 78 => ⟨S65536x1, .f32⟩
  | 79 => ⟨S65536x256, .f32⟩
  | 80 => ⟨S65536x256, .f32⟩
  | 81 => ⟨S1x256, .f32⟩
  | 82 => ⟨S65536x256, .f32⟩
  | 83 => ⟨S65536x256, .f32⟩
  | 84 => ⟨S1x256, .f32⟩
  | 85 => ⟨S65536x256, .f32⟩
  | 86 => ⟨S65536x256, .f32⟩
  | 87 => ⟨S65536x256, .f32⟩
  | 88 => ⟨S1x256, .f32⟩
  | 89 => ⟨S65536x256, .f32⟩
  | 90 => ⟨S65536x256, .f32⟩
  | 91 => ⟨S_, .f32⟩
  | 92 => ⟨S65536x256, .f32⟩
  | 93 => ⟨S65536x256, .f32⟩
  | 94 => ⟨S_, .f32⟩
  | 95 => ⟨S65536, .f32⟩
  | 96 => ⟨S65536x1, .f32⟩
  | 97 => ⟨S_, .f32⟩
  | 98 => ⟨S65536x1, .f32⟩
  | 99 => ⟨S65536x1, .f32⟩
  | 100 => ⟨S65536x256, .f32⟩
  | 101 => ⟨S65536x256, .f32⟩
  | 102 => ⟨S65536x256, .f32⟩
  | 103 => ⟨S_, .f32⟩
  | 104 => ⟨S65536, .f32⟩
  | 105 => ⟨S65536x1, .f32⟩
  | 106 => ⟨S_, .f32⟩
  | 107 => ⟨S65536x1, .f32⟩
  | 108 => ⟨S65536x1, .f32⟩
  | 109 => ⟨S65536x256, .f32⟩
  | 110 => ⟨S65536x256, .f32⟩
  | 111 => ⟨S_, .f32⟩
  | 112 => ⟨S65536x1, .f32⟩
  | 113 => ⟨S65536x1, .f32⟩
  | 114 => ⟨S65536x1, .f32⟩
  | 115 => ⟨S65536x256, .f32⟩
  | 116 => ⟨S65536x256, .f32⟩
  | 117 => ⟨S1x256, .f32⟩
  | 118 => ⟨S65536x256, .f32⟩
  | 119 => ⟨S65536x256, .f32⟩
  | 120 => ⟨S1x256, .f32⟩
  | 121 => ⟨S65536x256, .f32⟩
  | 122 => ⟨S65536x256, .f32⟩
  | 123 => ⟨S65536x64, .f32⟩
  | 124 => ⟨S1x64, .f32⟩
  | 125 => ⟨S65536x64, .f32⟩
  | 126 => ⟨S65536x64, .f32⟩
  | 127 => ⟨S65536x64, .f32⟩
  | _ => ⟨S65536x512, .f32⟩

abbrev hbmTy0_2 (i : Nat) : BufTy := match i % 128 with
  | 0 => ⟨S1x64, .f32⟩
  | 1 => ⟨S65536x64, .f32⟩
  | 2 => ⟨S65536x64, .f32⟩
  | 3 => ⟨S65536x64x1, .f32⟩
  | 4 => ⟨S65536x64x1, .f32⟩
  | 5 => ⟨S65536x64x2, .f32⟩
  | _ => ⟨S65536x512, .f32⟩

abbrev hbmTy (i : Nat) : BufTy := match i / 128 with
  | 0 => hbmTy0_0 i
  | 1 => hbmTy0_1 i
  | 2 => hbmTy0_2 i
  | _ => ⟨S65536x512, .f32⟩

abbrev bufTy : (tb : Table) → Fin (tcTables nBuf tb) → BufTy
  | .hbm, ⟨i, _⟩ => hbmTy i
  | _, _ => ⟨S65536x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_cst : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_c : Ref sig .tc := ⟨.hbm, 35, rfl⟩
abbrev main_c_0 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_v8 : Ref sig .tc := ⟨.hbm, 42, rfl⟩
abbrev main_cst_1 : Ref sig .tc := ⟨.hbm, 43, rfl⟩
abbrev main_v9 : Ref sig .tc := ⟨.hbm, 44, rfl⟩
abbrev main_v10 : Ref sig .tc := ⟨.hbm, 45, rfl⟩
abbrev main_cst_2 : Ref sig .tc := ⟨.hbm, 46, rfl⟩
abbrev main_v11 : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_v15 : Ref sig .tc := ⟨.hbm, 56, rfl⟩
abbrev main_v16 : Ref sig .tc := ⟨.hbm, 57, rfl⟩
abbrev main_v17 : Ref sig .tc := ⟨.hbm, 58, rfl⟩
abbrev main_v18 : Ref sig .tc := ⟨.hbm, 59, rfl⟩
abbrev main_cst_3 : Ref sig .tc := ⟨.hbm, 60, rfl⟩
abbrev main_v19 : Ref sig .tc := ⟨.hbm, 61, rfl⟩
abbrev main_cst_4 : Ref sig .tc := ⟨.hbm, 62, rfl⟩
abbrev main_v20 : Ref sig .tc := ⟨.hbm, 63, rfl⟩
abbrev main_v21 : Ref sig .tc := ⟨.hbm, 64, rfl⟩
abbrev main_cst_5 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_call2_cst : Ref sig .tc := ⟨.hbm, 74, rfl⟩
abbrev main_call2_v0 : Ref sig .tc := ⟨.hbm, 75, rfl⟩
abbrev main_v30 : Ref sig .tc := ⟨.hbm, 76, rfl⟩
abbrev main_cst_6 : Ref sig .tc := ⟨.hbm, 77, rfl⟩
abbrev main_v31 : Ref sig .tc := ⟨.hbm, 78, rfl⟩
abbrev main_v32 : Ref sig .tc := ⟨.hbm, 79, rfl⟩
abbrev main_cst_7 : Ref sig .tc := ⟨.hbm, 80, rfl⟩
abbrev main_v33 : Ref sig .tc := ⟨.hbm, 81, rfl⟩
abbrev main_v34 : Ref sig .tc := ⟨.hbm, 82, rfl⟩
abbrev main_v35 : Ref sig .tc := ⟨.hbm, 83, rfl⟩
abbrev main_v36 : Ref sig .tc := ⟨.hbm, 84, rfl⟩
abbrev main_v37 : Ref sig .tc := ⟨.hbm, 85, rfl⟩
abbrev main_cst_8 : Ref sig .tc := ⟨.hbm, 86, rfl⟩
abbrev main_v38 : Ref sig .tc := ⟨.hbm, 87, rfl⟩
abbrev main_v39 : Ref sig .tc := ⟨.hbm, 88, rfl⟩
abbrev main_cst_9 : Ref sig .tc := ⟨.hbm, 89, rfl⟩
abbrev main_v40 : Ref sig .tc := ⟨.hbm, 90, rfl⟩
abbrev main_v41 : Ref sig .tc := ⟨.hbm, 91, rfl⟩
abbrev main_v42 : Ref sig .tc := ⟨.hbm, 92, rfl⟩
abbrev main_v43 : Ref sig .tc := ⟨.hbm, 93, rfl⟩
abbrev main_cst_10 : Ref sig .tc := ⟨.hbm, 94, rfl⟩
abbrev main_v44 : Ref sig .tc := ⟨.hbm, 95, rfl⟩
abbrev main_v45 : Ref sig .tc := ⟨.hbm, 96, rfl⟩
abbrev main_v46 : Ref sig .tc := ⟨.hbm, 97, rfl⟩
abbrev main_v47 : Ref sig .tc := ⟨.hbm, 98, rfl⟩
abbrev main_v48 : Ref sig .tc := ⟨.hbm, 99, rfl⟩
abbrev main_v49 : Ref sig .tc := ⟨.hbm, 100, rfl⟩
abbrev main_v50 : Ref sig .tc := ⟨.hbm, 101, rfl⟩
abbrev main_v51 : Ref sig .tc := ⟨.hbm, 102, rfl⟩
abbrev main_v52 : Ref sig .tc := ⟨.hbm, 103, rfl⟩
abbrev main_v53 : Ref sig .tc := ⟨.hbm, 104, rfl⟩
abbrev main_v54 : Ref sig .tc := ⟨.hbm, 105, rfl⟩
abbrev main_v55 : Ref sig .tc := ⟨.hbm, 106, rfl⟩
abbrev main_v56 : Ref sig .tc := ⟨.hbm, 107, rfl⟩
abbrev main_v57 : Ref sig .tc := ⟨.hbm, 108, rfl⟩
abbrev main_v58 : Ref sig .tc := ⟨.hbm, 109, rfl⟩
abbrev main_call3_cst : Ref sig .tc := ⟨.hbm, 110, rfl⟩
abbrev main_call3_v0 : Ref sig .tc := ⟨.hbm, 111, rfl⟩
abbrev main_v59 : Ref sig .tc := ⟨.hbm, 112, rfl⟩
abbrev main_cst_11 : Ref sig .tc := ⟨.hbm, 113, rfl⟩
abbrev main_v60 : Ref sig .tc := ⟨.hbm, 114, rfl⟩
abbrev main_v61 : Ref sig .tc := ⟨.hbm, 115, rfl⟩
abbrev main_cst_12 : Ref sig .tc := ⟨.hbm, 116, rfl⟩
abbrev main_v62 : Ref sig .tc := ⟨.hbm, 117, rfl⟩
abbrev main_v63 : Ref sig .tc := ⟨.hbm, 118, rfl⟩
abbrev main_v64 : Ref sig .tc := ⟨.hbm, 119, rfl⟩
abbrev main_v65 : Ref sig .tc := ⟨.hbm, 120, rfl⟩
abbrev main_v66 : Ref sig .tc := ⟨.hbm, 121, rfl⟩
abbrev main_cst_13 : Ref sig .tc := ⟨.hbm, 122, rfl⟩
abbrev main_v67 : Ref sig .tc := ⟨.hbm, 123, rfl⟩
abbrev main_v68 : Ref sig .tc := ⟨.hbm, 124, rfl⟩
abbrev main_cst_14 : Ref sig .tc := ⟨.hbm, 125, rfl⟩
abbrev main_v69 : Ref sig .tc := ⟨.hbm, 126, rfl⟩
abbrev main_v70 : Ref sig .tc := ⟨.hbm, 127, rfl⟩
abbrev main_v71 : Ref sig .tc := ⟨.hbm, 128, rfl⟩
abbrev main_v72 : Ref sig .tc := ⟨.hbm, 129, rfl⟩
abbrev main_cst_15 : Ref sig .tc := ⟨.hbm, 130, rfl⟩
abbrev main_v73 : Ref sig .tc := ⟨.hbm, 131, rfl⟩
abbrev main_v74 : Ref sig .tc := ⟨.hbm, 132, rfl⟩
abbrev main_v75 : Ref sig .tc := ⟨.hbm, 133, rfl⟩
abbrev main_v76 : Ref sig .tc := ⟨.hbm, 134, rfl⟩
abbrev main_v77 : Ref sig .tc := ⟨.hbm, 135, rfl⟩
abbrev main_v78 : Ref sig .tc := ⟨.hbm, 136, rfl⟩
abbrev main_v79 : Ref sig .tc := ⟨.hbm, 137, rfl⟩
abbrev main_v80 : Ref sig .tc := ⟨.hbm, 138, rfl⟩
abbrev main_v81 : Ref sig .tc := ⟨.hbm, 139, rfl⟩
abbrev main_v82 : Ref sig .tc := ⟨.hbm, 140, rfl⟩
abbrev main_v83 : Ref sig .tc := ⟨.hbm, 141, rfl⟩
abbrev main_v84 : Ref sig .tc := ⟨.hbm, 142, rfl⟩
abbrev main_v85 : Ref sig .tc := ⟨.hbm, 143, rfl⟩
abbrev main_v86 : Ref sig .tc := ⟨.hbm, 144, rfl⟩
abbrev main_v87 : Ref sig .tc := ⟨.hbm, 145, rfl⟩
abbrev main_call4_cst : Ref sig .tc := ⟨.hbm, 146, rfl⟩
abbrev main_call4_v0 : Ref sig .tc := ⟨.hbm, 147, rfl⟩
abbrev main_v88 : Ref sig .tc := ⟨.hbm, 148, rfl⟩
abbrev main_cst_16 : Ref sig .tc := ⟨.hbm, 149, rfl⟩
abbrev main_v89 : Ref sig .tc := ⟨.hbm, 150, rfl⟩
abbrev main_v90 : Ref sig .tc := ⟨.hbm, 151, rfl⟩
abbrev main_cst_17 : Ref sig .tc := ⟨.hbm, 152, rfl⟩
abbrev main_v91 : Ref sig .tc := ⟨.hbm, 153, rfl⟩
abbrev main_v92 : Ref sig .tc := ⟨.hbm, 154, rfl⟩
abbrev main_v93 : Ref sig .tc := ⟨.hbm, 155, rfl⟩
abbrev main_v94 : Ref sig .tc := ⟨.hbm, 156, rfl⟩
abbrev main_v95 : Ref sig .tc := ⟨.hbm, 157, rfl⟩
abbrev main_cst_18 : Ref sig .tc := ⟨.hbm, 158, rfl⟩
abbrev main_v96 : Ref sig .tc := ⟨.hbm, 159, rfl⟩
abbrev main_v97 : Ref sig .tc := ⟨.hbm, 160, rfl⟩
abbrev main_cst_19 : Ref sig .tc := ⟨.hbm, 161, rfl⟩
abbrev main_v98 : Ref sig .tc := ⟨.hbm, 162, rfl⟩
abbrev main_v99 : Ref sig .tc := ⟨.hbm, 163, rfl⟩
abbrev main_v100 : Ref sig .tc := ⟨.hbm, 164, rfl⟩
abbrev main_v101 : Ref sig .tc := ⟨.hbm, 165, rfl⟩
abbrev main_cst_20 : Ref sig .tc := ⟨.hbm, 166, rfl⟩
abbrev main_v102 : Ref sig .tc := ⟨.hbm, 167, rfl⟩
abbrev main_v103 : Ref sig .tc := ⟨.hbm, 168, rfl⟩
abbrev main_v104 : Ref sig .tc := ⟨.hbm, 169, rfl⟩
abbrev main_v105 : Ref sig .tc := ⟨.hbm, 170, rfl⟩
abbrev main_v106 : Ref sig .tc := ⟨.hbm, 171, rfl⟩
abbrev main_v107 : Ref sig .tc := ⟨.hbm, 172, rfl⟩
abbrev main_v108 : Ref sig .tc := ⟨.hbm, 173, rfl⟩
abbrev main_v109 : Ref sig .tc := ⟨.hbm, 174, rfl⟩
abbrev main_v110 : Ref sig .tc := ⟨.hbm, 175, rfl⟩
abbrev main_v111 : Ref sig .tc := ⟨.hbm, 176, rfl⟩
abbrev main_v112 : Ref sig .tc := ⟨.hbm, 177, rfl⟩
abbrev main_v113 : Ref sig .tc := ⟨.hbm, 178, rfl⟩
abbrev main_v114 : Ref sig .tc := ⟨.hbm, 179, rfl⟩
abbrev main_v115 : Ref sig .tc := ⟨.hbm, 180, rfl⟩
abbrev main_v116 : Ref sig .tc := ⟨.hbm, 181, rfl⟩
abbrev main_v117 : Ref sig .tc := ⟨.hbm, 182, rfl⟩
abbrev main_call5_cst : Ref sig .tc := ⟨.hbm, 183, rfl⟩
abbrev main_call5_v0 : Ref sig .tc := ⟨.hbm, 184, rfl⟩
abbrev main_v118 : Ref sig .tc := ⟨.hbm, 185, rfl⟩
abbrev main_cst_21 : Ref sig .tc := ⟨.hbm, 186, rfl⟩
abbrev main_v119 : Ref sig .tc := ⟨.hbm, 187, rfl⟩
abbrev main_v120 : Ref sig .tc := ⟨.hbm, 188, rfl⟩
abbrev main_cst_22 : Ref sig .tc := ⟨.hbm, 189, rfl⟩
abbrev main_v121 : Ref sig .tc := ⟨.hbm, 190, rfl⟩
abbrev main_v122 : Ref sig .tc := ⟨.hbm, 191, rfl⟩
abbrev main_v123 : Ref sig .tc := ⟨.hbm, 192, rfl⟩
abbrev main_v124 : Ref sig .tc := ⟨.hbm, 193, rfl⟩
abbrev main_v125 : Ref sig .tc := ⟨.hbm, 194, rfl⟩
abbrev main_cst_23 : Ref sig .tc := ⟨.hbm, 195, rfl⟩
abbrev main_v126 : Ref sig .tc := ⟨.hbm, 196, rfl⟩
abbrev main_v127 : Ref sig .tc := ⟨.hbm, 197, rfl⟩
abbrev main_cst_24 : Ref sig .tc := ⟨.hbm, 198, rfl⟩
abbrev main_v128 : Ref sig .tc := ⟨.hbm, 199, rfl⟩
abbrev main_v129 : Ref sig .tc := ⟨.hbm, 200, rfl⟩
abbrev main_v130 : Ref sig .tc := ⟨.hbm, 201, rfl⟩
abbrev main_v131 : Ref sig .tc := ⟨.hbm, 202, rfl⟩
abbrev main_cst_25 : Ref sig .tc := ⟨.hbm, 203, rfl⟩
abbrev main_v132 : Ref sig .tc := ⟨.hbm, 204, rfl⟩
abbrev main_v133 : Ref sig .tc := ⟨.hbm, 205, rfl⟩
abbrev main_v134 : Ref sig .tc := ⟨.hbm, 206, rfl⟩
abbrev main_v135 : Ref sig .tc := ⟨.hbm, 207, rfl⟩
abbrev main_v136 : Ref sig .tc := ⟨.hbm, 208, rfl⟩
abbrev main_v137 : Ref sig .tc := ⟨.hbm, 209, rfl⟩
abbrev main_v138 : Ref sig .tc := ⟨.hbm, 210, rfl⟩
abbrev main_v139 : Ref sig .tc := ⟨.hbm, 211, rfl⟩
abbrev main_v140 : Ref sig .tc := ⟨.hbm, 212, rfl⟩
abbrev main_v141 : Ref sig .tc := ⟨.hbm, 213, rfl⟩
abbrev main_v142 : Ref sig .tc := ⟨.hbm, 214, rfl⟩
abbrev main_v143 : Ref sig .tc := ⟨.hbm, 215, rfl⟩
abbrev main_v144 : Ref sig .tc := ⟨.hbm, 216, rfl⟩
abbrev main_v145 : Ref sig .tc := ⟨.hbm, 217, rfl⟩
abbrev main_v146 : Ref sig .tc := ⟨.hbm, 218, rfl⟩
abbrev main_call6_cst : Ref sig .tc := ⟨.hbm, 219, rfl⟩
abbrev main_call6_v0 : Ref sig .tc := ⟨.hbm, 220, rfl⟩
abbrev main_v147 : Ref sig .tc := ⟨.hbm, 221, rfl⟩
abbrev main_cst_26 : Ref sig .tc := ⟨.hbm, 222, rfl⟩
abbrev main_v148 : Ref sig .tc := ⟨.hbm, 223, rfl⟩
abbrev main_v149 : Ref sig .tc := ⟨.hbm, 224, rfl⟩
abbrev main_cst_27 : Ref sig .tc := ⟨.hbm, 225, rfl⟩
abbrev main_v150 : Ref sig .tc := ⟨.hbm, 226, rfl⟩
abbrev main_v151 : Ref sig .tc := ⟨.hbm, 227, rfl⟩
abbrev main_v152 : Ref sig .tc := ⟨.hbm, 228, rfl⟩
abbrev main_v153 : Ref sig .tc := ⟨.hbm, 229, rfl⟩
abbrev main_v154 : Ref sig .tc := ⟨.hbm, 230, rfl⟩
abbrev main_cst_28 : Ref sig .tc := ⟨.hbm, 231, rfl⟩
abbrev main_v155 : Ref sig .tc := ⟨.hbm, 232, rfl⟩
abbrev main_v156 : Ref sig .tc := ⟨.hbm, 233, rfl⟩
abbrev main_cst_29 : Ref sig .tc := ⟨.hbm, 234, rfl⟩
abbrev main_v157 : Ref sig .tc := ⟨.hbm, 235, rfl⟩
abbrev main_v158 : Ref sig .tc := ⟨.hbm, 236, rfl⟩
abbrev main_v159 : Ref sig .tc := ⟨.hbm, 237, rfl⟩
abbrev main_v160 : Ref sig .tc := ⟨.hbm, 238, rfl⟩
abbrev main_cst_30 : Ref sig .tc := ⟨.hbm, 239, rfl⟩
abbrev main_v161 : Ref sig .tc := ⟨.hbm, 240, rfl⟩
abbrev main_v162 : Ref sig .tc := ⟨.hbm, 241, rfl⟩
abbrev main_v163 : Ref sig .tc := ⟨.hbm, 242, rfl⟩
abbrev main_v164 : Ref sig .tc := ⟨.hbm, 243, rfl⟩
abbrev main_v165 : Ref sig .tc := ⟨.hbm, 244, rfl⟩
abbrev main_v166 : Ref sig .tc := ⟨.hbm, 245, rfl⟩
abbrev main_v167 : Ref sig .tc := ⟨.hbm, 246, rfl⟩
abbrev main_v168 : Ref sig .tc := ⟨.hbm, 247, rfl⟩
abbrev main_v169 : Ref sig .tc := ⟨.hbm, 248, rfl⟩
abbrev main_v170 : Ref sig .tc := ⟨.hbm, 249, rfl⟩
abbrev main_v171 : Ref sig .tc := ⟨.hbm, 250, rfl⟩
abbrev main_v172 : Ref sig .tc := ⟨.hbm, 251, rfl⟩
abbrev main_v173 : Ref sig .tc := ⟨.hbm, 252, rfl⟩
abbrev main_v174 : Ref sig .tc := ⟨.hbm, 253, rfl⟩
abbrev main_v175 : Ref sig .tc := ⟨.hbm, 254, rfl⟩
abbrev main_v176 : Ref sig .tc := ⟨.hbm, 255, rfl⟩
abbrev main_v177 : Ref sig .tc := ⟨.hbm, 256, rfl⟩
abbrev main_v178 : Ref sig .tc := ⟨.hbm, 257, rfl⟩
abbrev main_v179 : Ref sig .tc := ⟨.hbm, 258, rfl⟩
abbrev main_v180 : Ref sig .tc := ⟨.hbm, 259, rfl⟩
abbrev main_v181 : Ref sig .tc := ⟨.hbm, 260, rfl⟩
abbrev main_v182 : Ref sig .tc := ⟨.hbm, 261, rfl⟩

abbrev nD : Nat := 1
abbrev τ : Topo := Topo.v7x

variable {F : FTy → Type} [FloatOps F]

class Facts₀ : Prop where
  slices_S65536x512_S65536x64_0_68 : S65536x512.Slices ![0, 68] S65536x64
  slices_S65536x512_S65536x68_0_0 : S65536x512.Slices ![0, 0] S65536x68
  slices_S65536x512_S65536x380_0_132 : S65536x512.Slices ![0, 132] S65536x380
  concatenates_S65536x68_S65536x380_S65536x448_d1 : Shape.Concatenates [S65536x68, S65536x380] S65536x448 1
  bcast_S_S65536x64 : S_.BroadcastsInDim S65536x64 (![] : Fin 0 → Fin S65536x64.rank)
  bcast_S65536x64_S65536x64x1_0_1 : S65536x64.BroadcastsInDim S65536x64x1 (![0, 1] : Fin 2 → Fin S65536x64x1.rank)
  bcast_S65536x64x1_S65536x64x10_0_1_2 : S65536x64x1.BroadcastsInDim S65536x64x10 (![0, 1, 2] : Fin 3 → Fin S65536x64x10.rank)
  bcast_S1x1x10_S65536x64x10_0_1_2 : S1x1x10.BroadcastsInDim S65536x64x10 (![0, 1, 2] : Fin 3 → Fin S65536x64x10.rank)
  reducesTo_S65536x64x10_S65536x10_d1 : S65536x64x10.ReducesTo [1] S65536x10
  h_S_ : 0 < S_.numel
  reducesTo_S65536x10_S65536_d1 : S65536x10.ReducesTo [1] S65536
  bcast_S65536_S65536x1_0 : S65536.BroadcastsInDim S65536x1 (![0] : Fin 1 → Fin S65536x1.rank)
  bcast_S_S65536x1 : S_.BroadcastsInDim S65536x1 (![] : Fin 0 → Fin S65536x1.rank)
  bcast_S65536x1_S65536x10_0_1 : S65536x1.BroadcastsInDim S65536x10 (![0, 1] : Fin 2 → Fin S65536x10.rank)
  bcast_S128_S1x128_1 : S128.BroadcastsInDim S1x128 (![1] : Fin 1 → Fin S1x128.rank)
  bcast_S1x128_S65536x128_0_1 : S1x128.BroadcastsInDim S65536x128 (![0, 1] : Fin 2 → Fin S65536x128.rank)
  bcast_S_S65536x128 : S_.BroadcastsInDim S65536x128 (![] : Fin 0 → Fin S65536x128.rank)
  reducesTo_S65536x128_S65536_d1 : S65536x128.ReducesTo [1] S65536
  bcast_S65536x1_S65536x128_0_1 : S65536x1.BroadcastsInDim S65536x128 (![0, 1] : Fin 2 → Fin S65536x128.rank)
  bcast_S64_S1x64_1 : S64.BroadcastsInDim S1x64 (![1] : Fin 1 → Fin S1x64.rank)
  bcast_S1x64_S65536x64_0_1 : S1x64.BroadcastsInDim S65536x64 (![0, 1] : Fin 2 → Fin S65536x64.rank)
  reducesTo_S65536x64_S65536_d1 : S65536x64.ReducesTo [1] S65536
  bcast_S65536x1_S65536x64_0_1 : S65536x1.BroadcastsInDim S65536x64 (![0, 1] : Fin 2 → Fin S65536x64.rank)
  concatenates_S65536x448_S65536x128_S65536x64_S65536x640_d1 : Shape.Concatenates [S65536x448, S65536x128, S65536x64] S65536x640 1
  bcast_S256_S1x256_1 : S256.BroadcastsInDim S1x256 (![1] : Fin 1 → Fin S1x256.rank)
  bcast_S1x256_S65536x256_0_1 : S1x256.BroadcastsInDim S65536x256 (![0, 1] : Fin 2 → Fin S65536x256.rank)
  bcast_S_S65536x256 : S_.BroadcastsInDim S65536x256 (![] : Fin 0 → Fin S65536x256.rank)
  reducesTo_S65536x256_S65536_d1 : S65536x256.ReducesTo [1] S65536
  bcast_S65536x1_S65536x256_0_1 : S65536x1.BroadcastsInDim S65536x256 (![0, 1] : Fin 2 → Fin S65536x256.rank)
  concatenates_S65536x64x1_S65536x64x1_S65536x64x2_d2 : Shape.Concatenates [S65536x64x1, S65536x64x1] S65536x64x2 2
  dot_S65536x10_S10x128_S65536x128_1_0_0_1_n_n_wf : DotDims.WF S65536x10 S10x128 S65536x128 [1] [0] [0] [1] [] []
  dot_S65536x128_S128x128_S65536x128_1_0_0_1_n_n_wf : DotDims.WF S65536x128 S128x128 S65536x128 [1] [0] [0] [1] [] []
  dot_S65536x2_S2x64_S65536x64_1_0_0_1_n_n_wf : DotDims.WF S65536x2 S2x64 S65536x64 [1] [0] [0] [1] [] []
  dot_S65536x640_S640x256_S65536x256_1_0_0_1_n_n_wf : DotDims.WF S65536x640 S640x256 S65536x256 [1] [0] [0] [1] [] []
  dot_S65536x256_S256x256_S65536x256_1_0_0_1_n_n_wf : DotDims.WF S65536x256 S256x256 S65536x256 [1] [0] [0] [1] [] []
  dot_S65536x256_S256x64_S65536x64_1_0_0_1_n_n_wf : DotDims.WF S65536x256 S256x64 S65536x64 [1] [0] [0] [1] [] []

variable [Facts₀]

def dot_S65536x10_S10x128_S65536x128_1_0_0_1_n_n : DotDims S65536x10 S10x128 S65536x128 where
  lhsContracting := [1]
  rhsContracting := [0]
  lhsNonContracting := [0]
  rhsNonContracting := [1]
  lhsBatch := []
  rhsBatch := []
  wf := dot_S65536x10_S10x128_S65536x128_1_0_0_1_n_n_wf
def dot_S65536x128_S128x128_S65536x128_1_0_0_1_n_n : DotDims S65536x128 S128x128 S65536x128 where
  lhsContracting := [1]
  rhsContracting := [0]
  lhsNonContracting := [0]
  rhsNonContracting := [1]
  lhsBatch := []
  rhsBatch := []
  wf := dot_S65536x128_S128x128_S65536x128_1_0_0_1_n_n_wf
def dot_S65536x2_S2x64_S65536x64_1_0_0_1_n_n : DotDims S65536x2 S2x64 S65536x64 where
  lhsContracting := [1]
  rhsContracting := [0]
  lhsNonContracting := [0]
  rhsNonContracting := [1]
  lhsBatch := []
  rhsBatch := []
  wf := dot_S65536x2_S2x64_S65536x64_1_0_0_1_n_n_wf
def dot_S65536x640_S640x256_S65536x256_1_0_0_1_n_n : DotDims S65536x640 S640x256 S65536x256 where
  lhsContracting := [1]
  rhsContracting := [0]
  lhsNonContracting := [0]
  rhsNonContracting := [1]
  lhsBatch := []
  rhsBatch := []
  wf := dot_S65536x640_S640x256_S65536x256_1_0_0_1_n_n_wf
def dot_S65536x256_S256x256_S65536x256_1_0_0_1_n_n : DotDims S65536x256 S256x256 S65536x256 where
  lhsContracting := [1]
  rhsContracting := [0]
  lhsNonContracting := [0]
  rhsNonContracting := [1]
  lhsBatch := []
  rhsBatch := []
  wf := dot_S65536x256_S256x256_S65536x256_1_0_0_1_n_n_wf
def dot_S65536x256_S256x64_S65536x64_1_0_0_1_n_n : DotDims S65536x256 S256x64 S65536x64 where
  lhsContracting := [1]
  rhsContracting := [0]
  lhsNonContracting := [0]
  rhsNonContracting := [1]
  lhsBatch := []
  rhsBatch := []
  wf := dot_S65536x256_S256x64_S65536x64_1_0_0_1_n_n_wf

class Facts : Prop extends Facts₀ where

variable [Facts]
-- ==== Proof.Spec.lean ====
/-
  The function both programs compute, row by row.

  A row of the observation array (512 numbers) is split into the 64 server workloads (columns 68..131) and the
  remaining 448 columns.  The workloads are binned into a 10-bin histogram over [0, 10] (bin index = the floor of the
  value clamped to 0..9, values outside [0, 10] not counted), normalised by its total plus 1e-8.  The histogram passes
  through two dense + ReLU + layer-norm layers (width 128), the two preference numbers through one (width 64); the 448
  remaining columns, the 128 and the 64 are joined (640) and pass through two more such layers (width 256); two linear
  heads (width 64 each) give the result, stacked on a last axis of size 2.

  Everything is stated on extended reals with the exact operations of the ideal reading; a sum is a plain finite sum.
  Float literals stay as their bit patterns (`Ideal.ofBits`): the same pattern stands on both sides and is never evaluated.
-/
import Idealize.ShloMosaic.PureOps.Ideal
import Idealize.ShloMosaic.Lib.ValueIdx

noncomputable section

namespace HistCritic

open Idealize.ShloMosaic

/-- One dense layer on a row: `(x · W) + b`. -/
def dense {K M : ℕ} (x : Fin K → EReal) (W : Fin K → Fin M → EReal) (b : Fin M → EReal) : Fin M → EReal :=
  fun j => (∑ k : Fin K, x k * W k j) + b j

/-- ReLU on a row: the maximum with the zero literal. -/
def relu {M : ℕ} (x : Fin M → EReal) : Fin M → EReal :=
  fun j => max (x j) (Ideal.ofBits .f32 0x00000000#32)

/-- The mean of a row as the programs compute it: the sum divided by the width given as a float literal `cnt`. -/
def rowMean {M : ℕ} (cnt : EReal) (x : Fin M → EReal) : EReal :=
  Ideal.div (∑ k : Fin M, x k) cnt

/-- Layer norm of a row: `(x - μ) · rsqrt(σ² + 1e-5) · g + b`, with `μ` the mean and `σ²` the mean of the squared
    deviations. -/
def layerNorm {M : ℕ} (cnt : EReal) (x g b : Fin M → EReal) : Fin M → EReal :=
  fun j => (x j - rowMean cnt x)
      * Ideal.rsqrt (rowMean cnt (fun k => (x k - rowMean cnt x) * (x k - rowMean cnt x)) + Ideal.ofBits .f32 0x3727C5AC#32)
      * g j + b j

/-- dense, then ReLU, then layer norm. -/
def block {K M : ℕ} (cnt : EReal) (x : Fin K → EReal) (W : Fin K → Fin M → EReal) (b g be : Fin M → EReal) : Fin M → EReal :=
  layerNorm cnt (relu (dense x W b)) g be

/-- The bin (0..9) a workload value falls in, as the 32-bit integer both programs compute. -/
def binIdx (x : EReal) : BitVec 32 :=
  IntOp.minsi 9#32 (IntOp.maxsi 0#32
    (FloatOps.fptosi (F := Ideal) (φ := .f32) 32 (FloatOps.floor (F := Ideal) (φ := .f32) (x * Ideal.ofBits .f32 0x3F800000#32))))

/-- Whether a workload value lies in [0, 10], as a bit. -/
def validBit (x : EReal) : BitVec 1 :=
  IntOp.andi (FloatOps.cmpf (F := Ideal) (φ := .f32) .oge x (Ideal.ofBits .f32 0x00000000#32))
    (FloatOps.cmpf (F := Ideal) (φ := .f32) .ole x (Ideal.ofBits .f32 0x41200000#32))

/-- A bit as the number 0 or 1. -/
def bitVal (c : BitVec 1) : EReal := ((c.toNat : ℝ) : EReal)

/-- How many of the row's 64 workloads fall in bin `b` and are valid. -/
def binCount (w : Fin 64 → EReal) (b : BitVec 32) : EReal :=
  ∑ s : Fin 64, bitVal (IntOp.cmpi .eq (binIdx (w s)) b) * bitVal (validBit (w s))

/-- The normalised histogram of a row's workloads. -/
def hist (w : Fin 64 → EReal) : Fin 10 → EReal :=
  fun b => Ideal.div (binCount w (BitVec.ofNat 32 b.val))
    ((∑ b' : Fin 10, binCount w (BitVec.ofNat 32 b'.val)) + Ideal.ofBits .f32 0x322BCC77#32)

/-- The 64 server workloads of an observation row: columns 68..131. -/
def servers (o : Fin 512 → EReal) : Fin 64 → EReal := fun s => o ⟨68 + s.val, by omega⟩

/-- An observation row without its server columns: columns 0..67 followed by columns 132..511. -/
def obsRest (o : Fin 512 → EReal) : Fin 448 → EReal :=
  fun c => if h : c.val < 68 then o ⟨c.val, by omega⟩ else o ⟨c.val + 64, by omega⟩

/-- Three rows joined: 448 + 128 + 64 = 640 columns. -/
def join3 (a : Fin 448 → EReal) (b : Fin 128 → EReal) (c : Fin 64 → EReal) : Fin 640 → EReal :=
  fun k => if h : k.val < 448 then a ⟨k.val, h⟩ else if h' : k.val < 576 then b ⟨k.val - 448, by omega⟩ else c ⟨k.val - 576, by omega⟩

/-- The width literals 128, 64 and 256 as the programs write them. -/
def c128 : EReal := Ideal.ofBits .f32 0x43000000#32
def c64 : EReal := Ideal.ofBits .f32 0x42800000#32
def c256 : EReal := Ideal.ofBits .f32 0x43800000#32

/-- All the weights, as functions of coordinates. -/
structure Weights where
  hW1 : Fin 10 → Fin 128 → EReal
  hb1 : Fin 128 → EReal
  hg1 : Fin 128 → EReal
  hbe1 : Fin 128 → EReal
  hW2 : Fin 128 → Fin 128 → EReal
  hb2 : Fin 128 → EReal
  hg2 : Fin 128 → EReal
  hbe2 : Fin 128 → EReal
  pW : Fin 2 → Fin 64 → EReal
  pb : Fin 64 → EReal
  pg : Fin 64 → EReal
  pbe : Fin 64 → EReal
  sW1 : Fin 640 → Fin 256 → EReal
  sb1 : Fin 256 → EReal
  sg1 : Fin 256 → EReal
  sbe1 : Fin 256 → EReal
  sW2 : Fin 256 → Fin 256 → EReal
  sb2 : Fin 256 → EReal
  sg2 : Fin 256 → EReal
  sbe2 : Fin 256 → EReal
  qdW : Fin 256 → Fin 64 → EReal
  qdb : Fin 64 → EReal
  qeW : Fin 256 → Fin 64 → EReal
  qeb : Fin 64 → EReal

/-- The histogram encoder's output for a row of workloads. -/
def encH (W : Weights) (w : Fin 64 → EReal) : Fin 128 → EReal :=
  block c128 (block c128 (hist w) W.hW1 W.hb1 W.hg1 W.hbe1) W.hW2 W.hb2 W.hg2 W.hbe2

/-- The preference encoder's output for a row. -/
def encP (W : Weights) (p : Fin 2 → EReal) : Fin 64 → EReal :=
  block c64 p W.pW W.pb W.pg W.pbe

/-- The shared trunk's output for a row. -/
def trunk (W : Weights) (o : Fin 512 → EReal) (p : Fin 2 → EReal) : Fin 256 → EReal :=
  block c256 (block c256 (join3 (obsRest o) (encH W (servers o)) (encP W p)) W.sW1 W.sb1 W.sg1 W.sbe1) W.sW2 W.sb2 W.sg2 W.sbe2

/-- The result for a row: the delay head at last coordinate 0, the energy head at 1. -/
def rowOut (W : Weights) (o : Fin 512 → EReal) (p : Fin 2 → EReal) (a : Fin 64) (j : Fin 2) : EReal :=
  if j.val = 0 then dense (trunk W o p) W.qdW W.qdb a else dense (trunk W o p) W.qeW W.qeb a

/-- Row `p` of a two-axis array, a matrix and a vector as functions of plain coordinates. -/
def row {α : Type} {n k : ℕ} (x : (⟨2, ![n, k]⟩ : Shape).Idx → α) (p : Fin n) : Fin k → α := fun c => x (ValueIdx.ix2 p c)
def mat {α : Type} {k m : ℕ} (x : (⟨2, ![k, m]⟩ : Shape).Idx → α) : Fin k → Fin m → α := fun a b => x (ValueIdx.ix2 a b)
def vec {α : Type} {m : ℕ} (x : (⟨1, ![m]⟩ : Shape).Idx → α) : Fin m → α := fun a => x (ValueIdx.ix1 a)

/-- The weights read off the 24 weight arrays, in the order the programs take them. -/
def Weights.of
    (x2 : (⟨2, ![10, 128]⟩ : Shape).Idx → EReal) (x3 x4 x5 : (⟨1, ![128]⟩ : Shape).Idx → EReal)
    (x6 : (⟨2, ![128, 128]⟩ : Shape).Idx → EReal) (x7 x8 x9 : (⟨1, ![128]⟩ : Shape).Idx → EReal)
    (x10 : (⟨2, ![2, 64]⟩ : Shape).Idx → EReal) (x11 x12 x13 : (⟨1, ![64]⟩ : Shape).Idx → EReal)
    (x14 : (⟨2, ![640, 256]⟩ : Shape).Idx → EReal) (x15 x16 x17 : (⟨1, ![256]⟩ : Shape).Idx → EReal)
    (x18 : (⟨2, ![256, 256]⟩ : Shape).Idx → EReal) (x19 x20 x21 : (⟨1, ![256]⟩ : Shape).Idx → EReal)
    (x22 : (⟨2, ![256, 64]⟩ : Shape).Idx → EReal) (x23 : (⟨1, ![64]⟩ : Shape).Idx → EReal)
    (x24 : (⟨2, ![256, 64]⟩ : Shape).Idx → EReal) (x25 : (⟨1, ![64]⟩ : Shape).Idx → EReal) : Weights where
  hW1 := mat x2
  hb1 := vec x3
  hg1 := vec x4
  hbe1 := vec x5
  hW2 := mat x6
  hb2 := vec x7
  hg2 := vec x8
  hbe2 := vec x9
  pW := mat x10
  pb := vec x11
  pg := vec x12
  pbe := vec x13
  sW1 := mat x14
  sb1 := vec x15
  sg1 := vec x16
  sbe1 := vec x17
  sW2 := mat x18
  sb2 := vec x19
  sg2 := vec x20
  sbe2 := vec x21
  qdW := mat x22
  qdb := vec x23
  qeW := mat x24
  qeb := vec x25

/-- The whole result array as one function of the argument arrays, index by index. -/
def result
    (x0 : (⟨2, ![65536, 512]⟩ : Shape).Idx → EReal) (x1 : (⟨2, ![65536, 2]⟩ : Shape).Idx → EReal) (W : Weights) :
    (⟨3, ![65536, 64, 2]⟩ : Shape).Idx → EReal :=
  fun i => rowOut W (row x0 (i 0)) (row x1 (i 0)) (i 1) (i 2)

end HistCritic

end
-- ==== Proof.KHist.lean ====
/-
The kernel's histogram pieces read at a row: the server columns, the remaining columns, the bin index, the validity
  mask, and each bin's count, as the row functions of the specification.
-/
import proofs.«161807_j10033043603499_1_alg».proof.Proof.Gen.KernelIdeal.Skeleton
import proofs.«161807_j10033043603499_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.RowValue

open Idealize.ShloMosaic Idealize.ShloMosaic.ValueIdx Cert.KernelIdeal Cert.KernelIdeal.Gen HistCritic

/-! ## Words and layout read at an index -/

/-- A one-bit word widened to 32 bits and converted as a signed integer is the bit as the number 0 or 1. -/
private theorem sitofp_bit (c : BitVec 1) :
    FloatOps.sitofp (F := Ideal) .f32 (c.setWidth 32) = bitVal c := by
  have hc : (c.setWidth 32).toInt = (c.toNat : ℤ) := by
    rcases BitVec.eq_zero_or_eq_one c with rfl | rfl <;> rfl
  show (((c.setWidth 32).toInt : ℝ) : EReal) = ((c.toNat : ℝ) : EReal)
  rw [hc, Int.cast_natCast]

/-- An [a] array cast to the column [a, 1] reads, at (i, u), the operand at i. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The sum along the 64 lanes of a row: at row p it is the sum over the lane s of the source at (p, s). -/
private theorem laneSum_apply (src : FVec Ideal S1024x64 .f32) (p : Fin 1024) (hφ : FKind.Formats .f32)
    (hacc : (0x00000000#32 : BitVec FTy.f32.bits) = FKind.add.neutral .f32 hφ) :
    multiReduction (F := Ideal) .add [1] S1024 src 0x00000000#32 reduces_S1024x64_S1024 hφ hacc (ix1 p)
      = ∑ s : Fin 64, src (ix2 p s) := by
  refine (Ideal.multiReduction_add_single src _ reduces_S1024x64_S1024 hφ hacc (ix1 p)).trans ?_
  show ∑ k : Fin 64, src (reduces_S1024x64_S1024.lift (ix1 p) k) = _
  refine Finset.sum_congr rfl fun k _ => congrArg src ?_
  funext c
  match c with
  | ⟨0, _⟩ => rfl
  | ⟨1, _⟩ => rfl

/-- One bin's count: the lane sum of (the bit "the bin index is b") times the validity mask is the count of the
    row's workloads that fall in bin b and are valid. -/
private theorem binSum_apply (v13 : IVec S1024x64 32) (v20 : FVec Ideal S1024x64 .f32) (p : Fin 1024)
    (w : Fin 64 → EReal) (h13 : ∀ s, v13 (ix2 p s) = binIdx (w s)) (h20 : ∀ s, v20 (ix2 p s) = bitVal (validBit (w s)))
    (b : BitVec 32) (hφ : FKind.Formats .f32) (hacc : (0x00000000#32 : BitVec FTy.f32.bits) = FKind.add.neutral .f32 hφ) :
    multiReduction (F := Ideal) .add [1] S1024
        (mulf (sitofp .f32 (extui 32 (cmpi .eq v13 (broadcast S1024x64 b)) natLt_1_32)) v20)
        0x00000000#32 reduces_S1024x64_S1024 hφ hacc (ix1 p)
      = binCount w b := by
  rw [laneSum_apply]
  refine Finset.sum_congr rfl fun s _ => ?_
  show FloatOps.sitofp (F := Ideal) .f32 ((IntOp.cmpi .eq (v13 (ix2 p s)) b).setWidth 32) * v20 (ix2 p s) = _
  rw [sitofp_bit, h13, h20]

variable (v0 : Vec Ideal S1024x512 .f32) (p : Fin 1024)

theorem pay2_apply (s : Fin 64) : k0_pay2 (F := Ideal) v0 (ix2 p s) = servers (row v0 p) s := by
  unfold k0_pay2
  exact slice2_axis1_apply 68 v0 _ p s ⟨68 + s.val, by omega⟩ rfl

theorem pay3_apply (c : Fin 448) : k0_pay3 (F := Ideal) v0 (ix2 p c) = obsRest (row v0 p) c := by
  unfold k0_pay3
  by_cases hc : c.val < 68
  · rw [obsRest, dif_pos hc]
    refine (concatenate_pair_apply_left (t := S1024x448) (s₁ := S1024x68) (s₂ := S1024x380) 1 _ _ _ (ix2 p c) rfl
      (ix2 p (⟨c.val, hc⟩ : Fin 68)) fun b => ?_).trans ?_
    · match b with
      | ⟨0, _⟩ => rfl
      | ⟨1, _⟩ => rfl
    · exact slice2_axis1_apply 0 v0 _ p ⟨c.val, hc⟩ ⟨c.val, by omega⟩ (Nat.zero_add _).symm
  · rw [obsRest, dif_neg hc]
    have hc' : c.val - 68 < 380 := by omega
    refine (concatenate_pair_apply_right (t := S1024x448) (s₁ := S1024x68) (s₂ := S1024x380) 1 _ _ _ (ix2 p c) rfl rfl
      (ix2 p (⟨c.val - 68, hc'⟩ : Fin 380)) (fun b hb => ?_) ?_).trans ?_
    · match b with
      | ⟨0, _⟩ => rfl
      | ⟨1, _⟩ => exact absurd rfl hb
    · show c.val - 68 + 68 = c.val
      omega
    · exact slice2_axis1_apply 132 v0 _ p ⟨c.val - 68, hc'⟩ ⟨c.val + 64, by omega⟩
        (by show c.val + 64 = 132 + (c.val - 68); omega)

theorem pay4_apply (s : Fin 64) : k0_pay4 (F := Ideal) v0 (ix2 p s) = binIdx (servers (row v0 p) s) := by
  rw [← pay2_apply]
  unfold k0_pay4
  rfl

theorem pay5_apply (s : Fin 64) : k0_pay5 (F := Ideal) v0 (ix2 p s) = bitVal (validBit (servers (row v0 p) s)) := by
  rw [← pay2_apply, ← sitofp_bit]
  unfold k0_pay5
  rfl

theorem pay6_apply : k0_pay6 (F := Ideal) v0 (ix2 p 0) = binCount (servers (row v0 p)) 0#32 := by
  unfold k0_pay6
  refine (shapeCast_a_a1_apply _ shapeCasts_S1024_S1024x1 p 0).trans ?_
  exact binSum_apply (k0_pay4 v0) (k0_pay5 v0) p _ (pay4_apply v0 p) (pay5_apply v0 p) 0#32 _ _

theorem pay7_apply : k0_pay7 (F := Ideal) v0 (ix2 p 0) = binCount (servers (row v0 p)) 1#32 := by
  unfold k0_pay7
  refine (shapeCast_a_a1_apply _ shapeCasts_S1024_S1024x1 p 0).trans ?_
  exact binSum_apply (k0_pay4 v0) (k0_pay5 v0) p _ (pay4_apply v0 p) (pay5_apply v0 p) 1#32 _ _

theorem pay8_apply : k0_pay8 (F := Ideal) v0 (ix2 p 0) = binCount (servers (row v0 p)) 2#32 := by
  unfold k0_pay8
  refine (shapeCast_a_a1_apply _ shapeCasts_S1024_S1024x1 p 0).trans ?_
  exact binSum_apply (k0_pay4 v0) (k0_pay5 v0) p _ (pay4_apply v0 p) (pay5_apply v0 p) 2#32 _ _

variable (v13 : IVec S1024x64 32) (v20 : FVec Ideal S1024x64 .f32) (w : Fin 64 → EReal)
  (h13 : ∀ s, v13 (ix2 p s) = binIdx (w s)) (h20 : ∀ s, v20 (ix2 p s) = bitVal (validBit (w s)))
include h13 h20

theorem pay10_apply : k0_pay10 (F := Ideal) v13 v20 k0_pay9 (ix2 p 0) = binCount w 3#32 := by
  unfold k0_pay10 k0_pay9
  refine (shapeCast_a_a1_apply _ shapeCasts_S1024_S1024x1 p 0).trans ?_
  exact binSum_apply v13 v20 p w h13 h20 3#32 _ _

theorem pay11_apply : k0_pay11 (F := Ideal) v13 v20 (ix2 p 0) = binCount w 4#32 := by
  unfold k0_pay11
  refine (shapeCast_a_a1_apply _ shapeCasts_S1024_S1024x1 p 0).trans ?_
  exact binSum_apply v13 v20 p w h13 h20 4#32 _ _

theorem pay12_apply : k0_pay12 (F := Ideal) v13 v20 (ix2 p 0) = binCount w 5#32 := by
  unfold k0_pay12
  refine (shapeCast_a_a1_apply _ shapeCasts_S1024_S1024x1 p 0).trans ?_
  exact binSum_apply v13 v20 p w h13 h20 5#32 _ _

theorem pay13_apply : k0_pay13 (F := Ideal) v13 v20 (ix2 p 0) = binCount w 6#32 := by
  unfold k0_pay13
  refine (shapeCast_a_a1_apply _ shapeCasts_S1024_S1024x1 p 0).trans ?_
  exact binSum_apply v13 v20 p w h13 h20 6#32 _ _

theorem pay14_apply : k0_pay14 (F := Ideal) v13 v20 (ix2 p 0) = binCount w 7#32 := by
  unfold k0_pay14
  refine (shapeCast_a_a1_apply _ shapeCasts_S1024_S1024x1 p 0).trans ?_
  exact binSum_apply v13 v20 p w h13 h20 7#32 _ _

theorem pay15_apply : k0_pay15 (F := Ideal) v13 v20 (ix2 p 0) = binCount w 8#32 := by
  unfold k0_pay15
  refine (shapeCast_a_a1_apply _ shapeCasts_S1024_S1024x1 p 0).trans ?_
  exact binSum_apply v13 v20 p w h13 h20 8#32 _ _

theorem pay16_apply : k0_pay16 (F := Ideal) v13 v20 (ix1 p) = binCount w 9#32 := by
  unfold k0_pay16
  exact binSum_apply v13 v20 p w h13 h20 9#32 _ _

end Cert.KernelIdeal.RowValue

end
-- ==== Proof.KEnc.lean ====
/-
The kernel's two encoders read at a row: the normalised histogram through its two dense + ReLU + layer-norm layers,
  and the preference row's dense layer.
-/
import proofs.«161807_j10033043603499_1_alg».proof.Proof.Gen.KernelIdeal.Skeleton
import proofs.«161807_j10033043603499_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.RowValue

open Idealize.ShloMosaic Idealize.ShloMosaic.ValueIdx Cert.KernelIdeal Cert.KernelIdeal.Gen HistCritic

/-! ## The layout and reduction steps of a row-wise layer, read at an index given by coordinates -/

section Stage
variable {n k m : ℕ}

/-- A vector `[n]` cast to a column `[n, 1]` reads, at `(p, u)`, the vector at `p`. -/
private theorem colCast_apply {α : Type} (v : (⟨1, ![n]⟩ : Shape).Idx → α) (h : (⟨1, ![n]⟩ : Shape).ShapeCasts ⟨2, ![n, 1]⟩)
    (p : Fin n) (u : Fin 1) : shapeCast ⟨2, ![n, 1]⟩ v h (ix2 p u) = v (ix1 p) :=
  shapeCast_apply v h _ _ (by
    have hu : u.val = 0 := by omega
    rw [Shape.rowMajor_val_two, Shape.rowMajor_val_one]
    show p.val = p.val * 1 + u.val
    rw [hu, Nat.mul_one, Nat.add_zero])

/-- A column `[n, 1]` broadcast over `[n, m]` reads, at `(p, c)`, the column at `p`. -/
private theorem colBcast_apply {α : Type} (v : (⟨2, ![n, 1]⟩ : Shape).Idx → α) (h : (⟨2, ![n, 1]⟩ : Shape).Broadcasts ⟨2, ![n, m]⟩)
    (p : Fin n) (c : Fin m) : broadcastTo ⟨2, ![n, m]⟩ v h (ix2 p c) = v (ix2 p (0 : Fin 1)) := by
  refine broadcastTo_apply v h (ix2 p c) (ix2 p (0 : Fin 1)) fun ax => ?_
  match ax with
  | ⟨0, _⟩ =>
    show p.val = if n = 1 then 0 else p.val
    split
    · have := p.isLt; omega
    · rfl
  | ⟨1, _⟩ =>
    show (0 : ℕ) = if (1 : ℕ) = 1 then 0 else c.val
    rw [if_pos rfl]

/-- A vector `[m]` laid as one row and broadcast over `[n, m]` reads, at `(p, j)`, the vector at `j`. -/
private theorem rowBcast_apply {α : Type} (b : (⟨1, ![m]⟩ : Shape).Idx → α) (h1 : (⟨1, ![m]⟩ : Shape).ShapeCasts ⟨2, ![1, m]⟩)
    (h2 : (⟨2, ![1, m]⟩ : Shape).Broadcasts ⟨2, ![n, m]⟩) (p : Fin n) (j : Fin m) :
    broadcastTo ⟨2, ![n, m]⟩ (shapeCast ⟨2, ![1, m]⟩ b h1) h2 (ix2 p j) = b (ix1 j) :=
  (broadcastTo_1b_ab_apply _ h2 p j).trans (shapeCast_a_1a_apply b h1 0 j)

/-- The sum along the rows of an `[n, m]` array reads, at `p`, the sum of row `p`. -/
private theorem rowSum_apply {φ : FTy} (src : FVec Ideal ⟨2, ![n, m]⟩ φ) (h : (⟨2, ![n, m]⟩ : Shape).Reduces [1] ⟨1, ![n]⟩) (p : Fin n) :
    Ideal.reduceAdd h src (ix1 p) = ∑ c : Fin m, src (ix2 p c) := by
  refine (Ideal.reduceAdd_single h src (ix1 p)).trans ?_
  show ∑ c : Fin m, src (h.lift (ix1 p) c) = _
  refine Finset.sum_congr rfl fun c _ => congrArg src (funext fun a => Fin.ext ?_)
  match a with
  | ⟨0, _⟩ => rfl
  | ⟨1, _⟩ => rfl

/-- The reciprocal square root of an array reads elementwise. -/
private theorem rsqrt_apply {s : Shape} {φ : FTy} (a : FVec Ideal s φ) (i : s.Idx) : rsqrt a i = Ideal.rsqrt (a i) := rfl

/-- A float literal as a scalar is the extended real its word encodes. -/
private theorem scalar_ofBits (φ : FTy) (b : BitVec φ.bits) : Scalar.ofBits (F := Ideal) φ b = Ideal.ofBits φ b := rfl

/-- A product of an `[n, k]` by a `[k, m]` array into the zero accumulator reads, at `(p, j)`, the sum over the
    contracted coordinate of the products (the four axis facts say which coordinate each operand index takes). -/
private theorem mm_apply {φ₁ φ₂ : FTy} (D : DotDims ⟨2, ![n, k]⟩ ⟨2, ![k, m]⟩ ⟨2, ![n, m]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (lhs : FVec Ideal ⟨2, ![n, k]⟩ φ₁) (rhs : FVec Ideal ⟨2, ![k, m]⟩ φ₂) (p : Fin n) (j : Fin m) :
    matmul D none lhs rhs (constant ⟨2, ![n, m]⟩ .f32 0x00000000#32) (ix2 p j) = ∑ c : Fin k, lhs (ix2 p c) * rhs (ix2 c j) := by
  simp only [matmul]
  rw [Ideal.matmul_constant_zero_apply, ← Equiv.sum_comp (contrEquiv1 D k hr hs).symm]
  refine Finset.sum_congr rfl fun c _ => ?_
  have hc := contrEquiv1_symm_val D k hr hs c
  have el : D.lhsIdx (ix2 p j) ((contrEquiv1 D k hr hs).symm c) = ix2 p c := funext fun a => Fin.ext (by
    match a with
    | ⟨0, _⟩ => exact hl0 _ _
    | ⟨1, _⟩ => exact (hl1 _ _).trans hc)
  have er : D.rhsIdx (ix2 p j) ((contrEquiv1 D k hr hs).symm c) = ix2 c j := funext fun a => Fin.ext (by
    match a with
    | ⟨0, _⟩ => exact (hr0 _ _).trans hc
    | ⟨1, _⟩ => exact hr1 _ _)
  rw [el, er]

end Stage

/-! ## The three products of the encoders -/

private theorem mm128_lhs0 (i : S1024x128.Idx) (q : dot_S1024x128_S128x128_S1024x128_1_0_0_1_n_n.contr.Idx) :
    (dot_S1024x128_S128x128_S1024x128_1_0_0_1_n_n.lhsIdx i q 0).val = (i 0).val := by
  unfold DotDims.lhsIdx
  rw [dif_neg (show ¬(0 : Fin S1024x128.rank) ∈ dot_S1024x128_S128x128_S1024x128_1_0_0_1_n_n.lhsBatch by decide),
    dif_pos (show (0 : Fin S1024x128.rank) ∈ dot_S1024x128_S128x128_S1024x128_1_0_0_1_n_n.lhsNonContracting by decide)]
  rfl
private theorem mm128_lhs1 (i : S1024x128.Idx) (q : dot_S1024x128_S128x128_S1024x128_1_0_0_1_n_n.contr.Idx) :
    (dot_S1024x128_S128x128_S1024x128_1_0_0_1_n_n.lhsIdx i q 1).val = (q ⟨0, by decide⟩).val :=
  dot_S1024x128_S128x128_S1024x128_1_0_0_1_n_n.lhsIdx_val_of_single rfl i q
private theorem mm128_rhs0 (i : S1024x128.Idx) (q : dot_S1024x128_S128x128_S1024x128_1_0_0_1_n_n.contr.Idx) :
    (dot_S1024x128_S128x128_S1024x128_1_0_0_1_n_n.rhsIdx i q 0).val = (q ⟨0, by decide⟩).val :=
  dot_S1024x128_S128x128_S1024x128_1_0_0_1_n_n.rhsIdx_val_of_single rfl i q
private theorem mm128_rhs1 (i : S1024x128.Idx) (q : dot_S1024x128_S128x128_S1024x128_1_0_0_1_n_n.contr.Idx) :
    (dot_S1024x128_S128x128_S1024x128_1_0_0_1_n_n.rhsIdx i q 1).val = (i 1).val := by
  unfold DotDims.rhsIdx
  rw [dif_neg (show ¬(1 : Fin S128x128.rank) ∈ dot_S1024x128_S128x128_S1024x128_1_0_0_1_n_n.rhsBatch by decide),
    dif_pos (show (1 : Fin S128x128.rank) ∈ dot_S1024x128_S128x128_S1024x128_1_0_0_1_n_n.rhsNonContracting by decide)]
  rfl
/-- The product by this record, into the zero accumulator, read at `(p, j)`. -/
private theorem mm128_apply {φ₁ φ₂ : FTy} (lhs : FVec Ideal S1024x128 φ₁) (rhs : FVec Ideal S128x128 φ₂) (p : Fin 1024) (j : Fin 128) :
    matmul dot_S1024x128_S128x128_S1024x128_1_0_0_1_n_n none lhs rhs (constant S1024x128 .f32 0x00000000#32) (ix2 p j)
      = ∑ c : Fin 128, lhs (ix2 p c) * rhs (ix2 c j) :=
  mm_apply dot_S1024x128_S128x128_S1024x128_1_0_0_1_n_n rfl rfl mm128_lhs0 mm128_lhs1 mm128_rhs0 mm128_rhs1 lhs rhs p j

private theorem mm10_lhs0 (i : S1024x128.Idx) (q : dot_S1024x10_S10x128_S1024x128_1_0_0_1_n_n.contr.Idx) :
    (dot_S1024x10_S10x128_S1024x128_1_0_0_1_n_n.lhsIdx i q 0).val = (i 0).val := by
  unfold DotDims.lhsIdx
  rw [dif_neg (show ¬(0 : Fin S1024x10.rank) ∈ dot_S1024x10_S10x128_S1024x128_1_0_0_1_n_n.lhsBatch by decide),
    dif_pos (show (0 : Fin S1024x10.rank) ∈ dot_S1024x10_S10x128_S1024x128_1_0_0_1_n_n.lhsNonContracting by decide)]
  rfl
private theorem mm10_lhs1 (i : S1024x128.Idx) (q : dot_S1024x10_S10x128_S1024x128_1_0_0_1_n_n.contr.Idx) :
    (dot_S1024x10_S10x128_S1024x128_1_0_0_1_n_n.lhsIdx i q 1).val = (q ⟨0, by decide⟩).val :=
  dot_S1024x10_S10x128_S1024x128_1_0_0_1_n_n.lhsIdx_val_of_single rfl i q
private theorem mm10_rhs0 (i : S1024x128.Idx) (q : dot_S1024x10_S10x128_S1024x128_1_0_0_1_n_n.contr.Idx) :
    (dot_S1024x10_S10x128_S1024x128_1_0_0_1_n_n.rhsIdx i q 0).val = (q ⟨0, by decide⟩).val :=
  dot_S1024x10_S10x128_S1024x128_1_0_0_1_n_n.rhsIdx_val_of_single rfl i q
private theorem mm10_rhs1 (i : S1024x128.Idx) (q : dot_S1024x10_S10x128_S1024x128_1_0_0_1_n_n.contr.Idx) :
    (dot_S1024x10_S10x128_S1024x128_1_0_0_1_n_n.rhsIdx i q 1).val = (i 1).val := by
  unfold DotDims.rhsIdx
  rw [dif_neg (show ¬(1 : Fin S10x128.rank) ∈ dot_S1024x10_S10x128_S1024x128_1_0_0_1_n_n.rhsBatch by decide),
    dif_pos (show (1 : Fin S10x128.rank) ∈ dot_S1024x10_S10x128_S1024x128_1_0_0_1_n_n.rhsNonContracting by decide)]
  rfl
/-- The product by this record, into the zero accumulator, read at `(p, j)`. -/
private theorem mm10_apply {φ₁ φ₂ : FTy} (lhs : FVec Ideal S1024x10 φ₁) (rhs : FVec Ideal S10x128 φ₂) (p : Fin 1024) (j : Fin 128) :
    matmul dot_S1024x10_S10x128_S1024x128_1_0_0_1_n_n none lhs rhs (constant S1024x128 .f32 0x00000000#32) (ix2 p j)
      = ∑ c : Fin 10, lhs (ix2 p c) * rhs (ix2 c j) :=
  mm_apply dot_S1024x10_S10x128_S1024x128_1_0_0_1_n_n rfl rfl mm10_lhs0 mm10_lhs1 mm10_rhs0 mm10_rhs1 lhs rhs p j

private theorem mm2_lhs0 (i : S1024x64.Idx) (q : dot_S1024x2_S2x64_S1024x64_1_0_0_1_n_n.contr.Idx) :
    (dot_S1024x2_S2x64_S1024x64_1_0_0_1_n_n.lhsIdx i q 0).val = (i 0).val := by
  unfold DotDims.lhsIdx
  rw [dif_neg (show ¬(0 : Fin S1024x2.rank) ∈ dot_S1024x2_S2x64_S1024x64_1_0_0_1_n_n.lhsBatch by decide),
    dif_pos (show (0 : Fin S1024x2.rank) ∈ dot_S1024x2_S2x64_S1024x64_1_0_0_1_n_n.lhsNonContracting by decide)]
  rfl
private theorem mm2_lhs1 (i : S1024x64.Idx) (q : dot_S1024x2_S2x64_S1024x64_1_0_0_1_n_n.contr.Idx) :
    (dot_S1024x2_S2x64_S1024x64_1_0_0_1_n_n.lhsIdx i q 1).val = (q ⟨0, by decide⟩).val :=
  dot_S1024x2_S2x64_S1024x64_1_0_0_1_n_n.lhsIdx_val_of_single rfl i q
private theorem mm2_rhs0 (i : S1024x64.Idx) (q : dot_S1024x2_S2x64_S1024x64_1_0_0_1_n_n.contr.Idx) :
    (dot_S1024x2_S2x64_S1024x64_1_0_0_1_n_n.rhsIdx i q 0).val = (q ⟨0, by decide⟩).val :=
  dot_S1024x2_S2x64_S1024x64_1_0_0_1_n_n.rhsIdx_val_of_single rfl i q
private theorem mm2_rhs1 (i : S1024x64.Idx) (q : dot_S1024x2_S2x64_S1024x64_1_0_0_1_n_n.contr.Idx) :
    (dot_S1024x2_S2x64_S1024x64_1_0_0_1_n_n.rhsIdx i q 1).val = (i 1).val := by
  unfold DotDims.rhsIdx
  rw [dif_neg (show ¬(1 : Fin S2x64.rank) ∈ dot_S1024x2_S2x64_S1024x64_1_0_0_1_n_n.rhsBatch by decide),
    dif_pos (show (1 : Fin S2x64.rank) ∈ dot_S1024x2_S2x64_S1024x64_1_0_0_1_n_n.rhsNonContracting by decide)]
  rfl
/-- The product by this record, into the zero accumulator, read at `(p, j)`. -/
private theorem mm2_apply {φ₁ φ₂ : FTy} (lhs : FVec Ideal S1024x2 φ₁) (rhs : FVec Ideal S2x64 φ₂) (p : Fin 1024) (j : Fin 64) :
    matmul dot_S1024x2_S2x64_S1024x64_1_0_0_1_n_n none lhs rhs (constant S1024x64 .f32 0x00000000#32) (ix2 p j)
      = ∑ c : Fin 2, lhs (ix2 p c) * rhs (ix2 c j) :=
  mm_apply dot_S1024x2_S2x64_S1024x64_1_0_0_1_n_n rfl rfl mm2_lhs0 mm2_lhs1 mm2_rhs0 mm2_rhs1 lhs rhs p j

/-! ## The histogram's ten columns joined -/

/-- A join of columns `[n, 1]` along axis 1 reads, at `(p, b)`, piece `b` at `(p, 0)` when the pieces before it are
    `b` unit columns. -/
private theorem cat_piece {n N : ℕ} {α : Type} (xs : List ((s : Shape) × (s.Idx → α)))
    (h : Shape.Concatenates (xs.map (·.1)) ⟨2, ![n, N]⟩ 1) (p : Fin n) (b : Fin N)
    (x : (⟨2, ![n, 1]⟩ : Shape).Idx → α) (hk : b.val < xs.length) (hxk : xs[b.val] = ⟨⟨2, ![n, 1]⟩, x⟩)
    (hpre : (((xs.take b.val).map (·.1)).map fun s =>
      if h : s.rank = (⟨2, ![n, N]⟩ : Shape).rank then s.size ((1 : Fin (⟨2, ![n, N]⟩ : Shape).rank).cast h.symm) else 0).sum = b.val) :
    concatenate ⟨2, ![n, N]⟩ 1 xs h (ix2 p b) = x (ix2 p (0 : Fin 1)) :=
  concatenate_apply_piece 1 xs h (ix2 p b) b.val hk ⟨2, ![n, 1]⟩ x hxk rfl b.val hpre (ix2 p (0 : Fin 1))
    (fun a => match a with
      | ⟨0, _⟩ => fun _ => rfl
      | ⟨1, _⟩ => fun hb => absurd rfl hb)
    rfl

theorem pay17_apply (v27 v34 v41 v48 v55 v62 v69 v76 v83 : FVec Ideal S1024x1 .f32) (v89 : FVec Ideal S1024 .f32)
    (v98 : Vec Ideal S10x128 .f32) (v99 v108 v109 : Vec Ideal S128 .f32) (p : Fin 1024) (w : Fin 64 → EReal)
    (h27 : v27 (ix2 p 0) = binCount w 0#32) (h34 : v34 (ix2 p 0) = binCount w 1#32) (h41 : v41 (ix2 p 0) = binCount w 2#32)
    (h48 : v48 (ix2 p 0) = binCount w 3#32) (h55 : v55 (ix2 p 0) = binCount w 4#32) (h62 : v62 (ix2 p 0) = binCount w 5#32)
    (h69 : v69 (ix2 p 0) = binCount w 6#32) (h76 : v76 (ix2 p 0) = binCount w 7#32) (h83 : v83 (ix2 p 0) = binCount w 8#32)
    (h89 : v89 (ix1 p) = binCount w 9#32) (j : Fin 128) :
    k0_pay17 (F := Ideal) v27 v34 v41 v48 v55 v62 v69 v76 v83 v89 v98 v99 v108 v109 (ix2 p j)
      = block c128 (hist w) (mat v98) (vec v99) (vec v108) (vec v109) j := by
  -- the ten joined columns at row `p` are the ten bin counts
  have hcat : ∀ (hc : S1024.ShapeCasts S1024x1)
      (h : Shape.Concatenates ([(⟨S1024x1, v27⟩ : (s : Shape) × (s.Idx → Ideal .f32)), ⟨S1024x1, v34⟩, ⟨S1024x1, v41⟩, ⟨S1024x1, v48⟩,
        ⟨S1024x1, v55⟩, ⟨S1024x1, v62⟩, ⟨S1024x1, v69⟩, ⟨S1024x1, v76⟩, ⟨S1024x1, v83⟩,
        ⟨S1024x1, shapeCast S1024x1 v89 hc⟩].map (·.1)) S1024x10 1) (b : Fin 10),
      concatenate S1024x10 1 [⟨S1024x1, v27⟩, ⟨S1024x1, v34⟩, ⟨S1024x1, v41⟩, ⟨S1024x1, v48⟩, ⟨S1024x1, v55⟩, ⟨S1024x1, v62⟩,
        ⟨S1024x1, v69⟩, ⟨S1024x1, v76⟩, ⟨S1024x1, v83⟩, ⟨S1024x1, shapeCast S1024x1 v89 hc⟩] h (ix2 p b)
        = binCount w (BitVec.ofNat 32 b.val) := by
    intro hc h b
    match b with
    | ⟨0, _⟩ => exact (cat_piece _ h p ⟨0, by decide⟩ v27 (by show (0 : ℕ) < 10; decide) rfl rfl).trans h27
    | ⟨1, _⟩ => exact (cat_piece _ h p ⟨1, by decide⟩ v34 (by show (1 : ℕ) < 10; decide) rfl rfl).trans h34
    | ⟨2, _⟩ => exact (cat_piece _ h p ⟨2, by decide⟩ v41 (by show (2 : ℕ) < 10; decide) rfl rfl).trans h41
    | ⟨3, _⟩ => exact (cat_piece _ h p ⟨3, by decide⟩ v48 (by show (3 : ℕ) < 10; decide) rfl rfl).trans h48
    | ⟨4, _⟩ => exact (cat_piece _ h p ⟨4, by decide⟩ v55 (by show (4 : ℕ) < 10; decide) rfl rfl).trans h55
    | ⟨5, _⟩ => exact (cat_piece _ h p ⟨5, by decide⟩ v62 (by show (5 : ℕ) < 10; decide) rfl rfl).trans h62
    | ⟨6, _⟩ => exact (cat_piece _ h p ⟨6, by decide⟩ v69 (by show (6 : ℕ) < 10; decide) rfl rfl).trans h69
    | ⟨7, _⟩ => exact (cat_piece _ h p ⟨7, by decide⟩ v76 (by show (7 : ℕ) < 10; decide) rfl rfl).trans h76
    | ⟨8, _⟩ => exact (cat_piece _ h p ⟨8, by decide⟩ v83 (by show (8 : ℕ) < 10; decide) rfl rfl).trans h83
    | ⟨9, _⟩ =>
      exact (cat_piece _ h p ⟨9, by decide⟩ (shapeCast S1024x1 v89 hc) (by show (9 : ℕ) < 10; decide) rfl rfl).trans
        ((colCast_apply v89 hc p 0).trans h89)
  simp only [k0_pay17, multiReduction]
  simp only [Ideal.reduceAdd_def, addf_apply, mulf_apply, subf_apply, divf_apply, maximumf_apply, rsqrt_apply, broadcast_apply,
    truncf_apply, scalar_ofBits, rowBcast_apply, colBcast_apply, colCast_apply, rowSum_apply, mm10_apply, hcat]
  rfl

theorem pay18_apply (v133 : FVec Ideal S1024x128 .f32) (v134 : Vec Ideal S128x128 .f32) (v135 v144 v145 : Vec Ideal S128 .f32)
    (p : Fin 1024) (x : Fin 128 → EReal) (hx : ∀ k, v133 (ix2 p k) = x k) (j : Fin 128) :
    k0_pay18 (F := Ideal) v133 v134 v135 v144 v145 (ix2 p j) = block c128 x (mat v134) (vec v135) (vec v144) (vec v145) j := by
  simp only [k0_pay18, multiReduction]
  simp only [Ideal.reduceAdd_def, addf_apply, mulf_apply, subf_apply, divf_apply, maximumf_apply, rsqrt_apply, broadcast_apply, truncf_apply,
    scalar_ofBits, rowBcast_apply, colBcast_apply, colCast_apply, rowSum_apply, mm128_apply, hx]
  rfl

theorem pay19_apply (v1 : Vec Ideal S1024x2 .f32) (v170 : Vec Ideal S2x64 .f32) (v171 : Vec Ideal S64 .f32) (p : Fin 1024) (j : Fin 64) :
    k0_pay19 (F := Ideal) v1 v170 v171 (ix2 p j) = dense (row v1 p) (mat v170) (vec v171) j := by
  unfold k0_pay19
  simp only [addf_apply, truncf_apply, rowBcast_apply, mm2_apply]
  rfl

theorem pay20_apply (p : Fin 1024) (j : Fin 64) : (k0_pay20 (F := Ideal)) (ix2 p j) = Ideal.ofBits .f32 0x00000000#32 := by
  rfl

end Cert.KernelIdeal.RowValue

end
-- ==== Proof.KTrunk.lean ====
/-
The kernel's shared trunk read at a row: the joined row through the first dense + ReLU (and its mean), the first layer
  norm and the second dense + ReLU (its centred value and variance), and the last layer norm with the two heads.
-/
import proofs.«161807_j10033043603499_1_alg».proof.Proof.Gen.KernelIdeal.Skeleton
import proofs.«161807_j10033043603499_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.RowValue

open Idealize.ShloMosaic Idealize.ShloMosaic.ValueIdx Cert.KernelIdeal Cert.KernelIdeal.Gen HistCritic

/-! ## Layout operations at a row -/

/-- A sum along the columns of a matrix, read at a row: the sum of the row. -/
private theorem rowSum_apply {n m : ℕ} (src : (⟨2, ![n, m]⟩ : Shape).Idx → EReal)
    (h : (⟨2, ![n, m]⟩ : Shape).Reduces [1] ⟨1, ![n]⟩) (p : Fin n) :
    Ideal.reduceAdd h src (ix1 p) = ∑ k : Fin m, src (ix2 p k) := by
  rw [Ideal.reduceAdd_single]
  show ∑ k : Fin m, src (h.lift (ix1 p) k) = _
  refine Finset.sum_congr rfl fun k _ => congrArg src ?_
  funext c
  match c with
  | ⟨0, _⟩ => rfl
  | ⟨1, _⟩ => rfl

/-- A vector viewed as a one-column matrix reads, at `(p, u)`, the vector at `p`. -/
private theorem shapeCast_a_a1_apply {α : Type} {n : ℕ} (x : (⟨1, ![n]⟩ : Shape).Idx → α)
    (h : (⟨1, ![n]⟩ : Shape).ShapeCasts ⟨2, ![n, 1]⟩) (p : Fin n) (u : Fin 1) :
    shapeCast ⟨2, ![n, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A one-column matrix broadcast over `m` columns reads, at `(p, c)`, its entry of row `p`. -/
private theorem broadcastTo_a1_ab_apply {α : Type} {n m : ℕ} (v : (⟨2, ![n, 1]⟩ : Shape).Idx → α)
    (h : (⟨2, ![n, 1]⟩ : Shape).Broadcasts ⟨2, ![n, m]⟩) (p : Fin n) (c : Fin m) :
    broadcastTo ⟨2, ![n, m]⟩ v h (ix2 p c) = v (ix2 p (0 : Fin 1)) := by
  refine broadcastTo_apply v h (ix2 p c) (ix2 p (0 : Fin 1)) fun ax => ?_
  match ax with
  | ⟨0, _⟩ =>
    show p.val = if n = 1 then 0 else p.val
    split
    · have := p.isLt; omega
    · rfl
  | ⟨1, _⟩ =>
    show (0 : ℕ) = if (1 : ℕ) = 1 then 0 else c.val
    rw [if_pos rfl]

/-- A matrix viewed with a trailing unit axis reads, at `(p, a, u)`, the matrix at `(p, a)`. -/
private theorem shapeCast_ab_ab1_apply {α : Type} {n m : ℕ} (x : (⟨2, ![n, m]⟩ : Shape).Idx → α)
    (h : (⟨2, ![n, m]⟩ : Shape).ShapeCasts ⟨3, ![n, m, 1]⟩) (p : Fin n) (a : Fin m) (u : Fin 1) :
    shapeCast ⟨3, ![n, m, 1]⟩ x h (ix3 p a u) = x (ix2 p a) :=
  shapeCast_apply x h _ _ (by
    have hu : u.val = 0 := by omega
    rw [Shape.rowMajor_val_two, Shape.rowMajor_val_three]
    show p.val * m + a.val = (p.val * m + a.val) * 1 + u.val
    rw [hu, Nat.mul_one, Nat.add_zero])

/-- The reciprocal square root of a vector, read at an index. -/
private theorem rsqrt_apply {s : Shape} {φ : FTy} (a : FVec Ideal s φ) (i : s.Idx) : rsqrt a i = Ideal.rsqrt (a i) := rfl

/-- A scalar literal at the extended reals is the extended real its word encodes. -/
private theorem scalar_ofBits (φ : FTy) (b : BitVec φ.bits) : Scalar.ofBits (F := Ideal) φ b = Ideal.ofBits φ b := rfl

/-! ## A rows-by-columns product at an index -/

section Dot
variable {n k m : ℕ} (D : DotDims ⟨2, ![n, k]⟩ ⟨2, ![k, m]⟩ ⟨2, ![n, m]⟩)
  (hlc : D.lhsContracting = [1]) (hrc : D.rhsContracting = [0]) (hln : D.lhsNonContracting = [0])
  (hrn : D.rhsNonContracting = [1]) (hlb : D.lhsBatch = []) (hrb : D.rhsBatch = [])
include hlc hrc hln hrn hlb hrb

private theorem dot_contr_rank : D.contr.rank = 1 := by rw [D.rank_contr, hlc]; rfl

private theorem dot_contr_size : D.contr.size ⟨0, by rw [dot_contr_rank D hlc hrc hln hrn hlb hrb]; exact Nat.one_pos⟩ = k := by
  have h := D.size_contr 0 (by rw [hlc]; exact Nat.one_pos)
  rw [h]
  simp only [hlc, List.getElem_cons_zero]
  rfl

private theorem dot_lhs0 (j : (⟨2, ![n, m]⟩ : Shape).Idx) (q : D.contr.Idx) : (D.lhsIdx j q 0).val = (j 0).val := by
  have key : ∀ (a b : Nat) (ha : a < 2) (hb : b < 2), a = b → (j ⟨a, ha⟩).val = (j ⟨b, hb⟩).val :=
    fun a b ha hb h => by subst h; rfl
  unfold DotDims.lhsIdx
  rw [dif_neg (by rw [hlb]; exact List.not_mem_nil), dif_pos (by rw [hln]; exact List.mem_singleton.mpr rfl)]
  simp only [Fin.val_cast]
  exact key _ _ _ _ (by simp [hlb, hln])

private theorem dot_rhs1 (j : (⟨2, ![n, m]⟩ : Shape).Idx) (q : D.contr.Idx) : (D.rhsIdx j q 1).val = (j 1).val := by
  have key : ∀ (a b : Nat) (ha : a < 2) (hb : b < 2), a = b → (j ⟨a, ha⟩).val = (j ⟨b, hb⟩).val :=
    fun a b ha hb h => by subst h; rfl
  unfold DotDims.rhsIdx
  rw [dif_neg (by rw [hrb]; exact List.not_mem_nil), dif_pos (by rw [hrn]; exact List.mem_singleton.mpr rfl)]
  simp only [Fin.val_cast]
  exact key _ _ _ _ (by simp [hlb, hln, hrn])

/-- The product of a matrix by a matrix into the zero accumulator, read at `(p, c)`: row `p` against column `c`. -/
private theorem matmul_rows_apply {φ₁ φ₂ : FTy} (prec : Option ContractPrecision) (lhs : FVec Ideal ⟨2, ![n, k]⟩ φ₁)
    (rhs : FVec Ideal ⟨2, ![k, m]⟩ φ₂) (p : Fin n) (c : Fin m) :
    FloatOps.matmul D prec lhs rhs (constant ⟨2, ![n, m]⟩ .f32 0x00000000#32) (ix2 p c)
      = ∑ q : Fin k, lhs (ix2 p q) * rhs (ix2 q c) := by
  have hR := dot_contr_rank D hlc hrc hln hrn hlb hrb
  have hS := dot_contr_size D hlc hrc hln hrn hlb hrb
  rw [Ideal.matmul_constant_zero_apply, ← Equiv.sum_comp (contrEquiv1 D k hR hS).symm]
  refine Finset.sum_congr rfl fun q _ => ?_
  have hq := contrEquiv1_symm_val D k hR hS q
  have el : D.lhsIdx (ix2 p c) ((contrEquiv1 D k hR hS).symm q) = ix2 p q := funext fun a => Fin.ext (by
    match a with
    | ⟨0, _⟩ => exact dot_lhs0 D hlc hrc hln hrn hlb hrb _ _
    | ⟨1, _⟩ => exact (D.lhsIdx_val_of_single hlc _ _).trans hq)
  have er : D.rhsIdx (ix2 p c) ((contrEquiv1 D k hR hS).symm q) = ix2 q c := funext fun a => Fin.ext (by
    match a with
    | ⟨0, _⟩ => exact (D.rhsIdx_val_of_single hrc _ _).trans hq
    | ⟨1, _⟩ => exact dot_rhs1 D hlc hrc hln hrn hlb hrb _ _)
  rw [el, er]

end Dot

/-! ## The two concatenations at an index -/

/-- The three-piece join along the columns (448 + 128 + 64), read at a row: the join of the three rows. -/
private theorem concat3_apply {n : ℕ} (A : (⟨2, ![n, 448]⟩ : Shape).Idx → EReal) (B : (⟨2, ![n, 128]⟩ : Shape).Idx → EReal)
    (C : (⟨2, ![n, 64]⟩ : Shape).Idx → EReal)
    (h : Shape.Concatenates [⟨2, ![n, 448]⟩, ⟨2, ![n, 128]⟩, ⟨2, ![n, 64]⟩] ⟨2, ![n, 640]⟩ 1) (p : Fin n) (k : Fin 640) :
    concatenate ⟨2, ![n, 640]⟩ 1 [⟨⟨2, ![n, 448]⟩, A⟩, ⟨⟨2, ![n, 128]⟩, B⟩, ⟨⟨2, ![n, 64]⟩, C⟩] h (ix2 p k)
      = join3 (fun c => A (ix2 p c)) (fun c => B (ix2 p c)) (fun c => C (ix2 p c)) k := by
  unfold join3
  by_cases h1 : k.val < 448
  · rw [dif_pos h1]
    exact concatenate_apply_piece 1 [⟨⟨2, ![n, 448]⟩, A⟩, ⟨⟨2, ![n, 128]⟩, B⟩, ⟨⟨2, ![n, 64]⟩, C⟩] h (ix2 p k) 0 (by show 0 < 3; omega) ⟨2, ![n, 448]⟩ A rfl rfl 0 rfl (ix2 p ⟨k.val, h1⟩)
      (fun b hb => by
        match b with
        | ⟨0, _⟩ => rfl
        | ⟨1, _⟩ => exact absurd rfl hb)
      (by show 0 + k.val = k.val; omega)
  · rw [dif_neg h1]
    by_cases h2 : k.val < 576
    · rw [dif_pos h2]
      exact concatenate_apply_piece 1 [⟨⟨2, ![n, 448]⟩, A⟩, ⟨⟨2, ![n, 128]⟩, B⟩, ⟨⟨2, ![n, 64]⟩, C⟩] h (ix2 p k) 1 (by show 1 < 3; omega) ⟨2, ![n, 128]⟩ B rfl rfl 448 rfl
        (ix2 p ⟨k.val - 448, by omega⟩)
        (fun b hb => by
          match b with
          | ⟨0, _⟩ => rfl
          | ⟨1, _⟩ => exact absurd rfl hb)
        (by show 448 + (k.val - 448) = k.val; omega)
    · rw [dif_neg h2]
      exact concatenate_apply_piece 1 [⟨⟨2, ![n, 448]⟩, A⟩, ⟨⟨2, ![n, 128]⟩, B⟩, ⟨⟨2, ![n, 64]⟩, C⟩] h (ix2 p k) 2 (by show 2 < 3; omega) ⟨2, ![n, 64]⟩ C rfl rfl 576 rfl
        (ix2 p ⟨k.val - 576, by have := k.isLt; omega⟩)
        (fun b hb => by
          match b with
          | ⟨0, _⟩ => rfl
          | ⟨1, _⟩ => exact absurd rfl hb)
        (by show 576 + (k.val - 576) = k.val; omega)

/-- Two arrays with a trailing unit axis stacked on that axis, read at `(p, a, j)`: the first at `j = 0`, else the second. -/
private theorem concat2_last_apply {α : Type} {n m : ℕ} (A B : (⟨3, ![n, m, 1]⟩ : Shape).Idx → α)
    (h : Shape.Concatenates [⟨3, ![n, m, 1]⟩, ⟨3, ![n, m, 1]⟩] ⟨3, ![n, m, 2]⟩ 2) (p : Fin n) (a : Fin m) (j : Fin 2) :
    concatenate ⟨3, ![n, m, 2]⟩ 2 [⟨⟨3, ![n, m, 1]⟩, A⟩, ⟨⟨3, ![n, m, 1]⟩, B⟩] h (ix3 p a j)
      = if j.val = 0 then A (ix3 p a (0 : Fin 1)) else B (ix3 p a (0 : Fin 1)) := by
  match j with
  | ⟨0, _⟩ =>
    rw [if_pos rfl]
    exact concatenate_pair_apply_left 2 A B h _ rfl (ix3 p a (0 : Fin 1)) (fun b => by
      match b with
      | ⟨0, _⟩ => rfl
      | ⟨1, _⟩ => rfl
      | ⟨2, _⟩ => rfl)
  | ⟨1, _⟩ =>
    rw [if_neg Nat.one_ne_zero]
    exact concatenate_pair_apply_right 2 A B h _ rfl rfl (ix3 p a (0 : Fin 1)) (fun b hb => by
      match b with
      | ⟨0, _⟩ => rfl
      | ⟨1, _⟩ => rfl
      | ⟨2, _⟩ => exact absurd rfl hb) rfl
/-! ## The trunk's payloads at a row -/

section first
variable (v5 : FVec Ideal S1024x448 .f32) (v169 : FVec Ideal S1024x128 .f32) (v177 v178 : FVec Ideal S1024x64 .f32)
  (v180 v181 : Vec Ideal S64 .f32) (v207 : Vec Ideal S640x256 .f32) (v208 : Vec Ideal S256 .f32) (p : Fin 1024)
  (a : Fin 448 → EReal) (b : Fin 128 → EReal) (d : Fin 64 → EReal)
  (h5 : ∀ c, v5 (ix2 p c) = a c) (h169 : ∀ c, v169 (ix2 p c) = b c) (h177 : ∀ c, v177 (ix2 p c) = d c)
  (h178 : ∀ c, v178 (ix2 p c) = Ideal.ofBits .f32 0x00000000#32)
include h5 h169 h177 h178

theorem pay21_apply (j : Fin 256) :
    k0_pay21 (F := Ideal) v5 v169 v177 v178 v180 v181 v207 v208 (ix2 p j) = (relu (dense (join3 a b (layerNorm c64 (relu d) (vec v180) (vec v181))) (mat v207) (vec v208))) j := by
  unfold k0_pay21
  simp only [maximumf_apply, addf_apply, mulf_apply, subf_apply, divf_apply, truncf_apply, rsqrt_apply, broadcast_apply,
    scalar_ofBits, matmul, matmul_rows_apply dot_S1024x640_S640x256_S1024x256_1_0_0_1_n_n rfl rfl rfl rfl rfl rfl,
    concat3_apply, broadcastTo_1b_ab_apply, shapeCast_a_1a_apply, broadcastTo_a1_ab_apply, shapeCast_a_a1_apply,
    multiReduction, Ideal.reduceAdd_def, rowSum_apply, h5, h169, h177, h178]
  rfl

theorem pay22_apply :
    k0_pay22 (F := Ideal) v5 v169 v177 v178 v180 v181 v207 v208 (ix2 p 0) = rowMean c256 (relu (dense (join3 a b (layerNorm c64 (relu d) (vec v180) (vec v181))) (mat v207) (vec v208))) := by
  unfold k0_pay22
  simp only [divf_apply, shapeCast_a_a1_apply, multiReduction, Ideal.reduceAdd_def, rowSum_apply, broadcast_apply, scalar_ofBits,
    pay21_apply v5 v169 v177 v178 v180 v181 v207 v208 p a b d h5 h169 h177 h178]
  rfl
end first

section second
variable (v216 : FVec Ideal S1024x256 .f32) (v217 v218 : Vec Ideal S256 .f32) (v222 : FVec Ideal S1024x1 .f32)
  (v243 : Vec Ideal S256x256 .f32) (v244 : Vec Ideal S256 .f32) (p : Fin 1024) (x : Fin 256 → EReal)
  (h216 : ∀ k, v216 (ix2 p k) = x k) (h222 : v222 (ix2 p 0) = rowMean c256 x)
include h216 h222

/-- The second trunk layer before its own norm, at a row: the first layer's norm, then dense and ReLU. -/
private theorem pay23_apply (j : Fin 256) :
    k0_pay23 (F := Ideal) v216 v217 v218 v222 v243 v244 (ix2 p j) = (relu (dense (layerNorm c256 x (vec v217) (vec v218)) (mat v243) (vec v244))) j := by
  unfold k0_pay23
  simp only [maximumf_apply, addf_apply, mulf_apply, subf_apply, divf_apply, truncf_apply, rsqrt_apply, broadcast_apply,
    scalar_ofBits, matmul, matmul_rows_apply dot_S1024x256_S256x256_S1024x256_1_0_0_1_n_n rfl rfl rfl rfl rfl rfl,
    broadcastTo_1b_ab_apply, shapeCast_a_1a_apply, broadcastTo_a1_ab_apply, shapeCast_a_a1_apply, multiReduction, Ideal.reduceAdd_def, rowSum_apply, h216, h222]
  rfl

/-- Its mean along the row. -/
private theorem pay24_apply (u : Fin 1) :
    k0_pay24 (F := Ideal) v216 v217 v218 v222 v243 v244 (ix2 p u) = rowMean c256 (relu (dense (layerNorm c256 x (vec v217) (vec v218)) (mat v243) (vec v244))) := by
  unfold k0_pay24
  simp only [divf_apply, shapeCast_a_a1_apply, multiReduction, Ideal.reduceAdd_def, rowSum_apply, broadcast_apply, scalar_ofBits,
    pay23_apply v216 v217 v218 v222 v243 v244 p x h216 h222]
  rfl

theorem pay26_apply (j : Fin 256) :
    k0_pay26 (F := Ideal) v216 v217 v218 v222 v243 v244 (ix2 p j) = (relu (dense (layerNorm c256 x (vec v217) (vec v218)) (mat v243) (vec v244))) j - rowMean c256 (relu (dense (layerNorm c256 x (vec v217) (vec v218)) (mat v243) (vec v244))) := by
  unfold k0_pay26
  simp only [subf_apply, broadcastTo_a1_ab_apply, pay23_apply v216 v217 v218 v222 v243 v244 p x h216 h222,
    pay24_apply v216 v217 v218 v222 v243 v244 p x h216 h222]

theorem pay25_apply :
    k0_pay25 (F := Ideal) v216 v217 v218 v222 v243 v244 (ix2 p 0)
      = rowMean c256 (fun k => ((relu (dense (layerNorm c256 x (vec v217) (vec v218)) (mat v243) (vec v244))) k - rowMean c256 (relu (dense (layerNorm c256 x (vec v217) (vec v218)) (mat v243) (vec v244)))) * ((relu (dense (layerNorm c256 x (vec v217) (vec v218)) (mat v243) (vec v244))) k - rowMean c256 (relu (dense (layerNorm c256 x (vec v217) (vec v218)) (mat v243) (vec v244))))) := by
  unfold k0_pay25
  simp only [divf_apply, shapeCast_a_a1_apply, multiReduction, Ideal.reduceAdd_def, rowSum_apply, mulf_apply, subf_apply, broadcastTo_a1_ab_apply, broadcast_apply,
    scalar_ofBits, pay23_apply v216 v217 v218 v222 v243 v244 p x h216 h222,
    pay24_apply v216 v217 v218 v222 v243 v244 p x h216 h222]
  rfl
end second

theorem pay1_apply (v253 v254 : Vec Ideal S256 .f32) (v265 : FVec Ideal S1024x1 .f32) (v267 : FVec Ideal S1024x256 .f32)
    (cst_78 : Ideal .f32) (v279 : Vec Ideal S256x64 .f32) (v280 : Vec Ideal S64 .f32) (v287 : Vec Ideal S256x64 .f32)
    (v288 : Vec Ideal S64 .f32) (p : Fin 1024) (y : Fin 256 → EReal)
    (h265 : v265 (ix2 p 0) = rowMean c256 (fun k => (y k - rowMean c256 y) * (y k - rowMean c256 y)))
    (h267 : ∀ k, v267 (ix2 p k) = y k - rowMean c256 y) (hc : cst_78 = Ideal.ofBits .f32 0x3727C5AC#32)
    (a : Fin 64) (j : Fin 2) :
    k0_pay1 (F := Ideal) v253 v254 v265 v267 cst_78 v279 v280 v287 v288 (ix3 p a j)
      = if j.val = 0 then dense (layerNorm c256 y (vec v253) (vec v254)) (mat v279) (vec v280) a
        else dense (layerNorm c256 y (vec v253) (vec v254)) (mat v287) (vec v288) a := by
  subst hc
  unfold k0_pay1
  simp only [concat2_last_apply, shapeCast_ab_ab1_apply, addf_apply, mulf_apply, truncf_apply, rsqrt_apply, broadcast_apply,
    matmul, matmul_rows_apply dot_S1024x256_S256x64_S1024x64_1_0_0_1_n_n rfl rfl rfl rfl rfl rfl, broadcastTo_1b_ab_apply,
    shapeCast_a_1a_apply, broadcastTo_a1_ab_apply, h265, h267]
  rfl

end Cert.KernelIdeal.RowValue

end
-- ==== Proof.KBody.lean ====
/-
  The kernel's whole body read at a row: what the body leaves in the output block at (p, a, j) is the specification's
  row function of row p of the observation block and of the preference block and of the weights.  The body is cut into
  pieces (the histogram bins, the two encoders, the trunk, the heads); each piece read at a row is a lemma of its own,
  and this module only threads them: the bins feed the histogram encoder, that and the preference encoder and the
  remaining observation columns feed the trunk, the trunk feeds the two heads.
-/
import proofs.«161807_j10033043603499_1_alg».proof.Proof.Gen.KernelIdeal.Frame
import proofs.«161807_j10033043603499_1_alg».proof.Proof.KHist
import proofs.«161807_j10033043603499_1_alg».proof.Proof.KEnc
import proofs.«161807_j10033043603499_1_alg».proof.Proof.KTrunk
import Idealize.ShloMosaic.Lib.Pipeline.Value

noncomputable section

namespace Cert.KernelIdeal.RowValue

open Idealize.ShloMosaic Idealize.ShloMosaic.ValueIdx Cert.KernelIdeal Cert.KernelIdeal.Gen HistCritic

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The output block after the body, at row `p`, head column `a` and head `j`, is the row function of row `p` of the two
    input blocks. -/
theorem out_apply (x0 : Vec Ideal S1024x512 .f32) (x1 : Vec Ideal S1024x2 .f32) (x2 : Vec Ideal S10x128 .f32) (x3 : Vec Ideal S128 .f32) (x4 : Vec Ideal S128 .f32) (x5 : Vec Ideal S128 .f32) (x6 : Vec Ideal S128x128 .f32) (x7 : Vec Ideal S128 .f32) (x8 : Vec Ideal S128 .f32) (x9 : Vec Ideal S128 .f32) (x10 : Vec Ideal S2x64 .f32) (x11 : Vec Ideal S64 .f32) (x12 : Vec Ideal S64 .f32) (x13 : Vec Ideal S64 .f32) (x14 : Vec Ideal S640x256 .f32) (x15 : Vec Ideal S256 .f32) (x16 : Vec Ideal S256 .f32) (x17 : Vec Ideal S256 .f32) (x18 : Vec Ideal S256x256 .f32) (x19 : Vec Ideal S256 .f32) (x20 : Vec Ideal S256 .f32) (x21 : Vec Ideal S256 .f32) (x22 : Vec Ideal S256x64 .f32) (x23 : Vec Ideal S64 .f32) (x24 : Vec Ideal S256x64 .f32) (x25 : Vec Ideal S64 .f32)
    (p : Fin 1024) (a : Fin 64) (j : Fin 2) :
    out0_26 (F := Ideal) x0 x1 x2 x3 x4 x5 x6 x7 x8 x9 x10 x11 x12 x13 x14 x15 x16 x17 x18 x19 x20 x21 x22 x23 x24 x25 (ix3 p a j)
      = rowOut (Weights.of x2 x3 x4 x5 x6 x7 x8 x9 x10 x11 x12 x13 x14 x15 x16 x17 x18 x19 x20 x21 x22 x23 x24 x25) (row x0 p) (row x1 p) a j := by
  unfold out0_26
  rw [View.canon_unit_zero hz3]
  simp only [View.ld_unit_zero (S := S1024x512) hz2, View.ld_unit_zero (S := S1024x2) hz2, View.ld_unit_zero (S := S10x128) hz2, View.ld_unit_zero (S := S128) hz1, View.ld_unit_zero (S := S128x128) hz2, View.ld_unit_zero (S := S2x64) hz2, View.ld_unit_zero (S := S64) hz1, View.ld_unit_zero (S := S640x256) hz2, View.ld_unit_zero (S := S256) hz1, View.ld_unit_zero (S := S256x256) hz2, View.ld_unit_zero (S := S256x64) hz2]
  -- the histogram: bin index and validity mask of the server columns, then the ten bin counts
  have H4 := pay4_apply x0 p
  have H5 := pay5_apply x0 p
  -- the histogram encoder
  have h17 := pay17_apply _ _ _ _ _ _ _ _ _ _ x2 x3 x4 x5 p (servers (row x0 p))
    (pay6_apply x0 p) (pay7_apply x0 p) (pay8_apply x0 p)
    (pay10_apply p _ _ _ H4 H5) (pay11_apply p _ _ _ H4 H5) (pay12_apply p _ _ _ H4 H5) (pay13_apply p _ _ _ H4 H5)
    (pay14_apply p _ _ _ H4 H5) (pay15_apply p _ _ _ H4 H5) (pay16_apply p _ _ _ H4 H5)
  have h18 := pay18_apply _ x6 x7 x8 x9 p _ h17
  -- the preference encoder's dense layer, and the zero it is compared with
  have h19 := pay19_apply x1 x10 x11 p
  have h20 := pay20_apply p
  -- the trunk's first layer and its mean
  have h21 := pay21_apply _ _ _ _ x12 x13 x14 x15 p _ _ _ (pay3_apply x0 p) h18 h19 h20
  have h22 := pay22_apply _ _ _ _ x12 x13 x14 x15 p _ _ _ (pay3_apply x0 p) h18 h19 h20
  -- the trunk's second layer: centred value and variance
  have h26 := pay26_apply _ x16 x17 _ x18 x19 p _ h21 h22
  have h25 := pay25_apply _ x16 x17 _ x18 x19 p _ h21 h22
  -- the last layer norm and the two heads
  exact pay1_apply x20 x21 _ _ _ x22 x23 x24 x25 p _ h25 h26 rfl a j

end Cert.KernelIdeal.RowValue

end
-- ==== Proof.Blocks.lean ====
/-
  From blocks to the array.  Grid point t of the kernel stages rows 1024·t … 1024·t + 1023 of the observation and
  preference arrays and every weight array whole, and writes back rows 1024·t … of the result.  What it writes back
  is, entry by entry, the specification's row function of the corresponding rows of the two arrays; the 64 blocks
  tile the result array; so after the run the result array is the specification's `result` of the argument arrays.
-/
import proofs.«161807_j10033043603499_1_alg».proof.Proof.Gen.KernelIdeal.Value
import proofs.«161807_j10033043603499_1_alg».proof.Proof.KBody

set_option maxRecDepth 16384

noncomputable section

namespace Cert.KernelIdeal.BlockValue

open Idealize.ShloMosaic Idealize.ShloMosaic.TcCoe Idealize.SL.Sem Idealize.ShloMosaic.ValueIdx
open Cert.KernelIdeal Cert.KernelIdeal.Gen HistCritic
open Idealize.ShloMosaic.Pipeline (Dat)

variable (m : (ℓ : Loc nD τ sig) → Buf (Elt Ideal) ℓ) (ρ : Dev nD → PrngReg)

theorem t_lt (t : Fin cfg0.N) : t.val < 64 := lt_of_lt_of_eq t.isLt N_0

/-- The index maps of the result, observation and preference windows, decided over the 64 grid points: block row t,
    block column 0. -/
theorem idx_io : ∀ t : Fin cfg0.N,
    win0_26.index t (0 : Fin 3) = t.val ∧ win0_26.index t (1 : Fin 3) = 0 ∧ win0_26.index t (2 : Fin 3) = 0
    ∧ win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- Every weight window stays at block 0 on every axis. -/
theorem idx_w : ∀ t : Fin cfg0.N,
    (win0_2.index t (0 : Fin 2) = 0 ∧ win0_2.index t (1 : Fin 2) = 0)
    ∧ win0_3.index t (0 : Fin 1) = 0
    ∧ win0_4.index t (0 : Fin 1) = 0
    ∧ win0_5.index t (0 : Fin 1) = 0
    ∧ (win0_6.index t (0 : Fin 2) = 0 ∧ win0_6.index t (1 : Fin 2) = 0)
    ∧ win0_7.index t (0 : Fin 1) = 0
    ∧ win0_8.index t (0 : Fin 1) = 0
    ∧ win0_9.index t (0 : Fin 1) = 0
    ∧ (win0_10.index t (0 : Fin 2) = 0 ∧ win0_10.index t (1 : Fin 2) = 0)
    ∧ win0_11.index t (0 : Fin 1) = 0
    ∧ win0_12.index t (0 : Fin 1) = 0
    ∧ win0_13.index t (0 : Fin 1) = 0
    ∧ (win0_14.index t (0 : Fin 2) = 0 ∧ win0_14.index t (1 : Fin 2) = 0)
    ∧ win0_15.index t (0 : Fin 1) = 0
    ∧ win0_16.index t (0 : Fin 1) = 0
    ∧ win0_17.index t (0 : Fin 1) = 0
    ∧ (win0_18.index t (0 : Fin 2) = 0 ∧ win0_18.index t (1 : Fin 2) = 0)
    ∧ win0_19.index t (0 : Fin 1) = 0
    ∧ win0_20.index t (0 : Fin 1) = 0
    ∧ win0_21.index t (0 : Fin 1) = 0
    ∧ (win0_22.index t (0 : Fin 2) = 0 ∧ win0_22.index t (1 : Fin 2) = 0)
    ∧ win0_23.index t (0 : Fin 1) = 0
    ∧ (win0_24.index t (0 : Fin 2) = 0 ∧ win0_24.index t (1 : Fin 2) = 0)
    ∧ win0_25.index t (0 : Fin 1) = 0 :=
  (by decide +kernel : ∀ t : Fin grid0.N, _)

/-- The staged blocks at point t, each at its literal shape. -/
abbrev blk0 (c : Dev nD) (t : Fin cfg0.N) : Vec Ideal S1024x512 .f32 := iblk m c 0 t
abbrev blk1 (c : Dev nD) (t : Fin cfg0.N) : Vec Ideal S1024x2 .f32 := iblk m c 1 t
abbrev blk2 (c : Dev nD) (t : Fin cfg0.N) : Vec Ideal S10x128 .f32 := iblk m c 2 t
abbrev blk3 (c : Dev nD) (t : Fin cfg0.N) : Vec Ideal S128 .f32 := iblk m c 3 t
abbrev blk4 (c : Dev nD) (t : Fin cfg0.N) : Vec Ideal S128 .f32 := iblk m c 4 t
abbrev blk5 (c : Dev nD) (t : Fin cfg0.N) : Vec Ideal S128 .f32 := iblk m c 5 t
abbrev blk6 (c : Dev nD) (t : Fin cfg0.N) : Vec Ideal S128x128 .f32 := iblk m c 6 t
abbrev blk7 (c : Dev nD) (t : Fin cfg0.N) : Vec Ideal S128 .f32 := iblk m c 7 t
abbrev blk8 (c : Dev nD) (t : Fin cfg0.N) : Vec Ideal S128 .f32 := iblk m c 8 t
abbrev blk9 (c : Dev nD) (t : Fin cfg0.N) : Vec Ideal S128 .f32 := iblk m c 9 t
abbrev blk10 (c : Dev nD) (t : Fin cfg0.N) : Vec Ideal S2x64 .f32 := iblk m c 10 t
abbrev blk11 (c : Dev nD) (t : Fin cfg0.N) : Vec Ideal S64 .f32 := iblk m c 11 t
abbrev blk12 (c : Dev nD) (t : Fin cfg0.N) : Vec Ideal S64 .f32 := iblk m c 12 t
abbrev blk13 (c : Dev nD) (t : Fin cfg0.N) : Vec Ideal S64 .f32 := iblk m c 13 t
abbrev blk14 (c : Dev nD) (t : Fin cfg0.N) : Vec Ideal S640x256 .f32 := iblk m c 14 t
abbrev blk15 (c : Dev nD) (t : Fin cfg0.N) : Vec Ideal S256 .f32 := iblk m c 15 t
abbrev blk16 (c : Dev nD) (t : Fin cfg0.N) : Vec Ideal S256 .f32 := iblk m c 16 t
abbrev blk17 (c : Dev nD) (t : Fin cfg0.N) : Vec Ideal S256 .f32 := iblk m c 17 t
abbrev blk18 (c : Dev nD) (t : Fin cfg0.N) : Vec Ideal S256x256 .f32 := iblk m c 18 t
abbrev blk19 (c : Dev nD) (t : Fin cfg0.N) : Vec Ideal S256 .f32 := iblk m c 19 t
abbrev blk20 (c : Dev nD) (t : Fin cfg0.N) : Vec Ideal S256 .f32 := iblk m c 20 t
abbrev blk21 (c : Dev nD) (t : Fin cfg0.N) : Vec Ideal S256 .f32 := iblk m c 21 t
abbrev blk22 (c : Dev nD) (t : Fin cfg0.N) : Vec Ideal S256x64 .f32 := iblk m c 22 t
abbrev blk23 (c : Dev nD) (t : Fin cfg0.N) : Vec Ideal S64 .f32 := iblk m c 23 t
abbrev blk24 (c : Dev nD) (t : Fin cfg0.N) : Vec Ideal S256x64 .f32 := iblk m c 24 t
abbrev blk25 (c : Dev nD) (t : Fin cfg0.N) : Vec Ideal S64 .f32 := iblk m c 25 t

/-- Row p of the observation block at point t is row 1024·t + p of the array. -/
theorem blk0_apply (c : Dev nD) (t : Fin cfg0.N) (p : Fin 1024) (q : Fin 512) :
    blk0 m c t (ix2 p q) = V m c main_arg0 (ix2 (⟨t.val * 1024 + p.val, by have := t_lt t; omega⟩ : Fin 65536) q) := by
  show V m c main_arg0 (((cfg0.win 0).blk t).view.emb (ix2 p q)) = _
  refine congrArg _ (funext fun a => Fin.ext ?_)
  obtain ⟨-, -, -, e0, e1, -, -⟩ := idx_io t
  match a with
  | ⟨0, _⟩ => show win0_0.index t (0 : Fin 2) * 1024 + 1 * p.val = t.val * 1024 + p.val; rw [e0]; omega
  | ⟨1, _⟩ => show win0_0.index t (1 : Fin 2) * 512 + 1 * q.val = q.val; rw [e1]; omega

/-- Row p of the preference block at point t is row 1024·t + p of the array. -/
theorem blk1_apply (c : Dev nD) (t : Fin cfg0.N) (p : Fin 1024) (q : Fin 2) :
    blk1 m c t (ix2 p q) = V m c main_arg1 (ix2 (⟨t.val * 1024 + p.val, by have := t_lt t; omega⟩ : Fin 65536) q) := by
  show V m c main_arg1 (((cfg0.win 1).blk t).view.emb (ix2 p q)) = _
  refine congrArg _ (funext fun a => Fin.ext ?_)
  obtain ⟨-, -, -, -, -, e0, e1⟩ := idx_io t
  match a with
  | ⟨0, _⟩ => show win0_1.index t (0 : Fin 2) * 1024 + 1 * p.val = t.val * 1024 + p.val; rw [e0]; omega
  | ⟨1, _⟩ => show win0_1.index t (1 : Fin 2) * 2 + 1 * q.val = q.val; rw [e1]; omega

/-! Each weight window's block is its whole array: block index 0 on every axis, the block as large as the array. -/

theorem blk2_eq (c : Dev nD) (t : Fin cfg0.N) : blk2 m c t = V m c main_arg2 := by
  funext y
  show V m c main_arg2 (((cfg0.win 2).blk t).view.emb y) = V m c main_arg2 y
  refine congrArg _ (funext fun a => Fin.ext ?_)
  match a with
  | ⟨0, _⟩ => show win0_2.index t (0 : Fin 2) * 10 + 1 * (y 0).val = (y 0).val; rw [(idx_w t).1.1]; omega
  | ⟨1, _⟩ => show win0_2.index t (1 : Fin 2) * 128 + 1 * (y 1).val = (y 1).val; rw [(idx_w t).1.2]; omega

theorem blk3_eq (c : Dev nD) (t : Fin cfg0.N) : blk3 m c t = V m c main_arg3 := by
  funext y
  show V m c main_arg3 (((cfg0.win 3).blk t).view.emb y) = V m c main_arg3 y
  refine congrArg _ (funext fun a => Fin.ext ?_)
  match a with
  | ⟨0, _⟩ => show win0_3.index t (0 : Fin 1) * 128 + 1 * (y 0).val = (y 0).val; rw [(idx_w t).2.1]; omega

theorem blk4_eq (c : Dev nD) (t : Fin cfg0.N) : blk4 m c t = V m c main_arg4 := by
  funext y
  show V m c main_arg4 (((cfg0.win 4).blk t).view.emb y) = V m c main_arg4 y
  refine congrArg _ (funext fun a => Fin.ext ?_)
  match a with
  | ⟨0, _⟩ => show win0_4.index t (0 : Fin 1) * 128 + 1 * (y 0).val = (y 0).val; rw [(idx_w t).2.2.1]; omega

theorem blk5_eq (c : Dev nD) (t : Fin cfg0.N) : blk5 m c t = V m c main_arg5 := by
  funext y
  show V m c main_arg5 (((cfg0.win 5).blk t).view.emb y) = V m c main_arg5 y
  refine congrArg _ (funext fun a => Fin.ext ?_)
  match a with
  | ⟨0, _⟩ => show win0_5.index t (0 : Fin 1) * 128 + 1 * (y 0).val = (y 0).val; rw [(idx_w t).2.2.2.1]; omega

theorem blk6_eq (c : Dev nD) (t : Fin cfg0.N) : blk6 m c t = V m c main_arg6 := by
  funext y
  show V m c main_arg6 (((cfg0.win 6).blk t).view.emb y) = V m c main_arg6 y
  refine congrArg _ (funext fun a => Fin.ext ?_)
  match a with
  | ⟨0, _⟩ => show win0_6.index t (0 : Fin 2) * 128 + 1 * (y 0).val = (y 0).val; rw [(idx_w t).2.2.2.2.1.1]; omega
  | ⟨1, _⟩ => show win0_6.index t (1 : Fin 2) * 128 + 1 * (y 1).val = (y 1).val; rw [(idx_w t).2.2.2.2.1.2]; omega

theorem blk7_eq (c : Dev nD) (t : Fin cfg0.N) : blk7 m c t = V m c main_arg7 := by
  funext y
  show V m c main_arg7 (((cfg0.win 7).blk t).view.emb y) = V m c main_arg7 y
  refine congrArg _ (funext fun a => Fin.ext ?_)
  match a with
  | ⟨0, _⟩ => show win0_7.index t (0 : Fin 1) * 128 + 1 * (y 0).val = (y 0).val; rw [(idx_w t).2.2.2.2.2.1]; omega

theorem blk8_eq (c : Dev nD) (t : Fin cfg0.N) : blk8 m c t = V m c main_arg8 := by
  funext y
  show V m c main_arg8 (((cfg0.win 8).blk t).view.emb y) = V m c main_arg8 y
  refine congrArg _ (funext fun a => Fin.ext ?_)
  match a with
  | ⟨0, _⟩ => show win0_8.index t (0 : Fin 1) * 128 + 1 * (y 0).val = (y 0).val; rw [(idx_w t).2.2.2.2.2.2.1]; omega

theorem blk9_eq (c : Dev nD) (t : Fin cfg0.N) : blk9 m c t = V m c main_arg9 := by
  funext y
  show V m c main_arg9 (((cfg0.win 9).blk t).view.emb y) = V m c main_arg9 y
  refine congrArg _ (funext fun a => Fin.ext ?_)
  match a with
  | ⟨0, _⟩ => show win0_9.index t (0 : Fin 1) * 128 + 1 * (y 0).val = (y 0).val; rw [(idx_w t).2.2.2.2.2.2.2.1]; omega

theorem blk10_eq (c : Dev nD) (t : Fin cfg0.N) : blk10 m c t = V m c main_arg10 := by
  funext y
  show V m c main_arg10 (((cfg0.win 10).blk t).view.emb y) = V m c main_arg10 y
  refine congrArg _ (funext fun a => Fin.ext ?_)
  match a with
  | ⟨0, _⟩ => show win0_10.index t (0 : Fin 2) * 2 + 1 * (y 0).val = (y 0).val; rw [(idx_w t).2.2.2.2.2.2.2.2.1.1]; omega
  | ⟨1, _⟩ => show win0_10.index t (1 : Fin 2) * 64 + 1 * (y 1).val = (y 1).val; rw [(idx_w t).2.2.2.2.2.2.2.2.1.2]; omega

theorem blk11_eq (c : Dev nD) (t : Fin cfg0.N) : blk11 m c t = V m c main_arg11 := by
  funext y
  show V m c main_arg11 (((cfg0.win 11).blk t).view.emb y) = V m c main_arg11 y
  refine congrArg _ (funext fun a => Fin.ext ?_)
  match a with
  | ⟨0, _⟩ => show win0_11.index t (0 : Fin 1) * 64 + 1 * (y 0).val = (y 0).val; rw [(idx_w t).2.2.2.2.2.2.2.2.2.1]; omega

theorem blk12_eq (c : Dev nD) (t : Fin cfg0.N) : blk12 m c t = V m c main_arg12 := by
  funext y
  show V m c main_arg12 (((cfg0.win 12).blk t).view.emb y) = V m c main_arg12 y
  refine congrArg _ (funext fun a => Fin.ext ?_)
  match a with
  | ⟨0, _⟩ => show win0_12.index t (0 : Fin 1) * 64 + 1 * (y 0).val = (y 0).val; rw [(idx_w t).2.2.2.2.2.2.2.2.2.2.1]; omega

theorem blk13_eq (c : Dev nD) (t : Fin cfg0.N) : blk13 m c t = V m c main_arg13 := by
  funext y
  show V m c main_arg13 (((cfg0.win 13).blk t).view.emb y) = V m c main_arg13 y
  refine congrArg _ (funext fun a => Fin.ext ?_)
  match a with
  | ⟨0, _⟩ => show win0_13.index t (0 : Fin 1) * 64 + 1 * (y 0).val = (y 0).val; rw [(idx_w t).2.2.2.2.2.2.2.2.2.2.2.1]; omega

theorem blk14_eq (c : Dev nD) (t : Fin cfg0.N) : blk14 m c t = V m c main_arg14 := by
  funext y
  show V m c main_arg14 (((cfg0.win 14).blk t).view.emb y) = V m c main_arg14 y
  refine congrArg _ (funext fun a => Fin.ext ?_)
  match a with
  | ⟨0, _⟩ => show win0_14.index t (0 : Fin 2) * 640 + 1 * (y 0).val = (y 0).val; rw [(idx_w t).2.2.2.2.2.2.2.2.2.2.2.2.1.1]; omega
  | ⟨1, _⟩ => show win0_14.index t (1 : Fin 2) * 256 + 1 * (y 1).val = (y 1).val; rw [(idx_w t).2.2.2.2.2.2.2.2.2.2.2.2.1.2]; omega

theorem blk15_eq (c : Dev nD) (t : Fin cfg0.N) : blk15 m c t = V m c main_arg15 := by
  funext y
  show V m c main_arg15 (((cfg0.win 15).blk t).view.emb y) = V m c main_arg15 y
  refine congrArg _ (funext fun a => Fin.ext ?_)
  match a with
  | ⟨0, _⟩ => show win0_15.index t (0 : Fin 1) * 256 + 1 * (y 0).val = (y 0).val; rw [(idx_w t).2.2.2.2.2.2.2.2.2.2.2.2.2.1]; omega

theorem blk16_eq (c : Dev nD) (t : Fin cfg0.N) : blk16 m c t = V m c main_arg16 := by
  funext y
  show V m c main_arg16 (((cfg0.win 16).blk t).view.emb y) = V m c main_arg16 y
  refine congrArg _ (funext fun a => Fin.ext ?_)
  match a with
  | ⟨0, _⟩ => show win0_16.index t (0 : Fin 1) * 256 + 1 * (y 0).val = (y 0).val; rw [(idx_w t).2.2.2.2.2.2.2.2.2.2.2.2.2.2.1]; omega

theorem blk17_eq (c : Dev nD) (t : Fin cfg0.N) : blk17 m c t = V m c main_arg17 := by
  funext y
  show V m c main_arg17 (((cfg0.win 17).blk t).view.emb y) = V m c main_arg17 y
  refine congrArg _ (funext fun a => Fin.ext ?_)
  match a with
  | ⟨0, _⟩ => show win0_17.index t (0 : Fin 1) * 256 + 1 * (y 0).val = (y 0).val; rw [(idx_w t).2.2.2.2.2.2.2.2.2.2.2.2.2.2.2.1]; omega

theorem blk18_eq (c : Dev nD) (t : Fin cfg0.N) : blk18 m c t = V m c main_arg18 := by
  funext y
  show V m c main_arg18 (((cfg0.win 18).blk t).view.emb y) = V m c main_arg18 y
  refine congrArg _ (funext fun a => Fin.ext ?_)
  match a with
  | ⟨0, _⟩ => show win0_18.index t (0 : Fin 2) * 256 + 1 * (y 0).val = (y 0).val; rw [(idx_w t).2.2.2.2.2.2.2.2.2.2.2.2.2.2.2.2.1.1]; omega
  | ⟨1, _⟩ => show win0_18.index t (1 : Fin 2) * 256 + 1 * (y 1).val = (y 1).val; rw [(idx_w t).2.2.2.2.2.2.2.2.2.2.2.2.2.2.2.2.1.2]; omega

theorem blk19_eq (c : Dev nD) (t : Fin cfg0.N) : blk19 m c t = V m c main_arg19 := by
  funext y
  show V m c main_arg19 (((cfg0.win 19).blk t).view.emb y) = V m c main_arg19 y
  refine congrArg _ (funext fun a => Fin.ext ?_)
  match a with
  | ⟨0, _⟩ => show win0_19.index t (0 : Fin 1) * 256 + 1 * (y 0).val = (y 0).val; rw [(idx_w t).2.2.2.2.2.2.2.2.2.2.2.2.2.2.2.2.2.1]; omega

theorem blk20_eq (c : Dev nD) (t : Fin cfg0.N) : blk20 m c t = V m c main_arg20 := by
  funext y
  show V m c main_arg20 (((cfg0.win 20).blk t).view.emb y) = V m c main_arg20 y
  refine congrArg _ (funext fun a => Fin.ext ?_)
  match a with
  | ⟨0, _⟩ => show win0_20.index t (0 : Fin 1) * 256 + 1 * (y 0).val = (y 0).val; rw [(idx_w t).2.2.2.2.2.2.2.2.2.2.2.2.2.2.2.2.2.2.1]; omega

theorem blk21_eq (c : Dev nD) (t : Fin cfg0.N) : blk21 m c t = V m c main_arg21 := by
  funext y
  show V m c main_arg21 (((cfg0.win 21).blk t).view.emb y) = V m c main_arg21 y
  refine congrArg _ (funext fun a => Fin.ext ?_)
  match a with
  | ⟨0, _⟩ => show win0_21.index t (0 : Fin 1) * 256 + 1 * (y 0).val = (y 0).val; rw [(idx_w t).2.2.2.2.2.2.2.2.2.2.2.2.2.2.2.2.2.2.2.1]; omega

theorem blk22_eq (c : Dev nD) (t : Fin cfg0.N) : blk22 m c t = V m c main_arg22 := by
  funext y
  show V m c main_arg22 (((cfg0.win 22).blk t).view.emb y) = V m c main_arg22 y
  refine congrArg _ (funext fun a => Fin.ext ?_)
  match a with
  | ⟨0, _⟩ => show win0_22.index t (0 : Fin 2) * 256 + 1 * (y 0).val = (y 0).val; rw [(idx_w t).2.2.2.2.2.2.2.2.2.2.2.2.2.2.2.2.2.2.2.2.1.1]; omega
  | ⟨1, _⟩ => show win0_22.index t (1 : Fin 2) * 64 + 1 * (y 1).val = (y 1).val; rw [(idx_w t).2.2.2.2.2.2.2.2.2.2.2.2.2.2.2.2.2.2.2.2.1.2]; omega

theorem blk23_eq (c : Dev nD) (t : Fin cfg0.N) : blk23 m c t = V m c main_arg23 := by
  funext y
  show V m c main_arg23 (((cfg0.win 23).blk t).view.emb y) = V m c main_arg23 y
  refine congrArg _ (funext fun a => Fin.ext ?_)
  match a with
  | ⟨0, _⟩ => show win0_23.index t (0 : Fin 1) * 64 + 1 * (y 0).val = (y 0).val; rw [(idx_w t).2.2.2.2.2.2.2.2.2.2.2.2.2.2.2.2.2.2.2.2.2.1]; omega

theorem blk24_eq (c : Dev nD) (t : Fin cfg0.N) : blk24 m c t = V m c main_arg24 := by
  funext y
  show V m c main_arg24 (((cfg0.win 24).blk t).view.emb y) = V m c main_arg24 y
  refine congrArg _ (funext fun a => Fin.ext ?_)
  match a with
  | ⟨0, _⟩ => show win0_24.index t (0 : Fin 2) * 256 + 1 * (y 0).val = (y 0).val; rw [(idx_w t).2.2.2.2.2.2.2.2.2.2.2.2.2.2.2.2.2.2.2.2.2.2.1.1]; omega
  | ⟨1, _⟩ => show win0_24.index t (1 : Fin 2) * 64 + 1 * (y 1).val = (y 1).val; rw [(idx_w t).2.2.2.2.2.2.2.2.2.2.2.2.2.2.2.2.2.2.2.2.2.2.1.2]; omega

theorem blk25_eq (c : Dev nD) (t : Fin cfg0.N) : blk25 m c t = V m c main_arg25 := by
  funext y
  show V m c main_arg25 (((cfg0.win 25).blk t).view.emb y) = V m c main_arg25 y
  refine congrArg _ (funext fun a => Fin.ext ?_)
  match a with
  | ⟨0, _⟩ => show win0_25.index t (0 : Fin 1) * 64 + 1 * (y 0).val = (y 0).val; rw [(idx_w t).2.2.2.2.2.2.2.2.2.2.2.2.2.2.2.2.2.2.2.2.2.2.2]; omega

/-- The result array the specification gives for the argument arrays as the region finds them. -/
def G (c : Dev nD) : S65536x64x2.Idx → EReal :=
  result (V m c main_arg0) (V m c main_arg1) (Weights.of (V m c main_arg2) (V m c main_arg3) (V m c main_arg4) (V m c main_arg5) (V m c main_arg6) (V m c main_arg7) (V m c main_arg8) (V m c main_arg9) (V m c main_arg10) (V m c main_arg11) (V m c main_arg12) (V m c main_arg13) (V m c main_arg14) (V m c main_arg15) (V m c main_arg16) (V m c main_arg17) (V m c main_arg18) (V m c main_arg19) (V m c main_arg20) (V m c main_arg21) (V m c main_arg22) (V m c main_arg23) (V m c main_arg24) (V m c main_arg25))

/-- WHAT POINT t WRITES BACK is block t of `G`. -/
theorem flushed_eq (c : Dev nD) (t : Fin cfg0.N) :
    (dats m 0 c).flushed 26 t = ((cfg0.win 26).blk t).view.read (Elt Ideal) (G m c) := by
  rw [Cert.KernelIdeal.Value.flushed26]
  funext y
  obtain ⟨p, a, j, rfl⟩ : ∃ (p : Fin 1024) (a : Fin 64) (j : Fin 2), y = ix3 p a j := ⟨y 0, y 1, y 2, eq_ix3 y⟩
  show out0_26 (F := Ideal) (blk0 m c t) (blk1 m c t) (blk2 m c t) (blk3 m c t) (blk4 m c t) (blk5 m c t) (blk6 m c t) (blk7 m c t) (blk8 m c t) (blk9 m c t) (blk10 m c t) (blk11 m c t) (blk12 m c t) (blk13 m c t) (blk14 m c t) (blk15 m c t) (blk16 m c t) (blk17 m c t) (blk18 m c t) (blk19 m c t) (blk20 m c t) (blk21 m c t) (blk22 m c t) (blk23 m c t) (blk24 m c t) (blk25 m c t) (ix3 p a j)
    = G m c (((cfg0.win 26).blk t).view.emb (ix3 p a j))
  refine (Cert.KernelIdeal.RowValue.out_apply (blk0 m c t) (blk1 m c t) (blk2 m c t) (blk3 m c t) (blk4 m c t) (blk5 m c t) (blk6 m c t) (blk7 m c t) (blk8 m c t) (blk9 m c t) (blk10 m c t) (blk11 m c t) (blk12 m c t) (blk13 m c t) (blk14 m c t) (blk15 m c t) (blk16 m c t) (blk17 m c t) (blk18 m c t) (blk19 m c t) (blk20 m c t) (blk21 m c t) (blk22 m c t) (blk23 m c t) (blk24 m c t) (blk25 m c t) p a j).trans ?_
  rw [blk2_eq m c t, blk3_eq m c t, blk4_eq m c t, blk5_eq m c t, blk6_eq m c t, blk7_eq m c t, blk8_eq m c t, blk9_eq m c t, blk10_eq m c t, blk11_eq m c t, blk12_eq m c t, blk13_eq m c t, blk14_eq m c t, blk15_eq m c t, blk16_eq m c t, blk17_eq m c t, blk18_eq m c t, blk19_eq m c t, blk20_eq m c t, blk21_eq m c t, blk22_eq m c t, blk23_eq m c t, blk24_eq m c t, blk25_eq m c t]
  obtain ⟨e0, e1, e2, -, -, -, -⟩ := idx_io t
  have hi0 : ((cfg0.win 26).blk t).view.emb (ix3 p a j) (0 : Fin 3) = (⟨t.val * 1024 + p.val, by have := t_lt t; omega⟩ : Fin 65536) :=
    Fin.ext (by show win0_26.index t (0 : Fin 3) * 1024 + 1 * p.val = t.val * 1024 + p.val; rw [e0]; omega)
  have hi1 : ((cfg0.win 26).blk t).view.emb (ix3 p a j) (1 : Fin 3) = a :=
    Fin.ext (by show win0_26.index t (1 : Fin 3) * 64 + 1 * a.val = a.val; rw [e1]; omega)
  have hi2 : ((cfg0.win 26).blk t).view.emb (ix3 p a j) (2 : Fin 3) = j :=
    Fin.ext (by show win0_26.index t (2 : Fin 3) * 2 + 1 * j.val = j.val; rw [e2]; omega)
  have hr0 : row (blk0 m c t) p = row (V m c main_arg0) (⟨t.val * 1024 + p.val, by have := t_lt t; omega⟩ : Fin 65536) :=
    funext fun q => blk0_apply m c t p q
  have hr1 : row (blk1 m c t) p = row (V m c main_arg1) (⟨t.val * 1024 + p.val, by have := t_lt t; omega⟩ : Fin 65536) :=
    funext fun q => blk1_apply m c t p q
  rw [hr0, hr1]
  unfold G result
  dsimp only
  rw [hi0, hi1, hi2]

/-- The 64 blocks tile the result array: row i₀ lies in block i₀ / 1024. -/
theorem cover (c : Dev nD) (i : S65536x64x2.Idx) :
    ∃ t : Fin cfg0.N, (cfg0.win 26).flush t = true ∧ i ∈ ((cfg0.win 26).blk t).view.set := by
  have h0 : (i 0).val < 65536 := (i 0).isLt
  have h1 : (i 1).val < 64 := (i 1).isLt
  have h2 : (i 2).val < 2 := (i 2).isLt
  let t : Fin cfg0.N := ⟨(i 0).val / 1024, by rw [show cfg0.N = 64 from N_0]; omega⟩
  have htv : t.val = (i 0).val / 1024 := rfl
  refine ⟨t, flush0_26 t, ?_⟩
  obtain ⟨e0, e1, e2, -, -, -, -⟩ := idx_io t
  show i ∈ ((View.whole main_v0).slice (win0_26.rect t)).set
  rw [View.set_slice_whole, Rect.mem_set_unit]
  intro a
  match a with
  | ⟨0, _⟩ => show win0_26.index t (0 : Fin 3) * 1024 ≤ (i 0).val ∧ (i 0).val < win0_26.index t (0 : Fin 3) * 1024 + 1024; rw [e0, htv]; omega
  | ⟨1, _⟩ => show win0_26.index t (1 : Fin 3) * 64 ≤ (i 1).val ∧ (i 1).val < win0_26.index t (1 : Fin 3) * 64 + 64; rw [e1]; omega
  | ⟨2, _⟩ => show win0_26.index t (2 : Fin 3) * 2 ≤ (i 2).val ∧ (i 2).val < win0_26.index t (2 : Fin 3) * 2 + 2; rw [e2]; omega

/-- THE ARRAY after the run is `G`. -/
theorem final (c : Dev nD) : (dats m 0 c).arrAt 26 cfg0.N = G m c :=
  (dats m 0 c).arrAt_eq_of_cover 26 (G m c) (fun t _ => flushed_eq m c t) (cover c)

/-- The kernel's run, read: the result array ends at the specification's `result` of the argument arrays, the arguments
    unchanged. -/
theorem run : θ_run defs (onTc (τ := τ) (main (F := Ideal))) ⟨m, fun _ => 0, ρ⟩ fun r => ∀ c : Dev nD,
      r.2.mem ((c : Thread nD τ).loc main_v0)
        = result (m ((c : Thread nD τ).loc main_arg0)) (m ((c : Thread nD τ).loc main_arg1)) (Weights.of (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20)
      ∧ r.2.mem ((c : Thread nD τ).loc main_arg21) = m ((c : Thread nD τ).loc main_arg21)
      ∧ r.2.mem ((c : Thread nD τ).loc main_arg22) = m ((c : Thread nD τ).loc main_arg22)
      ∧ r.2.mem ((c : Thread nD τ).loc main_arg23) = m ((c : Thread nD τ).loc main_arg23)
      ∧ r.2.mem ((c : Thread nD τ).loc main_arg24) = m ((c : Thread nD τ).loc main_arg24)
      ∧ r.2.mem ((c : Thread nD τ).loc main_arg25) = m ((c : Thread nD τ).loc main_arg25) :=
  (θ_run defs _ _).mono (fun r h c => ⟨(h c).1.trans (final m c), (h c).2⟩) (Cert.KernelIdeal.Value.run_blocks m ρ)

end Cert.KernelIdeal.BlockValue

end
-- ==== Proof.RHist.lean ====
/-
The reference's histogram stretch read at a row: the observation row without its server columns, and the normalised
  10-bin histogram of the server columns, as the row functions of the specification.
-/
import proofs.«161807_j10033043603499_1_alg».proof.Proof.RefRead
import proofs.«161807_j10033043603499_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RowValue

open Idealize.ShloMosaic Idealize.ShloMosaic.ValueIdx Cert.ReferenceIdeal Cert.ReferenceIdeal.ReadP HistCritic

theorem v3_apply (x0 : (⟨S65536x512, .f32⟩ : BufTy).Contents (Elt Ideal)) (r : Fin 65536) (c : Fin 448) :
    val_main_v3 (F := Ideal) x0 (ix2 r c) = obsRest (row x0 r) c := by
  unfold val_main_v3
  by_cases h : c.val < 68
  · have e := concatenate_pair_apply_left (t := S65536x448) (s₁ := S65536x68) (s₂ := S65536x380) 1
      (val_main_v1 (F := Ideal) x0) (val_main_v2 (F := Ideal) x0)
      Gen.concatenates_S65536x68_S65536x380_S65536x448_d1 (ix2 r c) rfl (ix2 r ⟨c.val, h⟩)
      (fun b => by match b with | ⟨0, _⟩ => rfl | ⟨1, _⟩ => rfl)
    refine e.trans ?_
    rw [val_main_v1_apply]
    unfold obsRest row
    rw [dif_pos h]
    exact congrArg x0 (funext fun a => Fin.ext (by match a with | ⟨0, _⟩ => rfl | ⟨1, _⟩ => rfl))
  · have h' : c.val - 68 < 380 := by have := c.isLt; omega
    have e := concatenate_pair_apply_right (t := S65536x448) (s₁ := S65536x68) (s₂ := S65536x380) 1
      (val_main_v1 (F := Ideal) x0) (val_main_v2 (F := Ideal) x0)
      Gen.concatenates_S65536x68_S65536x380_S65536x448_d1 (ix2 r c) rfl rfl (ix2 r ⟨c.val - 68, h'⟩)
      (fun b hb => by match b with | ⟨0, _⟩ => rfl | ⟨1, _⟩ => exact absurd rfl hb)
      (by show c.val - 68 + 68 = c.val; omega)
    refine e.trans ?_
    rw [val_main_v2_apply]
    unfold obsRest row
    rw [dif_neg h]
    exact congrArg x0 (funext fun a => Fin.ext (by
      match a with
      | ⟨0, _⟩ => rfl
      | ⟨1, _⟩ => show 132 + (c.val - 68) = c.val + 64; omega))

/-- The server slice at row `r`, column `k` is the `k`-th workload of the row. -/
private theorem v0_at (x0 : (⟨S65536x512, .f32⟩ : BufTy).Contents (Elt Ideal)) (r : Fin 65536) (k : Fin 64) :
    val_main_v0 (F := Ideal) x0 (ix2 r k) = servers (row x0 r) k := by
  rw [val_main_v0_apply]
  unfold servers row
  exact congrArg x0 (funext fun a => Fin.ext (by match a with | ⟨0, _⟩ => rfl | ⟨1, _⟩ => rfl))

/-- The clipped bin index of a workload. -/
private theorem v8_at (x0 : (⟨S65536x512, .f32⟩ : BufTy).Contents (Elt Ideal)) (r : Fin 65536) (k : Fin 64) :
    val_main_v8 (F := Ideal) x0 (ix2 r k) = binIdx (servers (row x0 r) k) := by
  simp only [val_main_v8_apply, val_main_call0_v4_apply, val_main_call0_v3_apply, val_main_c_0_apply,
    val_main_call0_v2_apply, val_main_call0_v1_apply, val_main_call0_v0_apply, val_main_c_apply,
    val_main_v7_apply, val_main_v6_apply, val_main_v5_apply, val_main_v4_apply, val_main_cst_apply, v0_at]
  rfl

/-- The validity bit of a workload, as a number. -/
private theorem v14_at (x0 : (⟨S65536x512, .f32⟩ : BufTy).Contents (Elt Ideal)) (r : Fin 65536) (k : Fin 64) :
    val_main_v14 (F := Ideal) x0 (ix2 r k) = bitVal (validBit (servers (row x0 r) k)) := by
  simp only [val_main_v14_apply, val_main_v13_apply, val_main_v10_apply, val_main_v12_apply,
    val_main_v9_apply, val_main_v11_apply, val_main_cst_1_apply, val_main_cst_2_apply, v0_at]
  rfl

/-- One term of a bin's count: the one-hot bit of the workload's bin times its validity bit. -/
private theorem v18_at (x0 : (⟨S65536x512, .f32⟩ : BufTy).Contents (Elt Ideal)) (r : Fin 65536) (k : Fin 64) (b : Fin 10) :
    val_main_v18 (F := Ideal) x0 (ix3 r k b)
      = bitVal (IntOp.cmpi .eq (binIdx (servers (row x0 r) k)) (BitVec.ofNat 32 b.val))
        * bitVal (validBit (servers (row x0 r) k)) := by
  have e1 : idx_main_call1_v0 (idx_main_call1_v2 (ix3 r k b)) = ix2 r k :=
    funext fun a => Fin.ext (by match a with | ⟨0, _⟩ => rfl | ⟨1, _⟩ => rfl)
  have e2 : idx_main_v16 (idx_main_v17 (ix3 r k b)) = ix2 r k :=
    funext fun a => Fin.ext (by match a with | ⟨0, _⟩ => rfl | ⟨1, _⟩ => rfl)
  rw [val_main_v18_apply, val_main_v15_apply, val_main_call1_v4_apply, val_main_call1_v2_apply,
    val_main_call1_v0_apply, e1, v8_at, val_main_call1_v3_apply, val_main_call1_v1_apply,
    val_main_v17_apply, val_main_v16_apply, e2, v14_at]
  rfl

/-- A bin's count. -/
private theorem v19_at (x0 : (⟨S65536x512, .f32⟩ : BufTy).Contents (Elt Ideal)) (r : Fin 65536) (b : Fin 10) :
    val_main_v19 (F := Ideal) x0 (ix2 r b) = binCount (servers (row x0 r)) (BitVec.ofNat 32 b.val) := by
  rw [val_main_v19_apply]
  have e0 : (val_main_cst_3 (F := Ideal)) (Shape.Idx.first Gen.h_S_) = 0 := Ideal.ofBits_zero_f32
  rw [e0, zero_add]
  unfold binCount
  refine Finset.sum_congr rfl fun k _ => ?_
  have e : idx_main_v19 (ix2 r b) k = ix3 r k b :=
    funext fun a => Fin.ext (by match a with | ⟨0, _⟩ => rfl | ⟨1, _⟩ => rfl | ⟨2, _⟩ => rfl)
  rw [e, v18_at]

/-- The normaliser: the total of the ten counts plus the small literal. -/
private theorem v24_at (x0 : (⟨S65536x512, .f32⟩ : BufTy).Contents (Elt Ideal)) (r : Fin 65536) (b : Fin 10) :
    val_main_v24 (F := Ideal) x0 (ix2 r b)
      = (∑ b' : Fin 10, binCount (servers (row x0 r)) (BitVec.ofNat 32 b'.val)) + Ideal.ofBits .f32 0x322BCC77#32 := by
  rw [val_main_v24_apply, val_main_v23_apply, val_main_v21_apply, val_main_v20_apply, val_main_v22_apply]
  have e0 : (val_main_cst_4 (F := Ideal)) (Shape.Idx.first Gen.h_S_) = 0 := Ideal.ofBits_zero_f32
  rw [e0, zero_add]
  refine congrArg (· + Ideal.ofBits .f32 0x322BCC77#32) (Finset.sum_congr rfl fun k _ => ?_)
  have e : idx_main_v20 (idx_main_v21 (idx_main_v24 (ix2 r b))) k = ix2 r k :=
    funext fun a => Fin.ext (by match a with | ⟨0, _⟩ => rfl | ⟨1, _⟩ => rfl)
  rw [e, v19_at]

theorem v25_apply (x0 : (⟨S65536x512, .f32⟩ : BufTy).Contents (Elt Ideal)) (r : Fin 65536) (b : Fin 10) :
    val_main_v25 (F := Ideal) x0 (ix2 r b) = hist (servers (row x0 r)) b := by
  rw [val_main_v25_apply, v19_at, v24_at]
  rfl

end Cert.ReferenceIdeal.RowValue

end
-- ==== Proof.REnc.lean ====
/-
The reference's encoders read at a row: the histogram through its two dense + ReLU + layer-norm layers, the preference
  row through its one, and the three-way join that feeds the trunk.
-/
import proofs.«161807_j10033043603499_1_alg».proof.Proof.RefRead
import proofs.«161807_j10033043603499_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RowValue

open Idealize.ShloMosaic Idealize.ShloMosaic.ValueIdx Cert.ReferenceIdeal Cert.ReferenceIdeal.ReadP HistCritic

/-! ### The composed index maps of the first histogram layer at a row and a column -/

private theorem ix_v28 (r : Fin 65536) (j : Fin 128) : idx_main_v28 (ix2 r j) = ix2 (0 : Fin 1) j := funext fun a => Fin.ext (by match a with | ⟨0, _⟩ => rfl | ⟨1, _⟩ => rfl)
private theorem ix_v50 (r : Fin 65536) (j : Fin 128) : idx_main_v50 (ix2 r j) = ix2 (0 : Fin 1) j := funext fun a => Fin.ext (by match a with | ⟨0, _⟩ => rfl | ⟨1, _⟩ => rfl)
private theorem ix_v53 (r : Fin 65536) (j : Fin 128) : idx_main_v53 (ix2 r j) = ix2 (0 : Fin 1) j := funext fun a => Fin.ext (by match a with | ⟨0, _⟩ => rfl | ⟨1, _⟩ => rfl)
private theorem ix_v27 (c : Fin 1) (j : Fin 128) : idx_main_v27 (ix2 c j) = ix1 j := funext fun a => Fin.ext (by match a with | ⟨0, _⟩ => rfl)
private theorem ix_v49 (c : Fin 1) (j : Fin 128) : idx_main_v49 (ix2 c j) = ix1 j := funext fun a => Fin.ext (by match a with | ⟨0, _⟩ => rfl)
private theorem ix_v52 (c : Fin 1) (j : Fin 128) : idx_main_v52 (ix2 c j) = ix1 j := funext fun a => Fin.ext (by match a with | ⟨0, _⟩ => rfl)
private theorem ix_v35 (r : Fin 65536) (j : Fin 128) : idx_main_v35 (ix2 r j) = ix2 r (0 : Fin 1) := funext fun a => Fin.ext (by match a with | ⟨0, _⟩ => rfl | ⟨1, _⟩ => rfl)
private theorem ix_v42 (r : Fin 65536) (j : Fin 128) : idx_main_v42 (ix2 r j) = ix2 r (0 : Fin 1) := funext fun a => Fin.ext (by match a with | ⟨0, _⟩ => rfl | ⟨1, _⟩ => rfl)
private theorem ix_v47 (r : Fin 65536) (j : Fin 128) : idx_main_v47 (ix2 r j) = ix2 r (0 : Fin 1) := funext fun a => Fin.ext (by match a with | ⟨0, _⟩ => rfl | ⟨1, _⟩ => rfl)
private theorem ix_v32 (r : Fin 65536) (c : Fin 1) : idx_main_v32 (ix2 r c) = ix1 r := funext fun a => Fin.ext (by match a with | ⟨0, _⟩ => rfl)
private theorem ix_v39 (r : Fin 65536) (c : Fin 1) : idx_main_v39 (ix2 r c) = ix1 r := funext fun a => Fin.ext (by match a with | ⟨0, _⟩ => rfl)
private theorem ix_v31 (r : Fin 65536) (k : Fin 128) : idx_main_v31 (ix1 r) k = ix2 r k := funext fun a => Fin.ext (by match a with | ⟨0, _⟩ => rfl | ⟨1, _⟩ => rfl)
private theorem ix_v38 (r : Fin 65536) (k : Fin 128) : idx_main_v38 (ix1 r) k = ix2 r k := funext fun a => Fin.ext (by match a with | ⟨0, _⟩ => rfl | ⟨1, _⟩ => rfl)
private theorem lix_v26 (r : Fin 65536) (j : Fin 128) (k : Fin 10) : lidx_main_v26 (ix2 r j) k = ix2 r k := funext fun a => Fin.ext (by match a with | ⟨0, _⟩ => rfl | ⟨1, _⟩ => rfl)
private theorem rix_v26 (r : Fin 65536) (j : Fin 128) (k : Fin 10) : ridx_main_v26 (ix2 r j) k = ix2 k j := funext fun a => Fin.ext (by match a with | ⟨0, _⟩ => rfl | ⟨1, _⟩ => rfl)

/-- The first histogram layer at row `r`, column `j`: dense (10 → 128), ReLU, layer norm of the normalised histogram's
    row. Every operation is read at its index; the two row sums start from the zero literal, which is `0`. -/
theorem v54_apply (x0 : (⟨S65536x512, .f32⟩ : BufTy).Contents (Elt Ideal)) (x2 : (⟨S10x128, .f32⟩ : BufTy).Contents (Elt Ideal)) (x3 x4 x5 : (⟨S128, .f32⟩ : BufTy).Contents (Elt Ideal)) (r : Fin 65536) (j : Fin 128) :
    val_main_v54 (F := Ideal) x0 x2 x3 x4 x5 (ix2 r j)
      = block c128 (fun b => val_main_v25 (F := Ideal) x0 (ix2 r b)) (mat x2) (vec x3) (vec x4) (vec x5) j := by
  simp only [val_main_v54_apply, val_main_v53_apply, val_main_v52_apply, val_main_v51_apply, val_main_v50_apply, val_main_v49_apply, val_main_v48_apply, val_main_v47_apply, val_main_v46_apply, val_main_v45_apply, val_main_v44_apply, val_main_cst_10_apply, val_main_v43_apply, val_main_v42_apply, val_main_v41_apply, val_main_v40_apply, val_main_cst_9_apply, val_main_v39_apply, val_main_v38_apply, val_main_cst_8_apply, val_main_v37_apply, val_main_v36_apply, val_main_v35_apply, val_main_v34_apply, val_main_v33_apply, val_main_cst_7_apply, val_main_v32_apply, val_main_v31_apply, val_main_cst_6_apply, val_main_v30_apply, val_main_call2_v0_apply, val_main_call2_cst_apply, val_main_v29_apply, val_main_v28_apply, val_main_v27_apply, val_main_v26_apply]
  simp only [ix_v28, ix_v50, ix_v53, ix_v27, ix_v49, ix_v52, ix_v35, ix_v42, ix_v47, ix_v32, ix_v39, ix_v31, ix_v38, lix_v26, rix_v26]
  simp only [block, layerNorm, relu, dense, rowMean, row, mat, vec, c128, Ideal.ofBits_def, Ideal.addf_def, Ideal.subf_def, Ideal.mulf_def, Ideal.maximumf_def, Ideal.hostDivf_def, Ideal.hostUnary_rsqrt_def, Ideal.ofBits_zero_f32, zero_add]

/-! ### The composed index maps of the second histogram layer -/

private theorem ix_v57 (r : Fin 65536) (j : Fin 128) : idx_main_v57 (ix2 r j) = ix2 (0 : Fin 1) j := funext fun a => Fin.ext (by match a with | ⟨0, _⟩ => rfl | ⟨1, _⟩ => rfl)
private theorem ix_v79 (r : Fin 65536) (j : Fin 128) : idx_main_v79 (ix2 r j) = ix2 (0 : Fin 1) j := funext fun a => Fin.ext (by match a with | ⟨0, _⟩ => rfl | ⟨1, _⟩ => rfl)
private theorem ix_v82 (r : Fin 65536) (j : Fin 128) : idx_main_v82 (ix2 r j) = ix2 (0 : Fin 1) j := funext fun a => Fin.ext (by match a with | ⟨0, _⟩ => rfl | ⟨1, _⟩ => rfl)
private theorem ix_v56 (c : Fin 1) (j : Fin 128) : idx_main_v56 (ix2 c j) = ix1 j := funext fun a => Fin.ext (by match a with | ⟨0, _⟩ => rfl)
private theorem ix_v78 (c : Fin 1) (j : Fin 128) : idx_main_v78 (ix2 c j) = ix1 j := funext fun a => Fin.ext (by match a with | ⟨0, _⟩ => rfl)
private theorem ix_v81 (c : Fin 1) (j : Fin 128) : idx_main_v81 (ix2 c j) = ix1 j := funext fun a => Fin.ext (by match a with | ⟨0, _⟩ => rfl)
private theorem ix_v64 (r : Fin 65536) (j : Fin 128) : idx_main_v64 (ix2 r j) = ix2 r (0 : Fin 1) := funext fun a => Fin.ext (by match a with | ⟨0, _⟩ => rfl | ⟨1, _⟩ => rfl)
private theorem ix_v71 (r : Fin 65536) (j : Fin 128) : idx_main_v71 (ix2 r j) = ix2 r (0 : Fin 1) := funext fun a => Fin.ext (by match a with | ⟨0, _⟩ => rfl | ⟨1, _⟩ => rfl)
private theorem ix_v76 (r : Fin 65536) (j : Fin 128) : idx_main_v76 (ix2 r j) = ix2 r (0 : Fin 1) := funext fun a => Fin.ext (by match a with | ⟨0, _⟩ => rfl | ⟨1, _⟩ => rfl)
private theorem ix_v61 (r : Fin 65536) (c : Fin 1) : idx_main_v61 (ix2 r c) = ix1 r := funext fun a => Fin.ext (by match a with | ⟨0, _⟩ => rfl)
private theorem ix_v68 (r : Fin 65536) (c : Fin 1) : idx_main_v68 (ix2 r c) = ix1 r := funext fun a => Fin.ext (by match a with | ⟨0, _⟩ => rfl)
private theorem ix_v60 (r : Fin 65536) (k : Fin 128) : idx_main_v60 (ix1 r) k = ix2 r k := funext fun a => Fin.ext (by match a with | ⟨0, _⟩ => rfl | ⟨1, _⟩ => rfl)
private theorem ix_v67 (r : Fin 65536) (k : Fin 128) : idx_main_v67 (ix1 r) k = ix2 r k := funext fun a => Fin.ext (by match a with | ⟨0, _⟩ => rfl | ⟨1, _⟩ => rfl)
private theorem lix_v55 (r : Fin 65536) (j : Fin 128) (k : Fin 128) : lidx_main_v55 (ix2 r j) k = ix2 r k := funext fun a => Fin.ext (by match a with | ⟨0, _⟩ => rfl | ⟨1, _⟩ => rfl)
private theorem rix_v55 (r : Fin 65536) (j : Fin 128) (k : Fin 128) : ridx_main_v55 (ix2 r j) k = ix2 k j := funext fun a => Fin.ext (by match a with | ⟨0, _⟩ => rfl | ⟨1, _⟩ => rfl)

/-- The second histogram layer at row `r`, column `j`: dense (128 → 128), ReLU, layer norm of the first layer's row. -/
theorem v83_apply (x0 : (⟨S65536x512, .f32⟩ : BufTy).Contents (Elt Ideal)) (x2 : (⟨S10x128, .f32⟩ : BufTy).Contents (Elt Ideal)) (x3 x4 x5 : (⟨S128, .f32⟩ : BufTy).Contents (Elt Ideal)) (x6 : (⟨S128x128, .f32⟩ : BufTy).Contents (Elt Ideal)) (x7 x8 x9 : (⟨S128, .f32⟩ : BufTy).Contents (Elt Ideal)) (r : Fin 65536) (j : Fin 128) :
    val_main_v83 (F := Ideal) x0 x2 x3 x4 x5 x6 x7 x8 x9 (ix2 r j)
      = block c128 (fun k => val_main_v54 (F := Ideal) x0 x2 x3 x4 x5 (ix2 r k)) (mat x6) (vec x7) (vec x8) (vec x9) j := by
  simp only [val_main_v83_apply, val_main_v82_apply, val_main_v81_apply, val_main_v80_apply, val_main_v79_apply, val_main_v78_apply, val_main_v77_apply, val_main_v76_apply, val_main_v75_apply, val_main_v74_apply, val_main_v73_apply, val_main_cst_15_apply, val_main_v72_apply, val_main_v71_apply, val_main_v70_apply, val_main_v69_apply, val_main_cst_14_apply, val_main_v68_apply, val_main_v67_apply, val_main_cst_13_apply, val_main_v66_apply, val_main_v65_apply, val_main_v64_apply, val_main_v63_apply, val_main_v62_apply, val_main_cst_12_apply, val_main_v61_apply, val_main_v60_apply, val_main_cst_11_apply, val_main_v59_apply, val_main_call3_v0_apply, val_main_call3_cst_apply, val_main_v58_apply, val_main_v57_apply, val_main_v56_apply, val_main_v55_apply]
  simp only [ix_v57, ix_v79, ix_v82, ix_v56, ix_v78, ix_v81, ix_v64, ix_v71, ix_v76, ix_v61, ix_v68, ix_v60, ix_v67, lix_v55, rix_v55]
  simp only [block, layerNorm, relu, dense, rowMean, row, mat, vec, c128, Ideal.ofBits_def, Ideal.addf_def, Ideal.subf_def, Ideal.mulf_def, Ideal.maximumf_def, Ideal.hostDivf_def, Ideal.hostUnary_rsqrt_def, Ideal.ofBits_zero_f32, zero_add]

/-! ### The composed index maps of the preference layer -/

private theorem ix_v86 (r : Fin 65536) (j : Fin 64) : idx_main_v86 (ix2 r j) = ix2 (0 : Fin 1) j := funext fun a => Fin.ext (by match a with | ⟨0, _⟩ => rfl | ⟨1, _⟩ => rfl)
private theorem ix_v108 (r : Fin 65536) (j : Fin 64) : idx_main_v108 (ix2 r j) = ix2 (0 : Fin 1) j := funext fun a => Fin.ext (by match a with | ⟨0, _⟩ => rfl | ⟨1, _⟩ => rfl)
private theorem ix_v111 (r : Fin 65536) (j : Fin 64) : idx_main_v111 (ix2 r j) = ix2 (0 : Fin 1) j := funext fun a => Fin.ext (by match a with | ⟨0, _⟩ => rfl | ⟨1, _⟩ => rfl)
private theorem ix_v85 (c : Fin 1) (j : Fin 64) : idx_main_v85 (ix2 c j) = ix1 j := funext fun a => Fin.ext (by match a with | ⟨0, _⟩ => rfl)
private theorem ix_v107 (c : Fin 1) (j : Fin 64) : idx_main_v107 (ix2 c j) = ix1 j := funext fun a => Fin.ext (by match a with | ⟨0, _⟩ => rfl)
private theorem ix_v110 (c : Fin 1) (j : Fin 64) : idx_main_v110 (ix2 c j) = ix1 j := funext fun a => Fin.ext (by match a with | ⟨0, _⟩ => rfl)
private theorem ix_v93 (r : Fin 65536) (j : Fin 64) : idx_main_v93 (ix2 r j) = ix2 r (0 : Fin 1) := funext fun a => Fin.ext (by match a with | ⟨0, _⟩ => rfl | ⟨1, _⟩ => rfl)
private theorem ix_v100 (r : Fin 65536) (j : Fin 64) : idx_main_v100 (ix2 r j) = ix2 r (0 : Fin 1) := funext fun a => Fin.ext (by match a with | ⟨0, _⟩ => rfl | ⟨1, _⟩ => rfl)
private theorem ix_v105 (r : Fin 65536) (j : Fin 64) : idx_main_v105 (ix2 r j) = ix2 r (0 : Fin 1) := funext fun a => Fin.ext (by match a with | ⟨0, _⟩ => rfl | ⟨1, _⟩ => rfl)
private theorem ix_v90 (r : Fin 65536) (c : Fin 1) : idx_main_v90 (ix2 r c) = ix1 r := funext fun a => Fin.ext (by match a with | ⟨0, _⟩ => rfl)
private theorem ix_v97 (r : Fin 65536) (c : Fin 1) : idx_main_v97 (ix2 r c) = ix1 r := funext fun a => Fin.ext (by match a with | ⟨0, _⟩ => rfl)
private theorem ix_v89 (r : Fin 65536) (k : Fin 64) : idx_main_v89 (ix1 r) k = ix2 r k := funext fun a => Fin.ext (by match a with | ⟨0, _⟩ => rfl | ⟨1, _⟩ => rfl)
private theorem ix_v96 (r : Fin 65536) (k : Fin 64) : idx_main_v96 (ix1 r) k = ix2 r k := funext fun a => Fin.ext (by match a with | ⟨0, _⟩ => rfl | ⟨1, _⟩ => rfl)
private theorem lix_v84 (r : Fin 65536) (j : Fin 64) (k : Fin 2) : lidx_main_v84 (ix2 r j) k = ix2 r k := funext fun a => Fin.ext (by match a with | ⟨0, _⟩ => rfl | ⟨1, _⟩ => rfl)
private theorem rix_v84 (r : Fin 65536) (j : Fin 64) (k : Fin 2) : ridx_main_v84 (ix2 r j) k = ix2 k j := funext fun a => Fin.ext (by match a with | ⟨0, _⟩ => rfl | ⟨1, _⟩ => rfl)

/-- The preference layer at row `r`, column `j`: dense (2 → 64), ReLU, layer norm of the preference row. -/
theorem v112_apply (x1 : (⟨S65536x2, .f32⟩ : BufTy).Contents (Elt Ideal)) (x10 : (⟨S2x64, .f32⟩ : BufTy).Contents (Elt Ideal)) (x11 x12 x13 : (⟨S64, .f32⟩ : BufTy).Contents (Elt Ideal)) (r : Fin 65536) (j : Fin 64) :
    val_main_v112 (F := Ideal) x1 x10 x11 x12 x13 (ix2 r j) = block c64 (row x1 r) (mat x10) (vec x11) (vec x12) (vec x13) j := by
  simp only [val_main_v112_apply, val_main_v111_apply, val_main_v110_apply, val_main_v109_apply, val_main_v108_apply, val_main_v107_apply, val_main_v106_apply, val_main_v105_apply, val_main_v104_apply, val_main_v103_apply, val_main_v102_apply, val_main_cst_20_apply, val_main_v101_apply, val_main_v100_apply, val_main_v99_apply, val_main_v98_apply, val_main_cst_19_apply, val_main_v97_apply, val_main_v96_apply, val_main_cst_18_apply, val_main_v95_apply, val_main_v94_apply, val_main_v93_apply, val_main_v92_apply, val_main_v91_apply, val_main_cst_17_apply, val_main_v90_apply, val_main_v89_apply, val_main_cst_16_apply, val_main_v88_apply, val_main_call4_v0_apply, val_main_call4_cst_apply, val_main_v87_apply, val_main_v86_apply, val_main_v85_apply, val_main_v84_apply]
  simp only [ix_v86, ix_v108, ix_v111, ix_v85, ix_v107, ix_v110, ix_v93, ix_v100, ix_v105, ix_v90, ix_v97, ix_v89, ix_v96, lix_v84, rix_v84]
  simp only [block, layerNorm, relu, dense, rowMean, row, mat, vec, c64, Ideal.ofBits_def, Ideal.addf_def, Ideal.subf_def, Ideal.mulf_def, Ideal.maximumf_def, Ideal.hostDivf_def, Ideal.hostUnary_rsqrt_def, Ideal.ofBits_zero_f32, zero_add]

/-- The join at row `r`, column `k`: the column falls in the first piece (`k < 448`), the second (`448 ≤ k < 576`) or the
    third (`576 ≤ k`), and the join reads that piece at the column less the widths before it. -/
theorem v113_apply (x0 : (⟨S65536x512, .f32⟩ : BufTy).Contents (Elt Ideal)) (x1 : (⟨S65536x2, .f32⟩ : BufTy).Contents (Elt Ideal)) (x2 : (⟨S10x128, .f32⟩ : BufTy).Contents (Elt Ideal)) (x3 x4 x5 : (⟨S128, .f32⟩ : BufTy).Contents (Elt Ideal)) (x6 : (⟨S128x128, .f32⟩ : BufTy).Contents (Elt Ideal)) (x7 x8 x9 : (⟨S128, .f32⟩ : BufTy).Contents (Elt Ideal)) (x10 : (⟨S2x64, .f32⟩ : BufTy).Contents (Elt Ideal)) (x11 x12 x13 : (⟨S64, .f32⟩ : BufTy).Contents (Elt Ideal)) (r : Fin 65536) (k : Fin 640) :
    val_main_v113 (F := Ideal) x0 x1 x2 x3 x4 x5 x6 x7 x8 x9 x10 x11 x12 x13 (ix2 r k)
      = join3 (fun c => val_main_v3 (F := Ideal) x0 (ix2 r c)) (fun c => val_main_v83 (F := Ideal) x0 x2 x3 x4 x5 x6 x7 x8 x9 (ix2 r c)) (fun c => val_main_v112 (F := Ideal) x1 x10 x11 x12 x13 (ix2 r c)) k := by
  unfold val_main_v113 join3
  generalize val_main_v3 (F := Ideal) x0 = y0
  generalize val_main_v83 (F := Ideal) x0 x2 x3 x4 x5 x6 x7 x8 x9 = y1
  generalize val_main_v112 (F := Ideal) x1 x10 x11 x12 x13 = y2
  have hk := k.isLt
  by_cases h : k.val < 448
  · rw [dif_pos h]
    exact concatenate_apply_piece (1 : Fin 2) _ _ (ix2 r k)
      0 (by show (0 : Nat) < 3; omega) S65536x448 y0 rfl rfl 0 rfl (ix2 r ⟨k.val, h⟩)
      (fun b => match b with | ⟨0, _⟩ => fun _ => rfl | ⟨1, _⟩ => fun hb => absurd rfl hb)
      (by show 0 + k.val = k.val; omega)
  · rw [dif_neg h]
    by_cases h' : k.val < 576
    · rw [dif_pos h']
      exact concatenate_apply_piece (1 : Fin 2) _ _ (ix2 r k)
        1 (by show (1 : Nat) < 3; omega) S65536x128 y1 rfl rfl 448 rfl (ix2 r ⟨k.val - 448, by omega⟩)
        (fun b => match b with | ⟨0, _⟩ => fun _ => rfl | ⟨1, _⟩ => fun hb => absurd rfl hb)
        (by show 448 + (k.val - 448) = k.val; omega)
    · rw [dif_neg h']
      exact concatenate_apply_piece (1 : Fin 2) _ _ (ix2 r k)
        2 (by show (2 : Nat) < 3; omega) S65536x64 y2 rfl rfl 576 rfl (ix2 r ⟨k.val - 576, by omega⟩)
        (fun b => match b with | ⟨0, _⟩ => fun _ => rfl | ⟨1, _⟩ => fun hb => absurd rfl hb)
        (by show 576 + (k.val - 576) = k.val; omega)

end Cert.ReferenceIdeal.RowValue

end
-- ==== Proof.RTrunk.lean ====
/-
The reference's shared trunk read at a row: the joined row through two dense + ReLU + layer-norm layers, then the two
  linear heads stacked on the last axis.
-/
import proofs.«161807_j10033043603499_1_alg».proof.Proof.RefRead
import proofs.«161807_j10033043603499_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RowValue

open Idealize.ShloMosaic Idealize.ShloMosaic.ValueIdx Cert.ReferenceIdeal Cert.ReferenceIdeal.ReadP HistCritic

/-! First trunk layer (640 → 256): the composed index maps of its stages, read at a row and a column, are the
    plain coordinates. -/
private theorem lidx_v114_ix (r : Fin 65536) (j : Fin 256) (k : Fin 640) : lidx_main_v114 (ix2 r j) k = ix2 r k := funext fun a => Fin.ext (by match a with | ⟨0, _⟩ => rfl | ⟨1, _⟩ => rfl)
private theorem ridx_v114_ix (r : Fin 65536) (j : Fin 256) (k : Fin 640) : ridx_main_v114 (ix2 r j) k = ix2 k j := funext fun a => Fin.ext (by match a with | ⟨0, _⟩ => rfl | ⟨1, _⟩ => rfl)
private theorem idx_v116_ix (r : Fin 65536) (j : Fin 256) : idx_main_v116 (ix2 r j) = ix2 (0 : Fin 1) j := funext fun a => Fin.ext (by match a with | ⟨0, _⟩ => rfl | ⟨1, _⟩ => rfl)
private theorem idx_v115_ix (c : Fin 1) (j : Fin 256) : idx_main_v115 (ix2 c j) = ix1 j := funext fun a => Fin.ext (by match a with | ⟨0, _⟩ => rfl)
private theorem idx_v138_ix (r : Fin 65536) (j : Fin 256) : idx_main_v138 (ix2 r j) = ix2 (0 : Fin 1) j := funext fun a => Fin.ext (by match a with | ⟨0, _⟩ => rfl | ⟨1, _⟩ => rfl)
private theorem idx_v137_ix (c : Fin 1) (j : Fin 256) : idx_main_v137 (ix2 c j) = ix1 j := funext fun a => Fin.ext (by match a with | ⟨0, _⟩ => rfl)
private theorem idx_v141_ix (r : Fin 65536) (j : Fin 256) : idx_main_v141 (ix2 r j) = ix2 (0 : Fin 1) j := funext fun a => Fin.ext (by match a with | ⟨0, _⟩ => rfl | ⟨1, _⟩ => rfl)
private theorem idx_v140_ix (c : Fin 1) (j : Fin 256) : idx_main_v140 (ix2 c j) = ix1 j := funext fun a => Fin.ext (by match a with | ⟨0, _⟩ => rfl)
private theorem idx_v123_ix (r : Fin 65536) (j : Fin 256) : idx_main_v123 (ix2 r j) = ix2 r (0 : Fin 1) := funext fun a => Fin.ext (by match a with | ⟨0, _⟩ => rfl | ⟨1, _⟩ => rfl)
private theorem idx_v130_ix (r : Fin 65536) (j : Fin 256) : idx_main_v130 (ix2 r j) = ix2 r (0 : Fin 1) := funext fun a => Fin.ext (by match a with | ⟨0, _⟩ => rfl | ⟨1, _⟩ => rfl)
private theorem idx_v135_ix (r : Fin 65536) (j : Fin 256) : idx_main_v135 (ix2 r j) = ix2 r (0 : Fin 1) := funext fun a => Fin.ext (by match a with | ⟨0, _⟩ => rfl | ⟨1, _⟩ => rfl)
private theorem idx_v120_ix (r : Fin 65536) (c : Fin 1) : idx_main_v120 (ix2 r c) = ix1 r := funext fun a => Fin.ext (by match a with | ⟨0, _⟩ => rfl)
private theorem idx_v127_ix (r : Fin 65536) (c : Fin 1) : idx_main_v127 (ix2 r c) = ix1 r := funext fun a => Fin.ext (by match a with | ⟨0, _⟩ => rfl)
private theorem idx_v119_ix (r : Fin 65536) (k : Fin 256) : idx_main_v119 (ix1 r) k = ix2 r k := funext fun a => Fin.ext (by match a with | ⟨0, _⟩ => rfl | ⟨1, _⟩ => rfl)
private theorem idx_v126_ix (r : Fin 65536) (k : Fin 256) : idx_main_v126 (ix1 r) k = ix2 r k := funext fun a => Fin.ext (by match a with | ⟨0, _⟩ => rfl | ⟨1, _⟩ => rfl)

theorem v142_apply (x0 : (⟨S65536x512, .f32⟩ : BufTy).Contents (Elt Ideal)) (x1 : (⟨S65536x2, .f32⟩ : BufTy).Contents (Elt Ideal)) (x2 : (⟨S10x128, .f32⟩ : BufTy).Contents (Elt Ideal)) (x3 x4 x5 : (⟨S128, .f32⟩ : BufTy).Contents (Elt Ideal)) (x6 : (⟨S128x128, .f32⟩ : BufTy).Contents (Elt Ideal)) (x7 x8 x9 : (⟨S128, .f32⟩ : BufTy).Contents (Elt Ideal)) (x10 : (⟨S2x64, .f32⟩ : BufTy).Contents (Elt Ideal)) (x11 x12 x13 : (⟨S64, .f32⟩ : BufTy).Contents (Elt Ideal)) (x14 : (⟨S640x256, .f32⟩ : BufTy).Contents (Elt Ideal)) (x15 x16 x17 : (⟨S256, .f32⟩ : BufTy).Contents (Elt Ideal)) (r : Fin 65536) (j : Fin 256) :
    val_main_v142 (F := Ideal) x0 x1 x2 x3 x4 x5 x6 x7 x8 x9 x10 x11 x12 x13 x14 x15 x16 x17 (ix2 r j)
      = block c256 (fun k => val_main_v113 (F := Ideal) x0 x1 x2 x3 x4 x5 x6 x7 x8 x9 x10 x11 x12 x13 (ix2 r k)) (mat x14) (vec x15) (vec x16) (vec x17) j := by
  simp only [val_main_v142_apply, val_main_v141_apply, val_main_v140_apply, val_main_v139_apply, val_main_v138_apply, val_main_v137_apply, val_main_v136_apply, val_main_v135_apply, val_main_v134_apply, val_main_v133_apply, val_main_v132_apply, val_main_v131_apply, val_main_v130_apply, val_main_v129_apply, val_main_v128_apply, val_main_v127_apply, val_main_v126_apply, val_main_v125_apply, val_main_v124_apply, val_main_v123_apply, val_main_v122_apply, val_main_v121_apply, val_main_v120_apply, val_main_v119_apply, val_main_v118_apply, val_main_v117_apply, val_main_v116_apply, val_main_v115_apply, val_main_v114_apply, val_main_cst_25_apply, val_main_cst_24_apply, val_main_cst_23_apply, val_main_cst_22_apply, val_main_cst_21_apply, val_main_call5_v0_apply, val_main_call5_cst_apply]
  simp only [lidx_v114_ix, ridx_v114_ix, idx_v116_ix, idx_v115_ix, idx_v138_ix, idx_v137_ix, idx_v141_ix, idx_v140_ix, idx_v123_ix, idx_v130_ix, idx_v135_ix, idx_v120_ix, idx_v127_ix, idx_v119_ix, idx_v126_ix]
  simp only [block, layerNorm, relu, dense, rowMean, mat, vec, c256, Ideal.ofBits_zero_f32, zero_add, Ideal.addf_def, Ideal.subf_def, Ideal.mulf_def, Ideal.maximumf_def, Ideal.hostDivf_def, Ideal.hostUnary_rsqrt_def, Ideal.ofBits_def]

/-! Second trunk layer (256 → 256): the same chain of index maps. -/
private theorem lidx_v143_ix (r : Fin 65536) (j : Fin 256) (k : Fin 256) : lidx_main_v143 (ix2 r j) k = ix2 r k := funext fun a => Fin.ext (by match a with | ⟨0, _⟩ => rfl | ⟨1, _⟩ => rfl)
private theorem ridx_v143_ix (r : Fin 65536) (j : Fin 256) (k : Fin 256) : ridx_main_v143 (ix2 r j) k = ix2 k j := funext fun a => Fin.ext (by match a with | ⟨0, _⟩ => rfl | ⟨1, _⟩ => rfl)
private theorem idx_v145_ix (r : Fin 65536) (j : Fin 256) : idx_main_v145 (ix2 r j) = ix2 (0 : Fin 1) j := funext fun a => Fin.ext (by match a with | ⟨0, _⟩ => rfl | ⟨1, _⟩ => rfl)
private theorem idx_v144_ix (c : Fin 1) (j : Fin 256) : idx_main_v144 (ix2 c j) = ix1 j := funext fun a => Fin.ext (by match a with | ⟨0, _⟩ => rfl)
private theorem idx_v167_ix (r : Fin 65536) (j : Fin 256) : idx_main_v167 (ix2 r j) = ix2 (0 : Fin 1) j := funext fun a => Fin.ext (by match a with | ⟨0, _⟩ => rfl | ⟨1, _⟩ => rfl)
private theorem idx_v166_ix (c : Fin 1) (j : Fin 256) : idx_main_v166 (ix2 c j) = ix1 j := funext fun a => Fin.ext (by match a with | ⟨0, _⟩ => rfl)
private theorem idx_v170_ix (r : Fin 65536) (j : Fin 256) : idx_main_v170 (ix2 r j) = ix2 (0 : Fin 1) j := funext fun a => Fin.ext (by match a with | ⟨0, _⟩ => rfl | ⟨1, _⟩ => rfl)
private theorem idx_v169_ix (c : Fin 1) (j : Fin 256) : idx_main_v169 (ix2 c j) = ix1 j := funext fun a => Fin.ext (by match a with | ⟨0, _⟩ => rfl)
private theorem idx_v152_ix (r : Fin 65536) (j : Fin 256) : idx_main_v152 (ix2 r j) = ix2 r (0 : Fin 1) := funext fun a => Fin.ext (by match a with | ⟨0, _⟩ => rfl | ⟨1, _⟩ => rfl)
private theorem idx_v159_ix (r : Fin 65536) (j : Fin 256) : idx_main_v159 (ix2 r j) = ix2 r (0 : Fin 1) := funext fun a => Fin.ext (by match a with | ⟨0, _⟩ => rfl | ⟨1, _⟩ => rfl)
private theorem idx_v164_ix (r : Fin 65536) (j : Fin 256) : idx_main_v164 (ix2 r j) = ix2 r (0 : Fin 1) := funext fun a => Fin.ext (by match a with | ⟨0, _⟩ => rfl | ⟨1, _⟩ => rfl)
private theorem idx_v149_ix (r : Fin 65536) (c : Fin 1) : idx_main_v149 (ix2 r c) = ix1 r := funext fun a => Fin.ext (by match a with | ⟨0, _⟩ => rfl)
private theorem idx_v156_ix (r : Fin 65536) (c : Fin 1) : idx_main_v156 (ix2 r c) = ix1 r := funext fun a => Fin.ext (by match a with | ⟨0, _⟩ => rfl)
private theorem idx_v148_ix (r : Fin 65536) (k : Fin 256) : idx_main_v148 (ix1 r) k = ix2 r k := funext fun a => Fin.ext (by match a with | ⟨0, _⟩ => rfl | ⟨1, _⟩ => rfl)
private theorem idx_v155_ix (r : Fin 65536) (k : Fin 256) : idx_main_v155 (ix1 r) k = ix2 r k := funext fun a => Fin.ext (by match a with | ⟨0, _⟩ => rfl | ⟨1, _⟩ => rfl)

theorem v171_apply (x0 : (⟨S65536x512, .f32⟩ : BufTy).Contents (Elt Ideal)) (x1 : (⟨S65536x2, .f32⟩ : BufTy).Contents (Elt Ideal)) (x2 : (⟨S10x128, .f32⟩ : BufTy).Contents (Elt Ideal)) (x3 x4 x5 : (⟨S128, .f32⟩ : BufTy).Contents (Elt Ideal)) (x6 : (⟨S128x128, .f32⟩ : BufTy).Contents (Elt Ideal)) (x7 x8 x9 : (⟨S128, .f32⟩ : BufTy).Contents (Elt Ideal)) (x10 : (⟨S2x64, .f32⟩ : BufTy).Contents (Elt Ideal)) (x11 x12 x13 : (⟨S64, .f32⟩ : BufTy).Contents (Elt Ideal)) (x14 : (⟨S640x256, .f32⟩ : BufTy).Contents (Elt Ideal)) (x15 x16 x17 : (⟨S256, .f32⟩ : BufTy).Contents (Elt Ideal)) (x18 : (⟨S256x256, .f32⟩ : BufTy).Contents (Elt Ideal)) (x19 x20 x21 : (⟨S256, .f32⟩ : BufTy).Contents (Elt Ideal)) (r : Fin 65536) (j : Fin 256) :
    val_main_v171 (F := Ideal) x0 x1 x2 x3 x4 x5 x6 x7 x8 x9 x10 x11 x12 x13 x14 x15 x16 x17 x18 x19 x20 x21 (ix2 r j)
      = block c256 (fun k => val_main_v142 (F := Ideal) x0 x1 x2 x3 x4 x5 x6 x7 x8 x9 x10 x11 x12 x13 x14 x15 x16 x17 (ix2 r k)) (mat x18) (vec x19) (vec x20) (vec x21) j := by
  simp only [val_main_v171_apply, val_main_v170_apply, val_main_v169_apply, val_main_v168_apply, val_main_v167_apply, val_main_v166_apply, val_main_v165_apply, val_main_v164_apply, val_main_v163_apply, val_main_v162_apply, val_main_v161_apply, val_main_v160_apply, val_main_v159_apply, val_main_v158_apply, val_main_v157_apply, val_main_v156_apply, val_main_v155_apply, val_main_v154_apply, val_main_v153_apply, val_main_v152_apply, val_main_v151_apply, val_main_v150_apply, val_main_v149_apply, val_main_v148_apply, val_main_v147_apply, val_main_v146_apply, val_main_v145_apply, val_main_v144_apply, val_main_v143_apply, val_main_cst_30_apply, val_main_cst_29_apply, val_main_cst_28_apply, val_main_cst_27_apply, val_main_cst_26_apply, val_main_call6_v0_apply, val_main_call6_cst_apply]
  simp only [lidx_v143_ix, ridx_v143_ix, idx_v145_ix, idx_v144_ix, idx_v167_ix, idx_v166_ix, idx_v170_ix, idx_v169_ix, idx_v152_ix, idx_v159_ix, idx_v164_ix, idx_v149_ix, idx_v156_ix, idx_v148_ix, idx_v155_ix]
  simp only [block, layerNorm, relu, dense, rowMean, mat, vec, c256, Ideal.ofBits_zero_f32, zero_add, Ideal.addf_def, Ideal.subf_def, Ideal.mulf_def, Ideal.maximumf_def, Ideal.hostDivf_def, Ideal.hostUnary_rsqrt_def, Ideal.ofBits_def]

/-! The two linear heads (256 → 64) and their stacking on a last axis of size 2. -/
private theorem idx_v180_ix (r : Fin 65536) (a : Fin 64) (c : Fin 1) : idx_main_v180 (ix3 r a c) = ix2 r a := funext fun a => Fin.ext (by match a with | ⟨0, _⟩ => rfl | ⟨1, _⟩ => rfl)
private theorem lidx_v172_ix (r : Fin 65536) (a : Fin 64) (k : Fin 256) : lidx_main_v172 (ix2 r a) k = ix2 r k := funext fun a => Fin.ext (by match a with | ⟨0, _⟩ => rfl | ⟨1, _⟩ => rfl)
private theorem ridx_v172_ix (r : Fin 65536) (a : Fin 64) (k : Fin 256) : ridx_main_v172 (ix2 r a) k = ix2 k a := funext fun a => Fin.ext (by match a with | ⟨0, _⟩ => rfl | ⟨1, _⟩ => rfl)
private theorem idx_v174_ix (r : Fin 65536) (a : Fin 64) : idx_main_v174 (ix2 r a) = ix2 (0 : Fin 1) a := funext fun a => Fin.ext (by match a with | ⟨0, _⟩ => rfl | ⟨1, _⟩ => rfl)
private theorem idx_v173_ix (c : Fin 1) (a : Fin 64) : idx_main_v173 (ix2 c a) = ix1 a := funext fun a => Fin.ext (by match a with | ⟨0, _⟩ => rfl)
private theorem idx_v181_ix (r : Fin 65536) (a : Fin 64) (c : Fin 1) : idx_main_v181 (ix3 r a c) = ix2 r a := funext fun a => Fin.ext (by match a with | ⟨0, _⟩ => rfl | ⟨1, _⟩ => rfl)
private theorem lidx_v176_ix (r : Fin 65536) (a : Fin 64) (k : Fin 256) : lidx_main_v176 (ix2 r a) k = ix2 r k := funext fun a => Fin.ext (by match a with | ⟨0, _⟩ => rfl | ⟨1, _⟩ => rfl)
private theorem ridx_v176_ix (r : Fin 65536) (a : Fin 64) (k : Fin 256) : ridx_main_v176 (ix2 r a) k = ix2 k a := funext fun a => Fin.ext (by match a with | ⟨0, _⟩ => rfl | ⟨1, _⟩ => rfl)
private theorem idx_v178_ix (r : Fin 65536) (a : Fin 64) : idx_main_v178 (ix2 r a) = ix2 (0 : Fin 1) a := funext fun a => Fin.ext (by match a with | ⟨0, _⟩ => rfl | ⟨1, _⟩ => rfl)
private theorem idx_v177_ix (c : Fin 1) (a : Fin 64) : idx_main_v177 (ix2 c a) = ix1 a := funext fun a => Fin.ext (by match a with | ⟨0, _⟩ => rfl)

theorem v182_apply (x0 : (⟨S65536x512, .f32⟩ : BufTy).Contents (Elt Ideal)) (x1 : (⟨S65536x2, .f32⟩ : BufTy).Contents (Elt Ideal)) (x2 : (⟨S10x128, .f32⟩ : BufTy).Contents (Elt Ideal)) (x3 x4 x5 : (⟨S128, .f32⟩ : BufTy).Contents (Elt Ideal)) (x6 : (⟨S128x128, .f32⟩ : BufTy).Contents (Elt Ideal)) (x7 x8 x9 : (⟨S128, .f32⟩ : BufTy).Contents (Elt Ideal)) (x10 : (⟨S2x64, .f32⟩ : BufTy).Contents (Elt Ideal)) (x11 x12 x13 : (⟨S64, .f32⟩ : BufTy).Contents (Elt Ideal)) (x14 : (⟨S640x256, .f32⟩ : BufTy).Contents (Elt Ideal)) (x15 x16 x17 : (⟨S256, .f32⟩ : BufTy).Contents (Elt Ideal)) (x18 : (⟨S256x256, .f32⟩ : BufTy).Contents (Elt Ideal)) (x19 x20 x21 : (⟨S256, .f32⟩ : BufTy).Contents (Elt Ideal)) (x22 : (⟨S256x64, .f32⟩ : BufTy).Contents (Elt Ideal)) (x23 : (⟨S64, .f32⟩ : BufTy).Contents (Elt Ideal)) (x24 : (⟨S256x64, .f32⟩ : BufTy).Contents (Elt Ideal)) (x25 : (⟨S64, .f32⟩ : BufTy).Contents (Elt Ideal)) (r : Fin 65536) (a : Fin 64) (j : Fin 2) :
    val_main_v182 (F := Ideal) x0 x1 x2 x3 x4 x5 x6 x7 x8 x9 x10 x11 x12 x13 x14 x15 x16 x17 x18 x19 x20 x21 x22 x23 x24 x25 (ix3 r a j)
      = if j.val = 0 then dense (fun k => val_main_v171 (F := Ideal) x0 x1 x2 x3 x4 x5 x6 x7 x8 x9 x10 x11 x12 x13 x14 x15 x16 x17 x18 x19 x20 x21 (ix2 r k)) (mat x22) (vec x23) a
        else dense (fun k => val_main_v171 (F := Ideal) x0 x1 x2 x3 x4 x5 x6 x7 x8 x9 x10 x11 x12 x13 x14 x15 x16 x17 x18 x19 x20 x21 (ix2 r k)) (mat x24) (vec x25) a := by
  match j with
  | ⟨0, h0⟩ =>
    refine Eq.trans ?_ (if_pos rfl).symm
    unfold val_main_v182
    refine (concatenate_pair_apply_left (t := S65536x64x2) (s₁ := S65536x64x1) (s₂ := S65536x64x1) (2 : Fin 3) _ _ _
      (ix3 r a (⟨0, h0⟩ : Fin 2)) rfl (ix3 r a (0 : Fin 1))
      (fun b => by match b with | ⟨0, _⟩ => rfl | ⟨1, _⟩ => rfl | ⟨2, _⟩ => rfl)).trans ?_
    simp only [val_main_v180_apply, val_main_v175_apply, val_main_v174_apply, val_main_v173_apply, val_main_v172_apply]
    simp only [idx_v180_ix, lidx_v172_ix, ridx_v172_ix, idx_v174_ix, idx_v173_ix]
    simp only [dense, mat, vec, Ideal.addf_def]
  | ⟨1, h1⟩ =>
    refine Eq.trans ?_ (if_neg Nat.one_ne_zero).symm
    unfold val_main_v182
    refine (concatenate_pair_apply_right (t := S65536x64x2) (s₁ := S65536x64x1) (s₂ := S65536x64x1) (2 : Fin 3) _ _ _
      (ix3 r a (⟨1, h1⟩ : Fin 2)) rfl rfl (ix3 r a (0 : Fin 1))
      (fun b hb => by
        match b with
        | ⟨0, _⟩ => rfl
        | ⟨1, _⟩ => rfl
        | ⟨2, _⟩ => exact absurd rfl hb) rfl).trans ?_
    simp only [val_main_v181_apply, val_main_v179_apply, val_main_v178_apply, val_main_v177_apply, val_main_v176_apply]
    simp only [idx_v181_ix, lidx_v176_ix, ridx_v176_ix, idx_v178_ix, idx_v177_ix]
    simp only [dense, mat, vec, Ideal.addf_def]

end Cert.ReferenceIdeal.RowValue

end
-- ==== Proof.RBody.lean ====
/-
  The reference's whole program read at a row: its result at (r, a, j) is the specification's row function of row r of
  the observation and preference arrays and of the weights; so the result array is the specification's `result`.
  Each stretch of the program read at a row is a lemma of its own; this module threads them.
-/
import proofs.«161807_j10033043603499_1_alg».proof.Proof.RHist
import proofs.«161807_j10033043603499_1_alg».proof.Proof.REnc
import proofs.«161807_j10033043603499_1_alg».proof.Proof.RTrunk

noncomputable section

namespace Cert.ReferenceIdeal.RowValue

open Idealize.ShloMosaic Idealize.ShloMosaic.ValueIdx Cert.ReferenceIdeal Cert.ReferenceIdeal.ReadP HistCritic

/-- The reference's result at row `r`, head column `a`, head `j`. -/
theorem ref_apply (x0 : (⟨S65536x512, .f32⟩ : BufTy).Contents (Elt Ideal)) (x1 : (⟨S65536x2, .f32⟩ : BufTy).Contents (Elt Ideal)) (x2 : (⟨S10x128, .f32⟩ : BufTy).Contents (Elt Ideal)) (x3 x4 x5 : (⟨S128, .f32⟩ : BufTy).Contents (Elt Ideal)) (x6 : (⟨S128x128, .f32⟩ : BufTy).Contents (Elt Ideal)) (x7 x8 x9 : (⟨S128, .f32⟩ : BufTy).Contents (Elt Ideal)) (x10 : (⟨S2x64, .f32⟩ : BufTy).Contents (Elt Ideal)) (x11 x12 x13 : (⟨S64, .f32⟩ : BufTy).Contents (Elt Ideal)) (x14 : (⟨S640x256, .f32⟩ : BufTy).Contents (Elt Ideal)) (x15 x16 x17 : (⟨S256, .f32⟩ : BufTy).Contents (Elt Ideal)) (x18 : (⟨S256x256, .f32⟩ : BufTy).Contents (Elt Ideal)) (x19 x20 x21 : (⟨S256, .f32⟩ : BufTy).Contents (Elt Ideal)) (x22 : (⟨S256x64, .f32⟩ : BufTy).Contents (Elt Ideal)) (x23 : (⟨S64, .f32⟩ : BufTy).Contents (Elt Ideal)) (x24 : (⟨S256x64, .f32⟩ : BufTy).Contents (Elt Ideal)) (x25 : (⟨S64, .f32⟩ : BufTy).Contents (Elt Ideal)) (r : Fin 65536) (a : Fin 64) (j : Fin 2) :
    val_main_v182 (F := Ideal) x0 x1 x2 x3 x4 x5 x6 x7 x8 x9 x10 x11 x12 x13 x14 x15 x16 x17 x18 x19 x20 x21 x22 x23 x24 x25 (ix3 r a j)
      = rowOut (Weights.of x2 x3 x4 x5 x6 x7 x8 x9 x10 x11 x12 x13 x14 x15 x16 x17 x18 x19 x20 x21 x22 x23 x24 x25) (row x0 r) (row x1 r) a j := by
  simp only [v182_apply, v171_apply, v142_apply, v113_apply, v112_apply, v83_apply, v54_apply, v25_apply, v3_apply]
  rfl

/-- The reference's result array is the specification's function of the argument arrays. -/
theorem ref_result (x0 : (⟨S65536x512, .f32⟩ : BufTy).Contents (Elt Ideal)) (x1 : (⟨S65536x2, .f32⟩ : BufTy).Contents (Elt Ideal)) (x2 : (⟨S10x128, .f32⟩ : BufTy).Contents (Elt Ideal)) (x3 x4 x5 : (⟨S128, .f32⟩ : BufTy).Contents (Elt Ideal)) (x6 : (⟨S128x128, .f32⟩ : BufTy).Contents (Elt Ideal)) (x7 x8 x9 : (⟨S128, .f32⟩ : BufTy).Contents (Elt Ideal)) (x10 : (⟨S2x64, .f32⟩ : BufTy).Contents (Elt Ideal)) (x11 x12 x13 : (⟨S64, .f32⟩ : BufTy).Contents (Elt Ideal)) (x14 : (⟨S640x256, .f32⟩ : BufTy).Contents (Elt Ideal)) (x15 x16 x17 : (⟨S256, .f32⟩ : BufTy).Contents (Elt Ideal)) (x18 : (⟨S256x256, .f32⟩ : BufTy).Contents (Elt Ideal)) (x19 x20 x21 : (⟨S256, .f32⟩ : BufTy).Contents (Elt Ideal)) (x22 : (⟨S256x64, .f32⟩ : BufTy).Contents (Elt Ideal)) (x23 : (⟨S64, .f32⟩ : BufTy).Contents (Elt Ideal)) (x24 : (⟨S256x64, .f32⟩ : BufTy).Contents (Elt Ideal)) (x25 : (⟨S64, .f32⟩ : BufTy).Contents (Elt Ideal)) :
    val_main_v182 (F := Ideal) x0 x1 x2 x3 x4 x5 x6 x7 x8 x9 x10 x11 x12 x13 x14 x15 x16 x17 x18 x19 x20 x21 x22 x23 x24 x25 = result x0 x1 (Weights.of x2 x3 x4 x5 x6 x7 x8 x9 x10 x11 x12 x13 x14 x15 x16 x17 x18 x19 x20 x21 x22 x23 x24 x25) := by
  funext i
  obtain ⟨r, a, j, rfl⟩ : ∃ (r : Fin 65536) (a : Fin 64) (j : Fin 2), i = ix3 r a j := ⟨i 0, i 1, i 2, eq_ix3 i⟩
  exact ref_apply x0 x1 x2 x3 x4 x5 x6 x7 x8 x9 x10 x11 x12 x13 x14 x15 x16 x17 x18 x19 x20 x21 x22 x23 x24 x25 r a j

end Cert.ReferenceIdeal.RowValue

end
-- ==== Proof.RefRunA.lean ====
/-
The reference's @main, first half, as a straight line of host operations: what the histogram stretch, the two layers of
  the histogram encoder and the layer of the preference encoder leave in their result buffers, each as the stage function
  of what the stretch reads, and that none of them writes an argument buffer or a buffer a later stretch still reads.
-/
import proofs.«161807_j10033043603499_1_alg».proof.Proof.Gen.ReferenceIdeal
import proofs.«161807_j10033043603499_1_alg».proof.Proof.RefRead
import Idealize.ShloMosaic.Lib.StableHlo.Run

noncomputable section

namespace Cert.ReferenceIdeal.RunP

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- The 26 argument buffers. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25]

/-- Operations 1 … 44 of @main's 236, in order. -/
abbrev ops1 : List (HloOp τ sig (Elt F)) :=
  [
    unary main_arg0 main_v0 ((extractStridedSlice S65536x64 ![0, 68] · slices_S65536x512_S65536x64_0_68) : (⟨S65536x512, .f32⟩ : BufTy).Contents (Elt F) → (⟨S65536x64, .f32⟩ : BufTy).Contents (Elt F)),
    unary main_arg0 main_v1 ((extractStridedSlice S65536x68 ![0, 0] · slices_S65536x512_S65536x68_0_0) : (⟨S65536x512, .f32⟩ : BufTy).Contents (Elt F) → (⟨S65536x68, .f32⟩ : BufTy).Contents (Elt F)),
    unary main_arg0 main_v2 ((extractStridedSlice S65536x380 ![0, 132] · slices_S65536x512_S65536x380_0_132) : (⟨S65536x512, .f32⟩ : BufTy).Contents (Elt F) → (⟨S65536x380, .f32⟩ : BufTy).Contents (Elt F)),
    binary main_v1 main_v2 main_v3 ((fun a b => concatenate S65536x448 1 [⟨S65536x68, a⟩, ⟨S65536x380, b⟩] concatenates_S65536x68_S65536x380_S65536x448_d1) : (⟨S65536x68, .f32⟩ : BufTy).Contents (Elt F) → (⟨S65536x380, .f32⟩ : BufTy).Contents (Elt F) → (⟨S65536x448, .f32⟩ : BufTy).Contents (Elt F)),
    nullary main_cst (constant S_ .f32 0x3F800000#32),
    unary main_cst main_v4 (broadcastInDim S65536x64 ![] bcast_S_S65536x64 : (⟨S_, .f32⟩ : BufTy).Contents (Elt F) → (⟨S65536x64, .f32⟩ : BufTy).Contents (Elt F)),
    binary main_v0 main_v4 main_v5 (mulf : (⟨S65536x64, .f32⟩ : BufTy).Contents (Elt F) → (⟨S65536x64, .f32⟩ : BufTy).Contents (Elt F) → (⟨S65536x64, .f32⟩ : BufTy).Contents (Elt F)),
    unary main_v5 main_v6 (Host.floor : (⟨S65536x64, .f32⟩ : BufTy).Contents (Elt F) → (⟨S65536x64, .f32⟩ : BufTy).Contents (Elt F)),
    unary main_v6 main_v7 (fptosi 32 : (⟨S65536x64, .f32⟩ : BufTy).Contents (Elt F) → (⟨S65536x64, .i32⟩ : BufTy).Contents (Elt F)),
    nullary main_c (constantI S_ 32 0#32),
    nullary main_c_0 (constantI S_ 32 9#32),
    TRef.unary (TRef.of (T := ⟨S_, .i32⟩) main_c) (TRef.of (T := ⟨S_, .i32⟩) main_call0_v0) id,
    TRef.unary (TRef.of (T := ⟨S_, .i32⟩) main_call0_v0) (TRef.of (T := ⟨S65536x64, .i32⟩) main_call0_v1) (broadcastInDim S65536x64 ![] bcast_S_S65536x64),
    TRef.binary (TRef.of (T := ⟨S65536x64, .i32⟩) main_call0_v1) (TRef.of (T := ⟨S65536x64, .i32⟩) main_v7) (TRef.of (T := ⟨S65536x64, .i32⟩) main_call0_v2) maxsi,
    TRef.unary (TRef.of (T := ⟨S_, .i32⟩) main_c_0) (TRef.of (T := ⟨S_, .i32⟩) main_call0_v3) id,
    TRef.unary (TRef.of (T := ⟨S_, .i32⟩) main_call0_v3) (TRef.of (T := ⟨S65536x64, .i32⟩) main_call0_v4) (broadcastInDim S65536x64 ![] bcast_S_S65536x64),
    TRef.binary (TRef.of (T := ⟨S65536x64, .i32⟩) main_call0_v4) (TRef.of (T := ⟨S65536x64, .i32⟩) main_call0_v2) (TRef.of (T := ⟨S65536x64, .i32⟩) main_v8) minsi,
    nullary main_cst_1 (constant S_ .f32 0x00000000#32),
    unary main_cst_1 main_v9 (broadcastInDim S65536x64 ![] bcast_S_S65536x64 : (⟨S_, .f32⟩ : BufTy).Contents (Elt F) → (⟨S65536x64, .f32⟩ : BufTy).Contents (Elt F)),
    binary main_v0 main_v9 main_v10 (cmpf .oge : (⟨S65536x64, .f32⟩ : BufTy).Contents (Elt F) → (⟨S65536x64, .f32⟩ : BufTy).Contents (Elt F) → (⟨S65536x64, .i1⟩ : BufTy).Contents (Elt F)),
    nullary main_cst_2 (constant S_ .f32 0x41200000#32),
    unary main_cst_2 main_v11 (broadcastInDim S65536x64 ![] bcast_S_S65536x64 : (⟨S_, .f32⟩ : BufTy).Contents (Elt F) → (⟨S65536x64, .f32⟩ : BufTy).Contents (Elt F)),
    binary main_v0 main_v11 main_v12 (cmpf .ole : (⟨S65536x64, .f32⟩ : BufTy).Contents (Elt F) → (⟨S65536x64, .f32⟩ : BufTy).Contents (Elt F) → (⟨S65536x64, .i1⟩ : BufTy).Contents (Elt F)),
    binary main_v10 main_v12 main_v13 (andi : (⟨S65536x64, .i1⟩ : BufTy).Contents (Elt F) → (⟨S65536x64, .i1⟩ : BufTy).Contents (Elt F) → (⟨S65536x64, .i1⟩ : BufTy).Contents (Elt F)),
    unary main_v13 main_v14 (uitofp .f32 : (⟨S65536x64, .i1⟩ : BufTy).Contents (Elt F) → (⟨S65536x64, .f32⟩ : BufTy).Contents (Elt F)),
    TRef.unary (TRef.of (T := ⟨S65536x64, .i32⟩) main_v8) (TRef.of (T := ⟨S65536x64x1, .i32⟩) main_call1_v0) (broadcastInDim S65536x64x1 ![0, 1] bcast_S65536x64_S65536x64x1_0_1),
    TRef.nullary (TRef.of (T := ⟨S1x1x10, .i32⟩) main_call1_v1) (iotaInDim S1x1x10 32 2),
    TRef.unary (TRef.of (T := ⟨S65536x64x1, .i32⟩) main_call1_v0) (TRef.of (T := ⟨S65536x64x10, .i32⟩) main_call1_v2) (broadcastInDim S65536x64x10 ![0, 1, 2] bcast_S65536x64x1_S65536x64x10_0_1_2),
    TRef.unary (TRef.of (T := ⟨S1x1x10, .i32⟩) main_call1_v1) (TRef.of (T := ⟨S65536x64x10, .i32⟩) main_call1_v3) (broadcastInDim S65536x64x10 ![0, 1, 2] bcast_S1x1x10_S65536x64x10_0_1_2),
    TRef.binary (TRef.of (T := ⟨S65536x64x10, .i32⟩) main_call1_v2) (TRef.of (T := ⟨S65536x64x10, .i32⟩) main_call1_v3) (TRef.of (T := ⟨S65536x64x10, .i1⟩) main_call1_v4) (cmpi .eq),
    TRef.unary (TRef.of (T := ⟨S65536x64x10, .i1⟩) main_call1_v4) (TRef.of (T := ⟨S65536x64x10, .f32⟩) main_v15) (uitofp .f32),
    unary main_v14 main_v16 (broadcastInDim S65536x64x1 ![0, 1] bcast_S65536x64_S65536x64x1_0_1 : (⟨S65536x64, .f32⟩ : BufTy).Contents (Elt F) → (⟨S65536x64x1, .f32⟩ : BufTy).Contents (Elt F)),
    unary main_v16 main_v17 (broadcastInDim S65536x64x10 ![0, 1, 2] bcast_S65536x64x1_S65536x64x10_0_1_2 : (⟨S65536x64x1, .f32⟩ : BufTy).Contents (Elt F) → (⟨S65536x64x10, .f32⟩ : BufTy).Contents (Elt F)),
    binary main_v15 main_v17 main_v18 (mulf : (⟨S65536x64x10, .f32⟩ : BufTy).Contents (Elt F) → (⟨S65536x64x10, .f32⟩ : BufTy).Contents (Elt F) → (⟨S65536x64x10, .f32⟩ : BufTy).Contents (Elt F)),
    nullary main_cst_3 (constant S_ .f32 0x00000000#32),
    binary main_v18 main_cst_3 main_v19 ((fun x v => Host.reduceAdd x v reducesTo_S65536x64x10_S65536x10_d1 h_S_) : (⟨S65536x64x10, .f32⟩ : BufTy).Contents (Elt F) → (⟨S_, .f32⟩ : BufTy).Contents (Elt F) → (⟨S65536x10, .f32⟩ : BufTy).Contents (Elt F)),
    nullary main_cst_4 (constant S_ .f32 0x00000000#32),
    binary main_v19 main_cst_4 main_v20 ((fun x v => Host.reduceAdd x v reducesTo_S65536x10_S65536_d1 h_S_) : (⟨S65536x10, .f32⟩ : BufTy).Contents (Elt F) → (⟨S_, .f32⟩ : BufTy).Contents (Elt F) → (⟨S65536, .f32⟩ : BufTy).Contents (Elt F)),
    unary main_v20 main_v21 (broadcastInDim S65536x1 ![0] bcast_S65536_S65536x1_0 : (⟨S65536, .f32⟩ : BufTy).Contents (Elt F) → (⟨S65536x1, .f32⟩ : BufTy).Contents (Elt F)),
    nullary main_cst_5 (constant S_ .f32 0x322BCC77#32),
    unary main_cst_5 main_v22 (broadcastInDim S65536x1 ![] bcast_S_S65536x1 : (⟨S_, .f32⟩ : BufTy).Contents (Elt F) → (⟨S65536x1, .f32⟩ : BufTy).Contents (Elt F)),
    binary main_v21 main_v22 main_v23 (addf : (⟨S65536x1, .f32⟩ : BufTy).Contents (Elt F) → (⟨S65536x1, .f32⟩ : BufTy).Contents (Elt F) → (⟨S65536x1, .f32⟩ : BufTy).Contents (Elt F)),
    unary main_v23 main_v24 (broadcastInDim S65536x10 ![0, 1] bcast_S65536x1_S65536x10_0_1 : (⟨S65536x1, .f32⟩ : BufTy).Contents (Elt F) → (⟨S65536x10, .f32⟩ : BufTy).Contents (Elt F)),
    binary main_v19 main_v24 main_v25 (Host.divf : (⟨S65536x10, .f32⟩ : BufTy).Contents (Elt F) → (⟨S65536x10, .f32⟩ : BufTy).Contents (Elt F) → (⟨S65536x10, .f32⟩ : BufTy).Contents (Elt F)) ]

/-- Operations 45 … 80 of @main's 236, in order. -/
abbrev ops2 : List (HloOp τ sig (Elt F)) :=
  [
    binary main_v25 main_arg2 main_v26 ((fun l r => Host.dotGeneral dot_S65536x10_S10x128_S65536x128_1_0_0_1_n_n none l r) : (⟨S65536x10, .f32⟩ : BufTy).Contents (Elt F) → (⟨S10x128, .f32⟩ : BufTy).Contents (Elt F) → (⟨S65536x128, .f32⟩ : BufTy).Contents (Elt F)),
    unary main_arg3 main_v27 (broadcastInDim S1x128 ![1] bcast_S128_S1x128_1 : (⟨S128, .f32⟩ : BufTy).Contents (Elt F) → (⟨S1x128, .f32⟩ : BufTy).Contents (Elt F)),
    unary main_v27 main_v28 (broadcastInDim S65536x128 ![0, 1] bcast_S1x128_S65536x128_0_1 : (⟨S1x128, .f32⟩ : BufTy).Contents (Elt F) → (⟨S65536x128, .f32⟩ : BufTy).Contents (Elt F)),
    binary main_v26 main_v28 main_v29 (addf : (⟨S65536x128, .f32⟩ : BufTy).Contents (Elt F) → (⟨S65536x128, .f32⟩ : BufTy).Contents (Elt F) → (⟨S65536x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S65536x128, .f32⟩) main_call2_v0) (broadcastInDim S65536x128 ![] bcast_S_S65536x128),
    TRef.binary (TRef.of (T := ⟨S65536x128, .f32⟩) main_v29) (TRef.of (T := ⟨S65536x128, .f32⟩) main_call2_v0) (TRef.of (T := ⟨S65536x128, .f32⟩) main_v30) maximumf,
    nullary main_cst_6 (constant S_ .f32 0x00000000#32),
    binary main_v30 main_cst_6 main_v31 ((fun x v => Host.reduceAdd x v reducesTo_S65536x128_S65536_d1 h_S_) : (⟨S65536x128, .f32⟩ : BufTy).Contents (Elt F) → (⟨S_, .f32⟩ : BufTy).Contents (Elt F) → (⟨S65536, .f32⟩ : BufTy).Contents (Elt F)),
    unary main_v31 main_v32 (broadcastInDim S65536x1 ![0] bcast_S65536_S65536x1_0 : (⟨S65536, .f32⟩ : BufTy).Contents (Elt F) → (⟨S65536x1, .f32⟩ : BufTy).Contents (Elt F)),
    nullary main_cst_7 (constant S_ .f32 0x43000000#32),
    unary main_cst_7 main_v33 (broadcastInDim S65536x1 ![] bcast_S_S65536x1 : (⟨S_, .f32⟩ : BufTy).Contents (Elt F) → (⟨S65536x1, .f32⟩ : BufTy).Contents (Elt F)),
    binary main_v32 main_v33 main_v34 (Host.divf : (⟨S65536x1, .f32⟩ : BufTy).Contents (Elt F) → (⟨S65536x1, .f32⟩ : BufTy).Contents (Elt F) → (⟨S65536x1, .f32⟩ : BufTy).Contents (Elt F)),
    unary main_v34 main_v35 (broadcastInDim S65536x128 ![0, 1] bcast_S65536x1_S65536x128_0_1 : (⟨S65536x1, .f32⟩ : BufTy).Contents (Elt F) → (⟨S65536x128, .f32⟩ : BufTy).Contents (Elt F)),
    binary main_v30 main_v35 main_v36 (subf : (⟨S65536x128, .f32⟩ : BufTy).Contents (Elt F) → (⟨S65536x128, .f32⟩ : BufTy).Contents (Elt F) → (⟨S65536x128, .f32⟩ : BufTy).Contents (Elt F)),
    binary main_v36 main_v36 main_v37 (mulf : (⟨S65536x128, .f32⟩ : BufTy).Contents (Elt F) → (⟨S65536x128, .f32⟩ : BufTy).Contents (Elt F) → (⟨S65536x128, .f32⟩ : BufTy).Contents (Elt F)),
    nullary main_cst_8 (constant S_ .f32 0x00000000#32),
    binary main_v37 main_cst_8 main_v38 ((fun x v => Host.reduceAdd x v reducesTo_S65536x128_S65536_d1 h_S_) : (⟨S65536x128, .f32⟩ : BufTy).Contents (Elt F) → (⟨S_, .f32⟩ : BufTy).Contents (Elt F) → (⟨S65536, .f32⟩ : BufTy).Contents (Elt F)),
    unary main_v38 main_v39 (broadcastInDim S65536x1 ![0] bcast_S65536_S65536x1_0 : (⟨S65536, .f32⟩ : BufTy).Contents (Elt F) → (⟨S65536x1, .f32⟩ : BufTy).Contents (Elt F)),
    nullary main_cst_9 (constant S_ .f32 0x43000000#32),
    unary main_cst_9 main_v40 (broadcastInDim S65536x1 ![] bcast_S_S65536x1 : (⟨S_, .f32⟩ : BufTy).Contents (Elt F) → (⟨S65536x1, .f32⟩ : BufTy).Contents (Elt F)),
    binary main_v39 main_v40 main_v41 (Host.divf : (⟨S65536x1, .f32⟩ : BufTy).Contents (Elt F) → (⟨S65536x1, .f32⟩ : BufTy).Contents (Elt F) → (⟨S65536x1, .f32⟩ : BufTy).Contents (Elt F)),
    unary main_v34 main_v42 (broadcastInDim S65536x128 ![0, 1] bcast_S65536x1_S65536x128_0_1 : (⟨S65536x1, .f32⟩ : BufTy).Contents (Elt F) → (⟨S65536x128, .f32⟩ : BufTy).Contents (Elt F)),
    binary main_v30 main_v42 main_v43 (subf : (⟨S65536x128, .f32⟩ : BufTy).Contents (Elt F) → (⟨S65536x128, .f32⟩ : BufTy).Contents (Elt F) → (⟨S65536x128, .f32⟩ : BufTy).Contents (Elt F)),
    nullary main_cst_10 (constant S_ .f32 0x3727C5AC#32),
    unary main_cst_10 main_v44 (broadcastInDim S65536x1 ![] bcast_S_S65536x1 : (⟨S_, .f32⟩ : BufTy).Contents (Elt F) → (⟨S65536x1, .f32⟩ : BufTy).Contents (Elt F)),
    binary main_v41 main_v44 main_v45 (addf : (⟨S65536x1, .f32⟩ : BufTy).Contents (Elt F) → (⟨S65536x1, .f32⟩ : BufTy).Contents (Elt F) → (⟨S65536x1, .f32⟩ : BufTy).Contents (Elt F)),
    unary main_v45 main_v46 (Host.rsqrt : (⟨S65536x1, .f32⟩ : BufTy).Contents (Elt F) → (⟨S65536x1, .f32⟩ : BufTy).Contents (Elt F)),
    unary main_v46 main_v47 (broadcastInDim S65536x128 ![0, 1] bcast_S65536x1_S65536x128_0_1 : (⟨S65536x1, .f32⟩ : BufTy).Contents (Elt F) → (⟨S65536x128, .f32⟩ : BufTy).Contents (Elt F)),
    binary main_v43 main_v47 main_v48 (mulf : (⟨S65536x128, .f32⟩ : BufTy).Contents (Elt F) → (⟨S65536x128, .f32⟩ : BufTy).Contents (Elt F) → (⟨S65536x128, .f32⟩ : BufTy).Contents (Elt F)),
    unary main_arg4 main_v49 (broadcastInDim S1x128 ![1] bcast_S128_S1x128_1 : (⟨S128, .f32⟩ : BufTy).Contents (Elt F) → (⟨S1x128, .f32⟩ : BufTy).Contents (Elt F)),
    unary main_v49 main_v50 (broadcastInDim S65536x128 ![0, 1] bcast_S1x128_S65536x128_0_1 : (⟨S1x128, .f32⟩ : BufTy).Contents (Elt F) → (⟨S65536x128, .f32⟩ : BufTy).Contents (Elt F)),
    binary main_v48 main_v50 main_v51 (mulf : (⟨S65536x128, .f32⟩ : BufTy).Contents (Elt F) → (⟨S65536x128, .f32⟩ : BufTy).Contents (Elt F) → (⟨S65536x128, .f32⟩ : BufTy).Contents (Elt F)),
    unary main_arg5 main_v52 (broadcastInDim S1x128 ![1] bcast_S128_S1x128_1 : (⟨S128, .f32⟩ : BufTy).Contents (Elt F) → (⟨S1x128, .f32⟩ : BufTy).Contents (Elt F)),
    unary main_v52 main_v53 (broadcastInDim S65536x128 ![0, 1] bcast_S1x128_S65536x128_0_1 : (⟨S1x128, .f32⟩ : BufTy).Contents (Elt F) → (⟨S65536x128, .f32⟩ : BufTy).Contents (Elt F)),
    binary main_v51 main_v53 main_v54 (addf : (⟨S65536x128, .f32⟩ : BufTy).Contents (Elt F) → (⟨S65536x128, .f32⟩ : BufTy).Contents (Elt F) → (⟨S65536x128, .f32⟩ : BufTy).Contents (Elt F)) ]

/-- Operations 81 … 116 of @main's 236, in order. -/
abbrev ops3 : List (HloOp τ sig (Elt F)) :=
  [
    binary main_v54 main_arg6 main_v55 ((fun l r => Host.dotGeneral dot_S65536x128_S128x128_S65536x128_1_0_0_1_n_n none l r) : (⟨S65536x128, .f32⟩ : BufTy).Contents (Elt F) → (⟨S128x128, .f32⟩ : BufTy).Contents (Elt F) → (⟨S65536x128, .f32⟩ : BufTy).Contents (Elt F)),
    unary main_arg7 main_v56 (broadcastInDim S1x128 ![1] bcast_S128_S1x128_1 : (⟨S128, .f32⟩ : BufTy).Contents (Elt F) → (⟨S1x128, .f32⟩ : BufTy).Contents (Elt F)),
    unary main_v56 main_v57 (broadcastInDim S65536x128 ![0, 1] bcast_S1x128_S65536x128_0_1 : (⟨S1x128, .f32⟩ : BufTy).Contents (Elt F) → (⟨S65536x128, .f32⟩ : BufTy).Contents (Elt F)),
    binary main_v55 main_v57 main_v58 (addf : (⟨S65536x128, .f32⟩ : BufTy).Contents (Elt F) → (⟨S65536x128, .f32⟩ : BufTy).Contents (Elt F) → (⟨S65536x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S65536x128, .f32⟩) main_call3_v0) (broadcastInDim S65536x128 ![] bcast_S_S65536x128),
    TRef.binary (TRef.of (T := ⟨S65536x128, .f32⟩) main_v58) (TRef.of (T := ⟨S65536x128, .f32⟩) main_call3_v0) (TRef.of (T := ⟨S65536x128, .f32⟩) main_v59) maximumf,
    nullary main_cst_11 (constant S_ .f32 0x00000000#32),
    binary main_v59 main_cst_11 main_v60 ((fun x v => Host.reduceAdd x v reducesTo_S65536x128_S65536_d1 h_S_) : (⟨S65536x128, .f32⟩ : BufTy).Contents (Elt F) → (⟨S_, .f32⟩ : BufTy).Contents (Elt F) → (⟨S65536, .f32⟩ : BufTy).Contents (Elt F)),
    unary main_v60 main_v61 (broadcastInDim S65536x1 ![0] bcast_S65536_S65536x1_0 : (⟨S65536, .f32⟩ : BufTy).Contents (Elt F) → (⟨S65536x1, .f32⟩ : BufTy).Contents (Elt F)),
    nullary main_cst_12 (constant S_ .f32 0x43000000#32),
    unary main_cst_12 main_v62 (broadcastInDim S65536x1 ![] bcast_S_S65536x1 : (⟨S_, .f32⟩ : BufTy).Contents (Elt F) → (⟨S65536x1, .f32⟩ : BufTy).Contents (Elt F)),
    binary main_v61 main_v62 main_v63 (Host.divf : (⟨S65536x1, .f32⟩ : BufTy).Contents (Elt F) → (⟨S65536x1, .f32⟩ : BufTy).Contents (Elt F) → (⟨S65536x1, .f32⟩ : BufTy).Contents (Elt F)),
    unary main_v63 main_v64 (broadcastInDim S65536x128 ![0, 1] bcast_S65536x1_S65536x128_0_1 : (⟨S65536x1, .f32⟩ : BufTy).Contents (Elt F) → (⟨S65536x128, .f32⟩ : BufTy).Contents (Elt F)),
    binary main_v59 main_v64 main_v65 (subf : (⟨S65536x128, .f32⟩ : BufTy).Contents (Elt F) → (⟨S65536x128, .f32⟩ : BufTy).Contents (Elt F) → (⟨S65536x128, .f32⟩ : BufTy).Contents (Elt F)),
    binary main_v65 main_v65 main_v66 (mulf : (⟨S65536x128, .f32⟩ : BufTy).Contents (Elt F) → (⟨S65536x128, .f32⟩ : BufTy).Contents (Elt F) → (⟨S65536x128, .f32⟩ : BufTy).Contents (Elt F)),
    nullary main_cst_13 (constant S_ .f32 0x00000000#32),
    binary main_v66 main_cst_13 main_v67 ((fun x v => Host.reduceAdd x v reducesTo_S65536x128_S65536_d1 h_S_) : (⟨S65536x128, .f32⟩ : BufTy).Contents (Elt F) → (⟨S_, .f32⟩ : BufTy).Contents (Elt F) → (⟨S65536, .f32⟩ : BufTy).Contents (Elt F)),
    unary main_v67 main_v68 (broadcastInDim S65536x1 ![0] bcast_S65536_S65536x1_0 : (⟨S65536, .f32⟩ : BufTy).Contents (Elt F) → (⟨S65536x1, .f32⟩ : BufTy).Contents (Elt F)),
    nullary main_cst_14 (constant S_ .f32 0x43000000#32),
    unary main_cst_14 main_v69 (broadcastInDim S65536x1 ![] bcast_S_S65536x1 : (⟨S_, .f32⟩ : BufTy).Contents (Elt F) → (⟨S65536x1, .f32⟩ : BufTy).Contents (Elt F)),
    binary main_v68 main_v69 main_v70 (Host.divf : (⟨S65536x1, .f32⟩ : BufTy).Contents (Elt F) → (⟨S65536x1, .f32⟩ : BufTy).Contents (Elt F) → (⟨S65536x1, .f32⟩ : BufTy).Contents (Elt F)),
    unary main_v63 main_v71 (broadcastInDim S65536x128 ![0, 1] bcast_S65536x1_S65536x128_0_1 : (⟨S65536x1, .f32⟩ : BufTy).Contents (Elt F) → (⟨S65536x128, .f32⟩ : BufTy).Contents (Elt F)),
    binary main_v59 main_v71 main_v72 (subf : (⟨S65536x128, .f32⟩ : BufTy).Contents (Elt F) → (⟨S65536x128, .f32⟩ : BufTy).Contents (Elt F) → (⟨S65536x128, .f32⟩ : BufTy).Contents (Elt F)),
    nullary main_cst_15 (constant S_ .f32 0x3727C5AC#32),
    unary main_cst_15 main_v73 (broadcastInDim S65536x1 ![] bcast_S_S65536x1 : (⟨S_, .f32⟩ : BufTy).Contents (Elt F) → (⟨S65536x1, .f32⟩ : BufTy).Contents (Elt F)),
    binary main_v70 main_v73 main_v74 (addf : (⟨S65536x1, .f32⟩ : BufTy).Contents (Elt F) → (⟨S65536x1, .f32⟩ : BufTy).Contents (Elt F) → (⟨S65536x1, .f32⟩ : BufTy).Contents (Elt F)),
    unary main_v74 main_v75 (Host.rsqrt : (⟨S65536x1, .f32⟩ : BufTy).Contents (Elt F) → (⟨S65536x1, .f32⟩ : BufTy).Contents (Elt F)),
    unary main_v75 main_v76 (broadcastInDim S65536x128 ![0, 1] bcast_S65536x1_S65536x128_0_1 : (⟨S65536x1, .f32⟩ : BufTy).Contents (Elt F) → (⟨S65536x128, .f32⟩ : BufTy).Contents (Elt F)),
    binary main_v72 main_v76 main_v77 (mulf : (⟨S65536x128, .f32⟩ : BufTy).Contents (Elt F) → (⟨S65536x128, .f32⟩ : BufTy).Contents (Elt F) → (⟨S65536x128, .f32⟩ : BufTy).Contents (Elt F)),
    unary main_arg8 main_v78 (broadcastInDim S1x128 ![1] bcast_S128_S1x128_1 : (⟨S128, .f32⟩ : BufTy).Contents (Elt F) → (⟨S1x128, .f32⟩ : BufTy).Contents (Elt F)),
    unary main_v78 main_v79 (broadcastInDim S65536x128 ![0, 1] bcast_S1x128_S65536x128_0_1 : (⟨S1x128, .f32⟩ : BufTy).Contents (Elt F) → (⟨S65536x128, .f32⟩ : BufTy).Contents (Elt F)),
    binary main_v77 main_v79 main_v80 (mulf : (⟨S65536x128, .f32⟩ : BufTy).Contents (Elt F) → (⟨S65536x128, .f32⟩ : BufTy).Contents (Elt F) → (⟨S65536x128, .f32⟩ : BufTy).Contents (Elt F)),
    unary main_arg9 main_v81 (broadcastInDim S1x128 ![1] bcast_S128_S1x128_1 : (⟨S128, .f32⟩ : BufTy).Contents (Elt F) → (⟨S1x128, .f32⟩ : BufTy).Contents (Elt F)),
    unary main_v81 main_v82 (broadcastInDim S65536x128 ![0, 1] bcast_S1x128_S65536x128_0_1 : (⟨S1x128, .f32⟩ : BufTy).Contents (Elt F) → (⟨S65536x128, .f32⟩ : BufTy).Contents (Elt F)),
    binary main_v80 main_v82 main_v83 (addf : (⟨S65536x128, .f32⟩ : BufTy).Contents (Elt F) → (⟨S65536x128, .f32⟩ : BufTy).Contents (Elt F) → (⟨S65536x128, .f32⟩ : BufTy).Contents (Elt F)) ]

/-- Operations 117 … 152 of @main's 236, in order. -/
abbrev ops4 : List (HloOp τ sig (Elt F)) :=
  [
    binary main_arg1 main_arg10 main_v84 ((fun l r => Host.dotGeneral dot_S65536x2_S2x64_S65536x64_1_0_0_1_n_n none l r) : (⟨S65536x2, .f32⟩ : BufTy).Contents (Elt F) → (⟨S2x64, .f32⟩ : BufTy).Contents (Elt F) → (⟨S65536x64, .f32⟩ : BufTy).Contents (Elt F)),
    unary main_arg11 main_v85 (broadcastInDim S1x64 ![1] bcast_S64_S1x64_1 : (⟨S64, .f32⟩ : BufTy).Contents (Elt F) → (⟨S1x64, .f32⟩ : BufTy).Contents (Elt F)),
    unary main_v85 main_v86 (broadcastInDim S65536x64 ![0, 1] bcast_S1x64_S65536x64_0_1 : (⟨S1x64, .f32⟩ : BufTy).Contents (Elt F) → (⟨S65536x64, .f32⟩ : BufTy).Contents (Elt F)),
    binary main_v84 main_v86 main_v87 (addf : (⟨S65536x64, .f32⟩ : BufTy).Contents (Elt F) → (⟨S65536x64, .f32⟩ : BufTy).Contents (Elt F) → (⟨S65536x64, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S65536x64, .f32⟩) main_call4_v0) (broadcastInDim S65536x64 ![] bcast_S_S65536x64),
    TRef.binary (TRef.of (T := ⟨S65536x64, .f32⟩) main_v87) (TRef.of (T := ⟨S65536x64, .f32⟩) main_call4_v0) (TRef.of (T := ⟨S65536x64, .f32⟩) main_v88) maximumf,
    nullary main_cst_16 (constant S_ .f32 0x00000000#32),
    binary main_v88 main_cst_16 main_v89 ((fun x v => Host.reduceAdd x v reducesTo_S65536x64_S65536_d1 h_S_) : (⟨S65536x64, .f32⟩ : BufTy).Contents (Elt F) → (⟨S_, .f32⟩ : BufTy).Contents (Elt F) → (⟨S65536, .f32⟩ : BufTy).Contents (Elt F)),
    unary main_v89 main_v90 (broadcastInDim S65536x1 ![0] bcast_S65536_S65536x1_0 : (⟨S65536, .f32⟩ : BufTy).Contents (Elt F) → (⟨S65536x1, .f32⟩ : BufTy).Contents (Elt F)),
    nullary main_cst_17 (constant S_ .f32 0x42800000#32),
    unary main_cst_17 main_v91 (broadcastInDim S65536x1 ![] bcast_S_S65536x1 : (⟨S_, .f32⟩ : BufTy).Contents (Elt F) → (⟨S65536x1, .f32⟩ : BufTy).Contents (Elt F)),
    binary main_v90 main_v91 main_v92 (Host.divf : (⟨S65536x1, .f32⟩ : BufTy).Contents (Elt F) → (⟨S65536x1, .f32⟩ : BufTy).Contents (Elt F) → (⟨S65536x1, .f32⟩ : BufTy).Contents (Elt F)),
    unary main_v92 main_v93 (broadcastInDim S65536x64 ![0, 1] bcast_S65536x1_S65536x64_0_1 : (⟨S65536x1, .f32⟩ : BufTy).Contents (Elt F) → (⟨S65536x64, .f32⟩ : BufTy).Contents (Elt F)),
    binary main_v88 main_v93 main_v94 (subf : (⟨S65536x64, .f32⟩ : BufTy).Contents (Elt F) → (⟨S65536x64, .f32⟩ : BufTy).Contents (Elt F) → (⟨S65536x64, .f32⟩ : BufTy).Contents (Elt F)),
    binary main_v94 main_v94 main_v95 (mulf : (⟨S65536x64, .f32⟩ : BufTy).Contents (Elt F) → (⟨S65536x64, .f32⟩ : BufTy).Contents (Elt F) → (⟨S65536x64, .f32⟩ : BufTy).Contents (Elt F)),
    nullary main_cst_18 (constant S_ .f32 0x00000000#32),
    binary main_v95 main_cst_18 main_v96 ((fun x v => Host.reduceAdd x v reducesTo_S65536x64_S65536_d1 h_S_) : (⟨S65536x64, .f32⟩ : BufTy).Contents (Elt F) → (⟨S_, .f32⟩ : BufTy).Contents (Elt F) → (⟨S65536, .f32⟩ : BufTy).Contents (Elt F)),
    unary main_v96 main_v97 (broadcastInDim S65536x1 ![0] bcast_S65536_S65536x1_0 : (⟨S65536, .f32⟩ : BufTy).Contents (Elt F) → (⟨S65536x1, .f32⟩ : BufTy).Contents (Elt F)),
    nullary main_cst_19 (constant S_ .f32 0x42800000#32),
    unary main_cst_19 main_v98 (broadcastInDim S65536x1 ![] bcast_S_S65536x1 : (⟨S_, .f32⟩ : BufTy).Contents (Elt F) → (⟨S65536x1, .f32⟩ : BufTy).Contents (Elt F)),
    binary main_v97 main_v98 main_v99 (Host.divf : (⟨S65536x1, .f32⟩ : BufTy).Contents (Elt F) → (⟨S65536x1, .f32⟩ : BufTy).Contents (Elt F) → (⟨S65536x1, .f32⟩ : BufTy).Contents (Elt F)),
    unary main_v92 main_v100 (broadcastInDim S65536x64 ![0, 1] bcast_S65536x1_S65536x64_0_1 : (⟨S65536x1, .f32⟩ : BufTy).Contents (Elt F) → (⟨S65536x64, .f32⟩ : BufTy).Contents (Elt F)),
    binary main_v88 main_v100 main_v101 (subf : (⟨S65536x64, .f32⟩ : BufTy).Contents (Elt F) → (⟨S65536x64, .f32⟩ : BufTy).Contents (Elt F) → (⟨S65536x64, .f32⟩ : BufTy).Contents (Elt F)),
    nullary main_cst_20 (constant S_ .f32 0x3727C5AC#32),
    unary main_cst_20 main_v102 (broadcastInDim S65536x1 ![] bcast_S_S65536x1 : (⟨S_, .f32⟩ : BufTy).Contents (Elt F) → (⟨S65536x1, .f32⟩ : BufTy).Contents (Elt F)),
    binary main_v99 main_v102 main_v103 (addf : (⟨S65536x1, .f32⟩ : BufTy).Contents (Elt F) → (⟨S65536x1, .f32⟩ : BufTy).Contents (Elt F) → (⟨S65536x1, .f32⟩ : BufTy).Contents (Elt F)),
    unary main_v103 main_v104 (Host.rsqrt : (⟨S65536x1, .f32⟩ : BufTy).Contents (Elt F) → (⟨S65536x1, .f32⟩ : BufTy).Contents (Elt F)),
    unary main_v104 main_v105 (broadcastInDim S65536x64 ![0, 1] bcast_S65536x1_S65536x64_0_1 : (⟨S65536x1, .f32⟩ : BufTy).Contents (Elt F) → (⟨S65536x64, .f32⟩ : BufTy).Contents (Elt F)),
    binary main_v101 main_v105 main_v106 (mulf : (⟨S65536x64, .f32⟩ : BufTy).Contents (Elt F) → (⟨S65536x64, .f32⟩ : BufTy).Contents (Elt F) → (⟨S65536x64, .f32⟩ : BufTy).Contents (Elt F)),
    unary main_arg12 main_v107 (broadcastInDim S1x64 ![1] bcast_S64_S1x64_1 : (⟨S64, .f32⟩ : BufTy).Contents (Elt F) → (⟨S1x64, .f32⟩ : BufTy).Contents (Elt F)),
    unary main_v107 main_v108 (broadcastInDim S65536x64 ![0, 1] bcast_S1x64_S65536x64_0_1 : (⟨S1x64, .f32⟩ : BufTy).Contents (Elt F) → (⟨S65536x64, .f32⟩ : BufTy).Contents (Elt F)),
    binary main_v106 main_v108 main_v109 (mulf : (⟨S65536x64, .f32⟩ : BufTy).Contents (Elt F) → (⟨S65536x64, .f32⟩ : BufTy).Contents (Elt F) → (⟨S65536x64, .f32⟩ : BufTy).Contents (Elt F)),
    unary main_arg13 main_v110 (broadcastInDim S1x64 ![1] bcast_S64_S1x64_1 : (⟨S64, .f32⟩ : BufTy).Contents (Elt F) → (⟨S1x64, .f32⟩ : BufTy).Contents (Elt F)),
    unary main_v110 main_v111 (broadcastInDim S65536x64 ![0, 1] bcast_S1x64_S65536x64_0_1 : (⟨S1x64, .f32⟩ : BufTy).Contents (Elt F) → (⟨S65536x64, .f32⟩ : BufTy).Contents (Elt F)),
    binary main_v109 main_v111 main_v112 (addf : (⟨S65536x64, .f32⟩ : BufTy).Contents (Elt F) → (⟨S65536x64, .f32⟩ : BufTy).Contents (Elt F) → (⟨S65536x64, .f32⟩ : BufTy).Contents (Elt F)) ]

variable (W : Valuation τ sig (Elt F))

/-- The singleton of a listed reference lies among the listed references, as device buffers. -/
theorem single_sub_of_mem {L : List (Ref sig .tc)} {y : Ref sig .tc} (h : y ∈ L) :
    ({Proc.devRef (τ := τ) .tc y} : Finset (DevRef τ sig)) ⊆ (L.map (Proc.devRef (τ := τ) .tc)).toFinset :=
  Finset.singleton_subset_iff.mpr (List.mem_toFinset.mpr (List.mem_map.mpr ⟨y, h, rfl⟩))

/-- The references operations of stretch 1 write, in order. -/
abbrev wr1 : List (Ref sig .tc) := [main_v0, main_v1, main_v2, main_v3, main_cst, main_v4, main_v5, main_v6, main_v7, main_c, main_c_0, main_call0_v0, main_call0_v1, main_call0_v2, main_call0_v3, main_call0_v4, main_v8, main_cst_1, main_v9, main_v10, main_cst_2, main_v11, main_v12, main_v13, main_v14, main_call1_v0, main_call1_v1, main_call1_v2, main_call1_v3, main_call1_v4, main_v15, main_v16, main_v17, main_v18, main_cst_3, main_v19, main_cst_4, main_v20, main_v21, main_cst_5, main_v22, main_v23, main_v24, main_v25]

/-- Every operation of stretch 1 writes one of the listed references only. -/
theorem ops1_writes : (ops1 : List (HloOp τ sig (Elt F))).Forall fun op => op.writes ⊆ (wr1.map (Proc.devRef (τ := τ) .tc)).toFinset :=
  ⟨single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide)⟩

/-- The references operations of stretch 2 write, in order. -/
abbrev wr2 : List (Ref sig .tc) := [main_v26, main_v27, main_v28, main_v29, main_call2_cst, main_call2_v0, main_v30, main_cst_6, main_v31, main_v32, main_cst_7, main_v33, main_v34, main_v35, main_v36, main_v37, main_cst_8, main_v38, main_v39, main_cst_9, main_v40, main_v41, main_v42, main_v43, main_cst_10, main_v44, main_v45, main_v46, main_v47, main_v48, main_v49, main_v50, main_v51, main_v52, main_v53, main_v54]

/-- Every operation of stretch 2 writes one of the listed references only. -/
theorem ops2_writes : (ops2 : List (HloOp τ sig (Elt F))).Forall fun op => op.writes ⊆ (wr2.map (Proc.devRef (τ := τ) .tc)).toFinset :=
  ⟨single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide)⟩

/-- The references operations of stretch 3 write, in order. -/
abbrev wr3 : List (Ref sig .tc) := [main_v55, main_v56, main_v57, main_v58, main_call3_cst, main_call3_v0, main_v59, main_cst_11, main_v60, main_v61, main_cst_12, main_v62, main_v63, main_v64, main_v65, main_v66, main_cst_13, main_v67, main_v68, main_cst_14, main_v69, main_v70, main_v71, main_v72, main_cst_15, main_v73, main_v74, main_v75, main_v76, main_v77, main_v78, main_v79, main_v80, main_v81, main_v82, main_v83]

/-- Every operation of stretch 3 writes one of the listed references only. -/
theorem ops3_writes : (ops3 : List (HloOp τ sig (Elt F))).Forall fun op => op.writes ⊆ (wr3.map (Proc.devRef (τ := τ) .tc)).toFinset :=
  ⟨single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide)⟩

/-- The references operations of stretch 4 write, in order. -/
abbrev wr4 : List (Ref sig .tc) := [main_v84, main_v85, main_v86, main_v87, main_call4_cst, main_call4_v0, main_v88, main_cst_16, main_v89, main_v90, main_cst_17, main_v91, main_v92, main_v93, main_v94, main_v95, main_cst_18, main_v96, main_v97, main_cst_19, main_v98, main_v99, main_v100, main_v101, main_cst_20, main_v102, main_v103, main_v104, main_v105, main_v106, main_v107, main_v108, main_v109, main_v110, main_v111, main_v112]

/-- Every operation of stretch 4 writes one of the listed references only. -/
theorem ops4_writes : (ops4 : List (HloOp τ sig (Elt F))).Forall fun op => op.writes ⊆ (wr4.map (Proc.devRef (τ := τ) .tc)).toFinset :=
  ⟨single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide), single_sub_of_mem (by decide)⟩

/-- No argument buffer, nor the joined observation, nor the histogram encoder's output is written by a stretch that does not list it. -/
theorem arg_not_mem_wr1 : ∀ r ∈ argRefs, r ∉ wr1 := by decide
theorem keep_not_mem_wr2 : ∀ r ∈ main_v3 :: argRefs, r ∉ wr2 := by decide
theorem keep_not_mem_wr3 : ∀ r ∈ main_v3 :: argRefs, r ∉ wr3 := by decide
theorem keep_not_mem_wr4 : ∀ r ∈ main_v83 :: main_v3 :: argRefs, r ∉ wr4 := by decide

theorem ops1_v3 : after ops1 W (Proc.devRef .tc main_v3) = val_main_v3 (F := F) (W (Proc.devRef .tc main_arg0)) := by
  after_results_simp <;> rfl

theorem ops1_v25 : after ops1 W (Proc.devRef .tc main_v25) = val_main_v25 (F := F) (W (Proc.devRef .tc main_arg0)) := by
  after_results_simp <;> rfl

theorem ops1_keep (r : Ref sig .tc) (hr : r ∈ argRefs) : after ops1 W (Proc.devRef .tc r) = W (Proc.devRef .tc r) :=
  after_of_writes_sub ops1 W ops1_writes (arg_not_mem_wr1 r hr)

theorem ops2_v54 (x0 : (⟨S65536x512, .f32⟩ : BufTy).Contents (Elt F)) (x2 : (⟨S10x128, .f32⟩ : BufTy).Contents (Elt F)) (x3 x4 x5 : (⟨S128, .f32⟩ : BufTy).Contents (Elt F))
    (h25 : W (Proc.devRef .tc main_v25) = val_main_v25 (F := F) x0) (h2 : W (Proc.devRef .tc main_arg2) = x2) (h3 : W (Proc.devRef .tc main_arg3) = x3) (h4 : W (Proc.devRef .tc main_arg4) = x4) (h5 : W (Proc.devRef .tc main_arg5) = x5) :
    after ops2 W (Proc.devRef .tc main_v54) = val_main_v54 (F := F) x0 x2 x3 x4 x5 := by
  after_results_simp
  simp only [h25, h2, h3, h4, h5]
  rfl

theorem ops2_keep (r : Ref sig .tc) (hr : r ∈ argRefs ∨ r = main_v3) : after ops2 W (Proc.devRef .tc r) = W (Proc.devRef .tc r) :=
  after_of_writes_sub ops2 W ops2_writes (keep_not_mem_wr2 r (by
    rcases hr with hr | rfl
    · exact List.mem_cons_of_mem _ hr
    · exact List.mem_cons_self))

theorem ops3_v83 (x0 : (⟨S65536x512, .f32⟩ : BufTy).Contents (Elt F)) (x2 : (⟨S10x128, .f32⟩ : BufTy).Contents (Elt F)) (x3 x4 x5 : (⟨S128, .f32⟩ : BufTy).Contents (Elt F)) (x6 : (⟨S128x128, .f32⟩ : BufTy).Contents (Elt F)) (x7 x8 x9 : (⟨S128, .f32⟩ : BufTy).Contents (Elt F))
    (h54 : W (Proc.devRef .tc main_v54) = val_main_v54 (F := F) x0 x2 x3 x4 x5) (h6 : W (Proc.devRef .tc main_arg6) = x6) (h7 : W (Proc.devRef .tc main_arg7) = x7) (h8 : W (Proc.devRef .tc main_arg8) = x8) (h9 : W (Proc.devRef .tc main_arg9) = x9) :
    after ops3 W (Proc.devRef .tc main_v83) = val_main_v83 (F := F) x0 x2 x3 x4 x5 x6 x7 x8 x9 := by
  after_results_simp
  simp only [h54, h6, h7, h8, h9]
  rfl

theorem ops3_keep (r : Ref sig .tc) (hr : r ∈ argRefs ∨ r = main_v3) : after ops3 W (Proc.devRef .tc r) = W (Proc.devRef .tc r) :=
  after_of_writes_sub ops3 W ops3_writes (keep_not_mem_wr3 r (by
    rcases hr with hr | rfl
    · exact List.mem_cons_of_mem _ hr
    · exact List.mem_cons_self))

theorem ops4_v112 (x1 : (⟨S65536x2, .f32⟩ : BufTy).Contents (Elt F)) (x10 : (⟨S2x64, .f32⟩ : BufTy).Contents (Elt F)) (x11 x12 x13 : (⟨S64, .f32⟩ : BufTy).Contents (Elt F))
    (h1 : W (Proc.devRef .tc main_arg1) = x1) (h10 : W (Proc.devRef .tc main_arg10) = x10) (h11 : W (Proc.devRef .tc main_arg11) = x11) (h12 : W (Proc.devRef .tc main_arg12) = x12) (h13 : W (Proc.devRef .tc main_arg13) = x13) :
    after ops4 W (Proc.devRef .tc main_v112) = val_main_v112 (F := F) x1 x10 x11 x12 x13 := by
  after_results_simp
  simp only [h1, h10, h11, h12, h13]
  rfl

theorem ops4_keep (r : Ref sig .tc) (hr : r ∈ argRefs ∨ r = main_v3 ∨ r = main_v83) : after ops4 W (Proc.devRef .tc r) = W (Proc.devRef .tc r) :=
  after_of_writes_sub ops4 W ops4_writes (keep_not_mem_wr4 r (by
    rcases hr with hr | rfl | rfl
    · exact List.mem_cons_of_mem _ (List.mem_cons_of_mem _ hr)
    · exact List.mem_cons_of_mem _ List.mem_cons_self
    · exact List.mem_cons_self))

end Cert.ReferenceIdeal.RunP

end
-- ==== Proof.RefRunB.lean ====
/-
The reference's @main, second half, as a straight line of host operations: what the three-way join, the two layers of the
  shared trunk and the two heads with their stacking leave in their result buffers, each as the stage function of what
  the stretch reads, and that none of them writes an argument buffer.
-/
import proofs.«161807_j10033043603499_1_alg».proof.Proof.Gen.ReferenceIdeal
import proofs.«161807_j10033043603499_1_alg».proof.Proof.RefRead
import Idealize.ShloMosaic.Lib.StableHlo.Run

noncomputable section

namespace Cert.ReferenceIdeal.RunP

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- The 26 argument buffers. -/
abbrev argRefsB : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25]

/-- Operations 153 … 153 of @main's 236, in order. -/
abbrev ops5 : List (HloOp τ sig (Elt F)) :=
  [
    nary ![main_v3, main_v83, main_v112] main_v113 (fun u => concatenate S65536x640 1 [⟨S65536x448, u 0⟩, ⟨S65536x128, u 1⟩, ⟨S65536x64, u 2⟩] concatenates_S65536x448_S65536x128_S65536x64_S65536x640_d1) ]

/-- Operations 154 … 189 of @main's 236, in order. -/
abbrev ops6 : List (HloOp τ sig (Elt F)) :=
  [
    binary main_v113 main_arg14 main_v114 ((fun l r => Host.dotGeneral dot_S65536x640_S640x256_S65536x256_1_0_0_1_n_n none l r) : (⟨S65536x640, .f32⟩ : BufTy).Contents (Elt F) → (⟨S640x256, .f32⟩ : BufTy).Contents (Elt F) → (⟨S65536x256, .f32⟩ : BufTy).Contents (Elt F)),
    unary main_arg15 main_v115 (broadcastInDim S1x256 ![1] bcast_S256_S1x256_1 : (⟨S256, .f32⟩ : BufTy).Contents (Elt F) → (⟨S1x256, .f32⟩ : BufTy).Contents (Elt F)),
    unary main_v115 main_v116 (broadcastInDim S65536x256 ![0, 1] bcast_S1x256_S65536x256_0_1 : (⟨S1x256, .f32⟩ : BufTy).Contents (Elt F) → (⟨S65536x256, .f32⟩ : BufTy).Contents (Elt F)),
    binary main_v114 main_v116 main_v117 (addf : (⟨S65536x256, .f32⟩ : BufTy).Contents (Elt F) → (⟨S65536x256, .f32⟩ : BufTy).Contents (Elt F) → (⟨S65536x256, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S65536x256, .f32⟩) main_call5_v0) (broadcastInDim S65536x256 ![] bcast_S_S65536x256),
    TRef.binary (TRef.of (T := ⟨S65536x256, .f32⟩) main_v117) (TRef.of (T := ⟨S65536x256, .f32⟩) main_call5_v0) (TRef.of (T := ⟨S65536x256, .f32⟩) main_v118) maximumf,
    nullary main_cst_21 (constant S_ .f32 0x00000000#32),
    binary main_v118 main_cst_21 main_v119 ((fun x v => Host.reduceAdd x v reducesTo_S65536x256_S65536_d1 h_S_) : (⟨S65536x256, .f32⟩ : BufTy).Contents (Elt F) → (⟨S_, .f32⟩ : BufTy).Contents (Elt F) → (⟨S65536, .f32⟩ : BufTy).Contents (Elt F)),
    unary main_v119 main_v120 (broadcastInDim S65536x1 ![0] bcast_S65536_S65536x1_0 : (⟨S65536, .f32⟩ : BufTy).Contents (Elt F) → (⟨S65536x1, .f32⟩ : BufTy).Contents (Elt F)),
    nullary main_cst_22 (constant S_ .f32 0x43800000#32),
    unary main_cst_22 main_v121 (broadcastInDim S65536x1 ![] bcast_S_S65536x1 : (⟨S_, .f32⟩ : BufTy).Contents (Elt F) → (⟨S65536x1, .f32⟩ : BufTy).Contents (Elt F)),
    binary main_v120 main_v121 main_v122 (Host.divf : (⟨S65536x1, .f32⟩ : BufTy).Contents (Elt F) → (⟨S65536x1, .f32⟩ : BufTy).Contents (Elt F) → (⟨S65536x1, .f32⟩ : BufTy).Contents (Elt F)),
    unary main_v122 main_v123 (broadcastInDim S65536x256 ![0, 1] bcast_S65536x1_S65536x256_0_1 : (⟨S65536x1, .f32⟩ : BufTy).Contents (Elt F) → (⟨S65536x256, .f32⟩ : BufTy).Contents (Elt F)),
    binary main_v118 main_v123 main_v124 (subf : (⟨S65536x256, .f32⟩ : BufTy).Contents (Elt F) → (⟨S65536x256, .f32⟩ : BufTy).Contents (Elt F) → (⟨S65536x256, .f32⟩ : BufTy).Contents (Elt F)),
    binary main_v124 main_v124 main_v125 (mulf : (⟨S65536x256, .f32⟩ : BufTy).Contents (Elt F) → (⟨S65536x256, .f32⟩ : BufTy).Contents (Elt F) → (⟨S65536x256, .f32⟩ : BufTy).Contents (Elt F)),
    nullary main_cst_23 (constant S_ .f32 0x00000000#32),
    binary main_v125 main_cst_23 main_v126 ((fun x v => Host.reduceAdd x v reducesTo_S65536x256_S65536_d1 h_S_) : (⟨S65536x256, .f32⟩ : BufTy).Contents (Elt F) → (⟨S_, .f32⟩ : BufTy).Contents (Elt F) → (⟨S65536, .f32⟩ : BufTy).Contents (Elt F)),
    unary main_v126 main_v127 (broadcastInDim S65536x1 ![0] bcast_S65536_S65536x1_0 : (⟨S65536, .f32⟩ : BufTy).Contents (Elt F) → (⟨S65536x1, .f32⟩ : BufTy).Contents (Elt F)),
    nullary main_cst_24 (constant S_ .f32 0x43800000#32),
    unary main_cst_24 main_v128 (broadcastInDim S65536x1 ![] bcast_S_S65536x1 : (⟨S_, .f32⟩ : BufTy).Contents (Elt F) → (⟨S65536x1, .f32⟩ : BufTy).Contents (Elt F)),
    binary main_v127 main_v128 main_v129 (Host.divf : (⟨S65536x1, .f32⟩ : BufTy).Contents (Elt F) → (⟨S65536x1, .f32⟩ : BufTy).Contents (Elt F) → (⟨S65536x1, .f32⟩ : BufTy).Contents (Elt F)),
    unary main_v122 main_v130 (broadcastInDim S65536x256 ![0, 1] bcast_S65536x1_S65536x256_0_1 : (⟨S65536x1, .f32⟩ : BufTy).Contents (Elt F) → (⟨S65536x256, .f32⟩ : BufTy).Contents (Elt F)),
    binary main_v118 main_v130 main_v131 (subf : (⟨S65536x256, .f32⟩ : BufTy).Contents (Elt F) → (⟨S65536x256, .f32⟩ : BufTy).Contents (Elt F) → (⟨S65536x256, .f32⟩ : BufTy).Contents (Elt F)),
    nullary main_cst_25 (constant S_ .f32 0x3727C5AC#32),
    unary main_cst_25 main_v132 (broadcastInDim S65536x1 ![] bcast_S_S65536x1 : (⟨S_, .f32⟩ : BufTy).Contents (Elt F) → (⟨S65536x1, .f32⟩ : BufTy).Contents (Elt F)),
    binary main_v129 main_v132 main_v133 (addf : (⟨S65536x1, .f32⟩ : BufTy).Contents (Elt F) → (⟨S65536x1, .f32⟩ : BufTy).Contents (Elt F) → (⟨S65536x1, .f32⟩ : BufTy).Contents (Elt F)),
    unary main_v133 main_v134 (Host.rsqrt : (⟨S65536x1, .f32⟩ : BufTy).Contents (Elt F) → (⟨S65536x1, .f32⟩ : BufTy).Contents (Elt F)),
    unary main_v134 main_v135 (broadcastInDim S65536x256 ![0, 1] bcast_S65536x1_S65536x256_0_1 : (⟨S65536x1, .f32⟩ : BufTy).Contents (Elt F) → (⟨S65536x256, .f32⟩ : BufTy).Contents (Elt F)),
    binary main_v131 main_v135 main_v136 (mulf : (⟨S65536x256, .f32⟩ : BufTy).Contents (Elt F) → (⟨S65536x256, .f32⟩ : BufTy).Contents (Elt F) → (⟨S65536x256, .f32⟩ : BufTy).Contents (Elt F)),
    unary main_arg16 main_v137 (broadcastInDim S1x256 ![1] bcast_S256_S1x256_1 : (⟨S256, .f32⟩ : BufTy).Contents (Elt F) → (⟨S1x256, .f32⟩ : BufTy).Contents (Elt F)),
    unary main_v137 main_v138 (broadcastInDim S65536x256 ![0, 1] bcast_S1x256_S65536x256_0_1 : (⟨S1x256, .f32⟩ : BufTy).Contents (Elt F) → (⟨S65536x256, .f32⟩ : BufTy).Contents (Elt F)),
    binary main_v136 main_v138 main_v139 (mulf : (⟨S65536x256, .f32⟩ : BufTy).Contents (Elt F) → (⟨S65536x256, .f32⟩ : BufTy).Contents (Elt F) → (⟨S65536x256, .f32⟩ : BufTy).Contents (Elt F)),
    unary main_arg17 main_v140 (broadcastInDim S1x256 ![1] bcast_S256_S1x256_1 : (⟨S256, .f32⟩ : BufTy).Contents (Elt F) → (⟨S1x256, .f32⟩ : BufTy).Contents (Elt F)),
    unary main_v140 main_v141 (broadcastInDim S65536x256 ![0, 1] bcast_S1x256_S65536x256_0_1 : (⟨S1x256, .f32⟩ : BufTy).Contents (Elt F) → (⟨S65536x256, .f32⟩ : BufTy).Contents (Elt F)),
    binary main_v139 main_v141 main_v142 (addf : (⟨S65536x256, .f32⟩ : BufTy).Contents (Elt F) → (⟨S65536x256, .f32⟩ : BufTy).Contents (Elt F) → (⟨S65536x256, .f32⟩ : BufTy).Contents (Elt F)) ]

/-- Operations 190 … 225 of @main's 236, in order. -/
abbrev ops7 : List (HloOp τ sig (Elt F)) :=
  [
    binary main_v142 main_arg18 main_v143 ((fun l r => Host.dotGeneral dot_S65536x256_S256x256_S65536x256_1_0_0_1_n_n none l r) : (⟨S65536x256, .f32⟩ : BufTy).Contents (Elt F) → (⟨S256x256, .f32⟩ : BufTy).Contents (Elt F) → (⟨S65536x256, .f32⟩ : BufTy).Contents (Elt F)),
    unary main_arg19 main_v144 (broadcastInDim S1x256 ![1] bcast_S256_S1x256_1 : (⟨S256, .f32⟩ : BufTy).Contents (Elt F) → (⟨S1x256, .f32⟩ : BufTy).Contents (Elt F)),
    unary main_v144 main_v145 (broadcastInDim S65536x256 ![0, 1] bcast_S1x256_S65536x256_0_1 : (⟨S1x256, .f32⟩ : BufTy).Contents (Elt F) → (⟨S65536x256, .f32⟩ : BufTy).Contents (Elt F)),
    binary main_v143 main_v145 main_v146 (addf : (⟨S65536x256, .f32⟩ : BufTy).Contents (Elt F) → (⟨S65536x256, .f32⟩ : BufTy).Contents (Elt F) → (⟨S65536x256, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S65536x256, .f32⟩) main_call6_v0) (broadcastInDim S65536x256 ![] bcast_S_S65536x256),
    TRef.binary (TRef.of (T := ⟨S65536x256, .f32⟩) main_v146) (TRef.of (T := ⟨S65536x256, .f32⟩) main_call6_v0) (TRef.of (T := ⟨S65536x256, .f32⟩) main_v147) maximumf,
    nullary main_cst_26 (constant S_ .f32 0x00000000#32),
    binary main_v147 main_cst_26 main_v148 ((fun x v => Host.reduceAdd x v reducesTo_S65536x256_S65536_d1 h_S_) : (⟨S65536x256, .f32⟩ : BufTy).Contents (Elt F) → (⟨S_, .f32⟩ : BufTy).Contents (Elt F) → (⟨S65536, .f32⟩ : BufTy).Contents (Elt F)),
    unary main_v148 main_v149 (broadcastInDim S65536x1 ![0] bcast_S65536_S65536x1_0 : (⟨S65536, .f32⟩ : BufTy).Contents (Elt F) → (⟨S65536x1, .f32⟩ : BufTy).Contents (Elt F)),
    nullary main_cst_27 (constant S_ .f32 0x43800000#32),
    unary main_cst_27 main_v150 (broadcastInDim S65536x1 ![] bcast_S_S65536x1 : (⟨S_, .f32⟩ : BufTy).Contents (Elt F) → (⟨S65536x1, .f32⟩ : BufTy).Contents (Elt F)),
    binary main_v149 main_v150 main_v151 (Host.divf : (⟨S65536x1, .f32⟩ : BufTy).Contents (Elt F) → (⟨S65536x1, .f32⟩ : BufTy).Contents (Elt F) → (⟨S65536x1, .f32⟩ : BufTy).Contents (Elt F)),
    unary main_v151 main_v152 (broadcastInDim S65536x256 ![0, 1] bcast_S65536x1_S65536x256_0_1 : (⟨S65536x1, .f32⟩ : BufTy).Contents (Elt F) → (⟨S65536x256, .f32⟩ : BufTy).Contents (Elt F)),
    binary main_v147 main_v152 main_v153 (subf : (⟨S65536x256, .f32⟩ : BufTy).Contents (Elt F) → (⟨S65536x256, .f32⟩ : BufTy).Contents (Elt F) → (⟨S65536x256, .f32⟩ : BufTy).Contents (Elt F)),
    binary main_v153 main_v153 main_v154 (mulf : (⟨S65536x256, .f32⟩ : BufTy).Contents (Elt F) → (⟨S65536x256, .f32⟩ : BufTy).Contents (Elt F) → (⟨S65536x256, .f32⟩ : BufTy).Contents (Elt F)),
    nullary main_cst_28 (constant S_ .f32 0x00000000#32),
    binary main_v154 main_cst_28 main_v155 ((fun x v => Host.reduceAdd x v reducesTo_S65536x256_S65536_d1 h_S_) : (⟨S65536x256, .f32⟩ : BufTy).Contents (Elt F) → (⟨S_, .f32⟩ : BufTy).Contents (Elt F) → (⟨S65536, .f32⟩ : BufTy).Contents (Elt F)),
    unary main_v155 main_v156 (broadcastInDim S65536x1 ![0] bcast_S65536_S65536x1_0 : (⟨S65536, .f32⟩ : BufTy).Contents (Elt F) → (⟨S65536x1, .f32⟩ : BufTy).Contents (Elt F)),
    nullary main_cst_29 (constant S_ .f32 0x43800000#32),
    unary main_cst_29 main_v157 (broadcastInDim S65536x1 ![] bcast_S_S65536x1 : (⟨S_, .f32⟩ : BufTy).Contents (Elt F) → (⟨S65536x1, .f32⟩ : BufTy).Contents (Elt F)),
    binary main_v156 main_v157 main_v158 (Host.divf : (⟨S65536x1, .f32⟩ : BufTy).Contents (Elt F) → (⟨S65536x1, .f32⟩ : BufTy).Contents (Elt F) → (⟨S65536x1, .f32⟩ : BufTy).Contents (Elt F)),
    unary main_v151 main_v159 (broadcastInDim S65536x256 ![0, 1] bcast_S65536x1_S65536x256_0_1 : (⟨S65536x1, .f32⟩ : BufTy).Contents (Elt F) → (⟨S65536x256, .f32⟩ : BufTy).Contents (Elt F)),
    binary main_v147 main_v159 main_v160 (subf : (⟨S65536x256, .f32⟩ : BufTy).Contents (Elt F) → (⟨S65536x256, .f32⟩ : BufTy).Contents (Elt F) → (⟨S65536x256, .f32⟩ : BufTy).Contents (Elt F)),
    nullary main_cst_30 (constant S_ .f32 0x3727C5AC#32),
    unary main_cst_30 main_v161 (broadcastInDim S65536x1 ![] bcast_S_S65536x1 : (⟨S_, .f32⟩ : BufTy).Contents (Elt F) → (⟨S65536x1, .f32⟩ : BufTy).Contents (Elt F)),
    binary main_v158 main_v161 main_v162 (addf : (⟨S65536x1, .f32⟩ : BufTy).Contents (Elt F) → (⟨S65536x1, .f32⟩ : BufTy).Contents (Elt F) → (⟨S65536x1, .f32⟩ : BufTy).Contents (Elt F)),
    unary main_v162 main_v163 (Host.rsqrt : (⟨S65536x1, .f32⟩ : BufTy).Contents (Elt F) → (⟨S65536x1, .f32⟩ : BufTy).Contents (Elt F)),
    unary main_v163 main_v164 (broadcastInDim S65536x256 ![0, 1] bcast_S65536x1_S65536x256_0_1 : (⟨S65536x1, .f32⟩ : BufTy).Contents (Elt F) → (⟨S65536x256, .f32⟩ : BufTy).Contents (Elt F)),
    binary main_v160 main_v164 main_v165 (mulf : (⟨S65536x256, .f32⟩ : BufTy).Contents (Elt F) → (⟨S65536x256, .f32⟩ : BufTy).Contents (Elt F) → (⟨S65536x256, .f32⟩ : BufTy).Contents (Elt F)),
    unary main_arg20 main_v166 (broadcastInDim S1x256 ![1] bcast_S256_S1x256_1 : (⟨S256, .f32⟩ : BufTy).Contents (Elt F) → (⟨S1x256, .f32⟩ : BufTy).Contents (Elt F)),
    unary main_v166 main_v167 (broadcastInDim S65536x256 ![0, 1] bcast_S1x256_S65536x256_0_1 : (⟨S1x256, .f32⟩ : BufTy).Contents (Elt F) → (⟨S65536x256, .f32⟩ : BufTy).Contents (Elt F)),
    binary main_v165 main_v167 main_v168 (mulf : (⟨S65536x256, .f32⟩ : BufTy).Contents (Elt F) → (⟨S65536x256, .f32⟩ : BufTy).Contents (Elt F) → (⟨S65536x256, .f32⟩ : BufTy).Contents (Elt F)),
    unary main_arg21 main_v169 (broadcastInDim S1x256 ![1] bcast_S256_S1x256_1 : (⟨S256, .f32⟩ : BufTy).Contents (Elt F) → (⟨S1x256, .f32⟩ : BufTy).Contents (Elt F)),
    unary main_v169 main_v170 (broadcastInDim S65536x256 ![0, 1] bcast_S1x256_S65536x256_0_1 : (⟨S1x256, .f32⟩ : BufTy).Contents (Elt F) → (⟨S65536x256, .f32⟩ : BufTy).Contents (Elt F)),
    binary main_v168 main_v170 main_v171 (addf : (⟨S65536x256, .f32⟩ : BufTy).Contents (Elt F) → (⟨S65536x256, .f32⟩ : BufTy).Contents (Elt F) → (⟨S65536x256, .f32⟩ : BufTy).Contents (Elt F)) ]

/-- Operations 226 … 236 of @main's 236, in order. -/
abbrev ops8 : List (HloOp τ sig (Elt F)) :=
  [
    binary main_v171 main_arg22 main_v172 ((fun l r => Host.dotGeneral dot_S65536x256_S256x64_S65536x64_1_0_0_1_n_n none l r) : (⟨S65536x256, .f32⟩ : BufTy).Contents (Elt F) → (⟨S256x64, .f32⟩ : BufTy).Contents (Elt F) → (⟨S65536x64, .f32⟩ : BufTy).Contents (Elt F)),
    unary main_arg23 main_v173 (broadcastInDim S1x64 ![1] bcast_S64_S1x64_1 : (⟨S64, .f32⟩ : BufTy).Contents (Elt F) → (⟨S1x64, .f32⟩ : BufTy).Contents (Elt F)),
    unary main_v173 main_v174 (broadcastInDim S65536x64 ![0, 1] bcast_S1x64_S65536x64_0_1 : (⟨S1x64, .f32⟩ : BufTy).Contents (Elt F) → (⟨S65536x64, .f32⟩ : BufTy).Contents (Elt F)),
    binary main_v172 main_v174 main_v175 (addf : (⟨S65536x64, .f32⟩ : BufTy).Contents (Elt F) → (⟨S65536x64, .f32⟩ : BufTy).Contents (Elt F) → (⟨S65536x64, .f32⟩ : BufTy).Contents (Elt F)),
    binary main_v171 main_arg24 main_v176 ((fun l r => Host.dotGeneral dot_S65536x256_S256x64_S65536x64_1_0_0_1_n_n none l r) : (⟨S65536x256, .f32⟩ : BufTy).Contents (Elt F) → (⟨S256x64, .f32⟩ : BufTy).Contents (Elt F) → (⟨S65536x64, .f32⟩ : BufTy).Contents (Elt F)),
    unary main_arg25 main_v177 (broadcastInDim S1x64 ![1] bcast_S64_S1x64_1 : (⟨S64, .f32⟩ : BufTy).Contents (Elt F) → (⟨S1x64, .f32⟩ : BufTy).Contents (Elt F)),
    unary main_v177 main_v178 (broadcastInDim S65536x64 ![0, 1] bcast_S1x64_S65536x64_0_1 : (⟨S1x64, .f32⟩ : BufTy).Contents (Elt F) → (⟨S65536x64, .f32⟩ : BufTy).Contents (Elt F)),
    binary main_v176 main_v178 main_v179 (addf : (⟨S65536x64, .f32⟩ : BufTy).Contents (Elt F) → (⟨S65536x64, .f32⟩ : BufTy).Contents (Elt F) → (⟨S65536x64, .f32⟩ : BufTy).Contents (Elt F)),
    unary main_v175 main_v180 (broadcastInDim S65536x64x1 ![0, 1] bcast_S65536x64_S65536x64x1_0_1 : (⟨S65536x64, .f32⟩ : BufTy).Contents (Elt F) → (⟨S65536x64x1, .f32⟩ : BufTy).Contents (Elt F)),
    unary main_v179 main_v181 (broadcastInDim S65536x64x1 ![0, 1] bcast_S65536x64_S65536x64x1_0_1 : (⟨S65536x64, .f32⟩ : BufTy).Contents (Elt F) → (⟨S65536x64x1, .f32⟩ : BufTy).Contents (Elt F)),
    binary main_v180 main_v181 main_v182 ((fun a b => concatenate S65536x64x2 2 [⟨S65536x64x1, a⟩, ⟨S65536x64x1, b⟩] concatenates_S65536x64x1_S65536x64x1_S65536x64x2_d2) : (⟨S65536x64x1, .f32⟩ : BufTy).Contents (Elt F) → (⟨S65536x64x1, .f32⟩ : BufTy).Contents (Elt F) → (⟨S65536x64x2, .f32⟩ : BufTy).Contents (Elt F)) ]

/-- A one-reference write set lies in the image of any list of references that holds the reference. -/
theorem single_sub_of_mem {L : List (Ref sig .tc)} {y : Ref sig .tc} (h : y ∈ L) :
    ({Proc.devRef (τ := τ) .tc y} : Finset (DevRef τ sig)) ⊆ (L.map (Proc.devRef (τ := τ) .tc)).toFinset :=
  Finset.singleton_subset_iff.mpr (List.mem_toFinset.mpr (List.mem_map_of_mem h))

/-- The references the operations of `ops5` write, in order. -/
abbrev wr5 : List (Ref sig .tc) := [main_v113]

/-- Each operation of `ops5` writes one reference of `wr5`. -/
theorem ops5_writes : (ops5 (F := F)).Forall fun op => op.writes ⊆ ((wr5).map (Proc.devRef (τ := τ) .tc)).toFinset :=
  single_sub_of_mem (y := main_v113) (by decide)

/-- No argument buffer is among the references `ops5` writes. -/
theorem argRefsB_not_wr5 : ∀ r ∈ argRefsB, r ∉ wr5 := by decide

/-- The references the operations of `ops6` write, in order. -/
abbrev wr6 : List (Ref sig .tc) := [main_v114, main_v115, main_v116, main_v117, main_call5_cst, main_call5_v0, main_v118, main_cst_21, main_v119, main_v120, main_cst_22, main_v121, main_v122, main_v123, main_v124, main_v125, main_cst_23, main_v126, main_v127, main_cst_24, main_v128, main_v129, main_v130, main_v131, main_cst_25, main_v132, main_v133, main_v134, main_v135, main_v136, main_v137, main_v138, main_v139, main_v140, main_v141, main_v142]

/-- Each operation of `ops6` writes one reference of `wr6`. -/
theorem ops6_writes : (ops6 (F := F)).Forall fun op => op.writes ⊆ ((wr6).map (Proc.devRef (τ := τ) .tc)).toFinset :=
  ⟨single_sub_of_mem (y := main_v114) (by decide),
   single_sub_of_mem (y := main_v115) (by decide),
   single_sub_of_mem (y := main_v116) (by decide),
   single_sub_of_mem (y := main_v117) (by decide),
   single_sub_of_mem (y := main_call5_cst) (by decide),
   single_sub_of_mem (y := main_call5_v0) (by decide),
   single_sub_of_mem (y := main_v118) (by decide),
   single_sub_of_mem (y := main_cst_21) (by decide),
   single_sub_of_mem (y := main_v119) (by decide),
   single_sub_of_mem (y := main_v120) (by decide),
   single_sub_of_mem (y := main_cst_22) (by decide),
   single_sub_of_mem (y := main_v121) (by decide),
   single_sub_of_mem (y := main_v122) (by decide),
   single_sub_of_mem (y := main_v123) (by decide),
   single_sub_of_mem (y := main_v124) (by decide),
   single_sub_of_mem (y := main_v125) (by decide),
   single_sub_of_mem (y := main_cst_23) (by decide),
   single_sub_of_mem (y := main_v126) (by decide),
   single_sub_of_mem (y := main_v127) (by decide),
   single_sub_of_mem (y := main_cst_24) (by decide),
   single_sub_of_mem (y := main_v128) (by decide),
   single_sub_of_mem (y := main_v129) (by decide),
   single_sub_of_mem (y := main_v130) (by decide),
   single_sub_of_mem (y := main_v131) (by decide),
   single_sub_of_mem (y := main_cst_25) (by decide),
   single_sub_of_mem (y := main_v132) (by decide),
   single_sub_of_mem (y := main_v133) (by decide),
   single_sub_of_mem (y := main_v134) (by decide),
   single_sub_of_mem (y := main_v135) (by decide),
   single_sub_of_mem (y := main_v136) (by decide),
   single_sub_of_mem (y := main_v137) (by decide),
   single_sub_of_mem (y := main_v138) (by decide),
   single_sub_of_mem (y := main_v139) (by decide),
   single_sub_of_mem (y := main_v140) (by decide),
   single_sub_of_mem (y := main_v141) (by decide),
   single_sub_of_mem (y := main_v142) (by decide)⟩

/-- No argument buffer is among the references `ops6` writes. -/
theorem argRefsB_not_wr6 : ∀ r ∈ argRefsB, r ∉ wr6 := by decide

/-- The references the operations of `ops7` write, in order. -/
abbrev wr7 : List (Ref sig .tc) := [main_v143, main_v144, main_v145, main_v146, main_call6_cst, main_call6_v0, main_v147, main_cst_26, main_v148, main_v149, main_cst_27, main_v150, main_v151, main_v152, main_v153, main_v154, main_cst_28, main_v155, main_v156, main_cst_29, main_v157, main_v158, main_v159, main_v160, main_cst_30, main_v161, main_v162, main_v163, main_v164, main_v165, main_v166, main_v167, main_v168, main_v169, main_v170, main_v171]

/-- Each operation of `ops7` writes one reference of `wr7`. -/
theorem ops7_writes : (ops7 (F := F)).Forall fun op => op.writes ⊆ ((wr7).map (Proc.devRef (τ := τ) .tc)).toFinset :=
  ⟨single_sub_of_mem (y := main_v143) (by decide),
   single_sub_of_mem (y := main_v144) (by decide),
   single_sub_of_mem (y := main_v145) (by decide),
   single_sub_of_mem (y := main_v146) (by decide),
   single_sub_of_mem (y := main_call6_cst) (by decide),
   single_sub_of_mem (y := main_call6_v0) (by decide),
   single_sub_of_mem (y := main_v147) (by decide),
   single_sub_of_mem (y := main_cst_26) (by decide),
   single_sub_of_mem (y := main_v148) (by decide),
   single_sub_of_mem (y := main_v149) (by decide),
   single_sub_of_mem (y := main_cst_27) (by decide),
   single_sub_of_mem (y := main_v150) (by decide),
   single_sub_of_mem (y := main_v151) (by decide),
   single_sub_of_mem (y := main_v152) (by decide),
   single_sub_of_mem (y := main_v153) (by decide),
   single_sub_of_mem (y := main_v154) (by decide),
   single_sub_of_mem (y := main_cst_28) (by decide),
   single_sub_of_mem (y := main_v155) (by decide),
   single_sub_of_mem (y := main_v156) (by decide),
   single_sub_of_mem (y := main_cst_29) (by decide),
   single_sub_of_mem (y := main_v157) (by decide),
   single_sub_of_mem (y := main_v158) (by decide),
   single_sub_of_mem (y := main_v159) (by decide),
   single_sub_of_mem (y := main_v160) (by decide),
   single_sub_of_mem (y := main_cst_30) (by decide),
   single_sub_of_mem (y := main_v161) (by decide),
   single_sub_of_mem (y := main_v162) (by decide),
   single_sub_of_mem (y := main_v163) (by decide),
   single_sub_of_mem (y := main_v164) (by decide),
   single_sub_of_mem (y := main_v165) (by decide),
   single_sub_of_mem (y := main_v166) (by decide),
   single_sub_of_mem (y := main_v167) (by decide),
   single_sub_of_mem (y := main_v168) (by decide),
   single_sub_of_mem (y := main_v169) (by decide),
   single_sub_of_mem (y := main_v170) (by decide),
   single_sub_of_mem (y := main_v171) (by decide)⟩

/-- No argument buffer is among the references `ops7` writes. -/
theorem argRefsB_not_wr7 : ∀ r ∈ argRefsB, r ∉ wr7 := by decide

/-- The references the operations of `ops8` write, in order. -/
abbrev wr8 : List (Ref sig .tc) := [main_v172, main_v173, main_v174, main_v175, main_v176, main_v177, main_v178, main_v179, main_v180, main_v181, main_v182]

/-- Each operation of `ops8` writes one reference of `wr8`. -/
theorem ops8_writes : (ops8 (F := F)).Forall fun op => op.writes ⊆ ((wr8).map (Proc.devRef (τ := τ) .tc)).toFinset :=
  ⟨single_sub_of_mem (y := main_v172) (by decide),
   single_sub_of_mem (y := main_v173) (by decide),
   single_sub_of_mem (y := main_v174) (by decide),
   single_sub_of_mem (y := main_v175) (by decide),
   single_sub_of_mem (y := main_v176) (by decide),
   single_sub_of_mem (y := main_v177) (by decide),
   single_sub_of_mem (y := main_v178) (by decide),
   single_sub_of_mem (y := main_v179) (by decide),
   single_sub_of_mem (y := main_v180) (by decide),
   single_sub_of_mem (y := main_v181) (by decide),
   single_sub_of_mem (y := main_v182) (by decide)⟩

/-- No argument buffer is among the references `ops8` writes. -/
theorem argRefsB_not_wr8 : ∀ r ∈ argRefsB, r ∉ wr8 := by decide

variable (W : Valuation τ sig (Elt F))

theorem ops5_v113 (x0 : (⟨S65536x512, .f32⟩ : BufTy).Contents (Elt F)) (x1 : (⟨S65536x2, .f32⟩ : BufTy).Contents (Elt F)) (x2 : (⟨S10x128, .f32⟩ : BufTy).Contents (Elt F)) (x3 x4 x5 : (⟨S128, .f32⟩ : BufTy).Contents (Elt F)) (x6 : (⟨S128x128, .f32⟩ : BufTy).Contents (Elt F)) (x7 x8 x9 : (⟨S128, .f32⟩ : BufTy).Contents (Elt F)) (x10 : (⟨S2x64, .f32⟩ : BufTy).Contents (Elt F)) (x11 x12 x13 : (⟨S64, .f32⟩ : BufTy).Contents (Elt F))
    (h3 : W (Proc.devRef .tc main_v3) = val_main_v3 (F := F) x0) (h83 : W (Proc.devRef .tc main_v83) = val_main_v83 (F := F) x0 x2 x3 x4 x5 x6 x7 x8 x9)
    (h112 : W (Proc.devRef .tc main_v112) = val_main_v112 (F := F) x1 x10 x11 x12 x13) :
    after ops5 W (Proc.devRef .tc main_v113) = val_main_v113 (F := F) x0 x1 x2 x3 x4 x5 x6 x7 x8 x9 x10 x11 x12 x13 := by
  rw [after_cons, after_nil, nary_result]
  show concatenate S65536x640 1 [⟨S65536x448, W (Proc.devRef .tc main_v3)⟩, ⟨S65536x128, W (Proc.devRef .tc main_v83)⟩, ⟨S65536x64, W (Proc.devRef .tc main_v112)⟩] concatenates_S65536x448_S65536x128_S65536x64_S65536x640_d1 = _
  rw [h3, h83, h112]
  rfl

theorem ops5_keep (r : Ref sig .tc) (hr : r ∈ argRefsB) : after ops5 W (Proc.devRef .tc r) = W (Proc.devRef .tc r) := by
  exact after_of_writes_sub ops5 W ops5_writes (argRefsB_not_wr5 r hr)

theorem ops6_v142 (x0 : (⟨S65536x512, .f32⟩ : BufTy).Contents (Elt F)) (x1 : (⟨S65536x2, .f32⟩ : BufTy).Contents (Elt F)) (x2 : (⟨S10x128, .f32⟩ : BufTy).Contents (Elt F)) (x3 x4 x5 : (⟨S128, .f32⟩ : BufTy).Contents (Elt F)) (x6 : (⟨S128x128, .f32⟩ : BufTy).Contents (Elt F)) (x7 x8 x9 : (⟨S128, .f32⟩ : BufTy).Contents (Elt F)) (x10 : (⟨S2x64, .f32⟩ : BufTy).Contents (Elt F)) (x11 x12 x13 : (⟨S64, .f32⟩ : BufTy).Contents (Elt F)) (x14 : (⟨S640x256, .f32⟩ : BufTy).Contents (Elt F)) (x15 x16 x17 : (⟨S256, .f32⟩ : BufTy).Contents (Elt F))
    (h113 : W (Proc.devRef .tc main_v113) = val_main_v113 (F := F) x0 x1 x2 x3 x4 x5 x6 x7 x8 x9 x10 x11 x12 x13) (h14 : W (Proc.devRef .tc main_arg14) = x14) (h15 : W (Proc.devRef .tc main_arg15) = x15) (h16 : W (Proc.devRef .tc main_arg16) = x16) (h17 : W (Proc.devRef .tc main_arg17) = x17) :
    after ops6 W (Proc.devRef .tc main_v142) = val_main_v142 (F := F) x0 x1 x2 x3 x4 x5 x6 x7 x8 x9 x10 x11 x12 x13 x14 x15 x16 x17 := by
  after_results_simp
  rw [h113, h14, h15, h16, h17]
  rfl

theorem ops6_keep (r : Ref sig .tc) (hr : r ∈ argRefsB) : after ops6 W (Proc.devRef .tc r) = W (Proc.devRef .tc r) := by
  exact after_of_writes_sub ops6 W ops6_writes (argRefsB_not_wr6 r hr)

theorem ops7_v171 (x0 : (⟨S65536x512, .f32⟩ : BufTy).Contents (Elt F)) (x1 : (⟨S65536x2, .f32⟩ : BufTy).Contents (Elt F)) (x2 : (⟨S10x128, .f32⟩ : BufTy).Contents (Elt F)) (x3 x4 x5 : (⟨S128, .f32⟩ : BufTy).Contents (Elt F)) (x6 : (⟨S128x128, .f32⟩ : BufTy).Contents (Elt F)) (x7 x8 x9 : (⟨S128, .f32⟩ : BufTy).Contents (Elt F)) (x10 : (⟨S2x64, .f32⟩ : BufTy).Contents (Elt F)) (x11 x12 x13 : (⟨S64, .f32⟩ : BufTy).Contents (Elt F)) (x14 : (⟨S640x256, .f32⟩ : BufTy).Contents (Elt F)) (x15 x16 x17 : (⟨S256, .f32⟩ : BufTy).Contents (Elt F)) (x18 : (⟨S256x256, .f32⟩ : BufTy).Contents (Elt F)) (x19 x20 x21 : (⟨S256, .f32⟩ : BufTy).Contents (Elt F))
    (h142 : W (Proc.devRef .tc main_v142) = val_main_v142 (F := F) x0 x1 x2 x3 x4 x5 x6 x7 x8 x9 x10 x11 x12 x13 x14 x15 x16 x17) (h18 : W (Proc.devRef .tc main_arg18) = x18) (h19 : W (Proc.devRef .tc main_arg19) = x19) (h20 : W (Proc.devRef .tc main_arg20) = x20) (h21 : W (Proc.devRef .tc main_arg21) = x21) :
    after ops7 W (Proc.devRef .tc main_v171) = val_main_v171 (F := F) x0 x1 x2 x3 x4 x5 x6 x7 x8 x9 x10 x11 x12 x13 x14 x15 x16 x17 x18 x19 x20 x21 := by
  after_results_simp
  rw [h142, h18, h19, h20, h21]
  rfl

theorem ops7_keep (r : Ref sig .tc) (hr : r ∈ argRefsB) : after ops7 W (Proc.devRef .tc r) = W (Proc.devRef .tc r) := by
  exact after_of_writes_sub ops7 W ops7_writes (argRefsB_not_wr7 r hr)

theorem ops8_v182 (x0 : (⟨S65536x512, .f32⟩ : BufTy).Contents (Elt F)) (x1 : (⟨S65536x2, .f32⟩ : BufTy).Contents (Elt F)) (x2 : (⟨S10x128, .f32⟩ : BufTy).Contents (Elt F)) (x3 x4 x5 : (⟨S128, .f32⟩ : BufTy).Contents (Elt F)) (x6 : (⟨S128x128, .f32⟩ : BufTy).Contents (Elt F)) (x7 x8 x9 : (⟨S128, .f32⟩ : BufTy).Contents (Elt F)) (x10 : (⟨S2x64, .f32⟩ : BufTy).Contents (Elt F)) (x11 x12 x13 : (⟨S64, .f32⟩ : BufTy).Contents (Elt F)) (x14 : (⟨S640x256, .f32⟩ : BufTy).Contents (Elt F)) (x15 x16 x17 : (⟨S256, .f32⟩ : BufTy).Contents (Elt F)) (x18 : (⟨S256x256, .f32⟩ : BufTy).Contents (Elt F)) (x19 x20 x21 : (⟨S256, .f32⟩ : BufTy).Contents (Elt F)) (x22 : (⟨S256x64, .f32⟩ : BufTy).Contents (Elt F)) (x23 : (⟨S64, .f32⟩ : BufTy).Contents (Elt F)) (x24 : (⟨S256x64, .f32⟩ : BufTy).Contents (Elt F)) (x25 : (⟨S64, .f32⟩ : BufTy).Contents (Elt F))
    (h171 : W (Proc.devRef .tc main_v171) = val_main_v171 (F := F) x0 x1 x2 x3 x4 x5 x6 x7 x8 x9 x10 x11 x12 x13 x14 x15 x16 x17 x18 x19 x20 x21) (h22 : W (Proc.devRef .tc main_arg22) = x22) (h23 : W (Proc.devRef .tc main_arg23) = x23) (h24 : W (Proc.devRef .tc main_arg24) = x24) (h25 : W (Proc.devRef .tc main_arg25) = x25) :
    after ops8 W (Proc.devRef .tc main_v182) = val_main_v182 (F := F) x0 x1 x2 x3 x4 x5 x6 x7 x8 x9 x10 x11 x12 x13 x14 x15 x16 x17 x18 x19 x20 x21 x22 x23 x24 x25 := by
  after_results
  rw [h171, h22, h23, h24, h25]
  rfl

theorem ops8_keep (r : Ref sig .tc) (hr : r ∈ argRefsB) : after ops8 W (Proc.devRef .tc r) = W (Proc.devRef .tc r) := by
  exact after_of_writes_sub ops8 W ops8_writes (argRefsB_not_wr8 r hr)

end Cert.ReferenceIdeal.RunP

end
-- ==== Proof.RefRun.lean ====
/-
The reference's run, read back.  @main is a straight line of 236 host operations; cut into eight stretches, each stretch
  leaves in its result buffer the stage function of what it reads and writes no buffer a later stretch or the caller still
  reads, so the whole line leaves the result buffer at the last stage function of the argument buffers and every argument
  buffer as it was.  Every weakly fair execution of a straight line of host operations terminates in that state.
-/
import proofs.«161807_j10033043603499_1_alg».proof.Proof.RefOps
import proofs.«161807_j10033043603499_1_alg».proof.Proof.RefRunA
import proofs.«161807_j10033043603499_1_alg».proof.Proof.RefRunB
import Idealize.ShloMosaic.Lib.StableHlo.Run

noncomputable section

namespace Cert.ReferenceIdeal.RunP

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- Running two lines one after the other. -/
theorem after_append (l₁ l₂ : List (HloOp τ sig (Elt F))) (V : Valuation τ sig (Elt F)) :
    after (l₁ ++ l₂) V = after l₂ (after l₁ V) := by
  induction l₁ generalizing V with
  | nil => rfl
  | cons op l ih => rw [List.cons_append, after_cons, after_cons]; exact ih _

/-- The operation list is the eight stretches in order. -/
theorem ops_split : (OpsP.ops : List (HloOp τ sig (Elt F)))
    = ops1 ++ (ops2 ++ (ops3 ++ (ops4 ++ (ops5 ++ (ops6 ++ (ops7 ++ ops8)))))) := by
  rfl

/-- Eight lines run one after the other. -/
theorem asm_after_split8 (l₁ l₂ l₃ l₄ l₅ l₆ l₇ l₈ : List (HloOp τ sig (Elt F))) (V : Valuation τ sig (Elt F)) :
    after (l₁ ++ (l₂ ++ (l₃ ++ (l₄ ++ (l₅ ++ (l₆ ++ (l₇ ++ l₈))))))) V
      = after l₈ (after l₇ (after l₆ (after l₅ (after l₄ (after l₃ (after l₂ (after l₁ V))))))) := by
  rw [after_append, after_append, after_append, after_append, after_append, after_append, after_append]

/-- The whole line is the eight stretches run in order. -/
theorem asm_after_ops (V : Valuation τ sig (Elt F)) :
    after OpsP.ops V
      = after ops8 (after ops7 (after ops6 (after ops5 (after ops4 (after ops3 (after ops2 (after ops1 V))))))) :=
  (congrArg (fun l : List (HloOp τ sig (Elt F)) => after l V) ops_split).trans (asm_after_split8 _ _ _ _ _ _ _ _ V)

theorem asm_mem0 : main_arg0 ∈ (argRefs : List (Ref sig .tc)) := by decide
theorem asm_mem1 : main_arg1 ∈ (argRefs : List (Ref sig .tc)) := by decide
theorem asm_mem2 : main_arg2 ∈ (argRefs : List (Ref sig .tc)) := by decide
theorem asm_mem3 : main_arg3 ∈ (argRefs : List (Ref sig .tc)) := by decide
theorem asm_mem4 : main_arg4 ∈ (argRefs : List (Ref sig .tc)) := by decide
theorem asm_mem5 : main_arg5 ∈ (argRefs : List (Ref sig .tc)) := by decide
theorem asm_mem6 : main_arg6 ∈ (argRefs : List (Ref sig .tc)) := by decide
theorem asm_mem7 : main_arg7 ∈ (argRefs : List (Ref sig .tc)) := by decide
theorem asm_mem8 : main_arg8 ∈ (argRefs : List (Ref sig .tc)) := by decide
theorem asm_mem9 : main_arg9 ∈ (argRefs : List (Ref sig .tc)) := by decide
theorem asm_mem10 : main_arg10 ∈ (argRefs : List (Ref sig .tc)) := by decide
theorem asm_mem11 : main_arg11 ∈ (argRefs : List (Ref sig .tc)) := by decide
theorem asm_mem12 : main_arg12 ∈ (argRefs : List (Ref sig .tc)) := by decide
theorem asm_mem13 : main_arg13 ∈ (argRefs : List (Ref sig .tc)) := by decide
theorem asm_mem14 : main_arg14 ∈ (argRefs : List (Ref sig .tc)) := by decide
theorem asm_mem15 : main_arg15 ∈ (argRefs : List (Ref sig .tc)) := by decide
theorem asm_mem16 : main_arg16 ∈ (argRefs : List (Ref sig .tc)) := by decide
theorem asm_mem17 : main_arg17 ∈ (argRefs : List (Ref sig .tc)) := by decide
theorem asm_mem18 : main_arg18 ∈ (argRefs : List (Ref sig .tc)) := by decide
theorem asm_mem19 : main_arg19 ∈ (argRefs : List (Ref sig .tc)) := by decide
theorem asm_mem20 : main_arg20 ∈ (argRefs : List (Ref sig .tc)) := by decide
theorem asm_mem21 : main_arg21 ∈ (argRefs : List (Ref sig .tc)) := by decide
theorem asm_mem22 : main_arg22 ∈ (argRefs : List (Ref sig .tc)) := by decide
theorem asm_mem23 : main_arg23 ∈ (argRefs : List (Ref sig .tc)) := by decide
theorem asm_mem24 : main_arg24 ∈ (argRefs : List (Ref sig .tc)) := by decide
theorem asm_mem25 : main_arg25 ∈ (argRefs : List (Ref sig .tc)) := by decide

/-- The eight stretches chained: each valuation is the previous one after one stretch; the argument buffers are kept
    throughout, the histogram features until the join, and each stretch's result is the stage function of the arguments. -/
theorem asm_chain (V W₁ W₂ W₃ W₄ W₅ W₆ W₇ : Valuation τ sig (Elt F))
    (e₁ : W₁ = after ops1 V) (e₂ : W₂ = after ops2 W₁) (e₃ : W₃ = after ops3 W₂) (e₄ : W₄ = after ops4 W₃)
    (e₅ : W₅ = after ops5 W₄) (e₆ : W₆ = after ops6 W₅) (e₇ : W₇ = after ops7 W₆) :
    after ops8 W₇ (Proc.devRef .tc main_v182) = val_main_v182 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) (V (Proc.devRef .tc main_arg23)) (V (Proc.devRef .tc main_arg24)) (V (Proc.devRef .tc main_arg25)) := by
  have K₁ : ∀ r ∈ (argRefs : List (Ref sig .tc)), W₁ (Proc.devRef .tc r) = V (Proc.devRef .tc r) :=
    fun r hr => by rw [e₁]; exact ops1_keep V r hr
  have K₂ : ∀ r ∈ (argRefs : List (Ref sig .tc)), W₂ (Proc.devRef .tc r) = V (Proc.devRef .tc r) :=
    fun r hr => by rw [e₂]; exact (ops2_keep W₁ r (Or.inl hr)).trans (K₁ r hr)
  have K₃ : ∀ r ∈ (argRefs : List (Ref sig .tc)), W₃ (Proc.devRef .tc r) = V (Proc.devRef .tc r) :=
    fun r hr => by rw [e₃]; exact (ops3_keep W₂ r (Or.inl hr)).trans (K₂ r hr)
  have K₄ : ∀ r ∈ (argRefs : List (Ref sig .tc)), W₄ (Proc.devRef .tc r) = V (Proc.devRef .tc r) :=
    fun r hr => by rw [e₄]; exact (ops4_keep W₃ r (Or.inl hr)).trans (K₃ r hr)
  have K₅ : ∀ r ∈ (argRefs : List (Ref sig .tc)), W₅ (Proc.devRef .tc r) = V (Proc.devRef .tc r) :=
    fun r hr => by rw [e₅]; exact (ops5_keep W₄ r hr).trans (K₄ r hr)
  have K₆ : ∀ r ∈ (argRefs : List (Ref sig .tc)), W₆ (Proc.devRef .tc r) = V (Proc.devRef .tc r) :=
    fun r hr => by rw [e₆]; exact (ops6_keep W₅ r hr).trans (K₅ r hr)
  have K₇ : ∀ r ∈ (argRefs : List (Ref sig .tc)), W₇ (Proc.devRef .tc r) = V (Proc.devRef .tc r) :=
    fun r hr => by rw [e₇]; exact (ops7_keep W₆ r hr).trans (K₆ r hr)
  have a3₁ : W₁ (Proc.devRef .tc main_v3) = val_main_v3 (F := F) (V (Proc.devRef .tc main_arg0)) := by rw [e₁]; exact ops1_v3 V
  have a25 : W₁ (Proc.devRef .tc main_v25) = val_main_v25 (F := F) (V (Proc.devRef .tc main_arg0)) := by rw [e₁]; exact ops1_v25 V
  have a54 : W₂ (Proc.devRef .tc main_v54) = val_main_v54 (F := F) (V (Proc.devRef .tc main_arg0)) (V (Proc.devRef .tc main_arg2)) (V (Proc.devRef .tc main_arg3)) (V (Proc.devRef .tc main_arg4)) (V (Proc.devRef .tc main_arg5)) := by
    rw [e₂]; exact ops2_v54 W₁ _ _ _ _ _ a25 (K₁ _ asm_mem2) (K₁ _ asm_mem3) (K₁ _ asm_mem4) (K₁ _ asm_mem5)
  have a3₂ : W₂ (Proc.devRef .tc main_v3) = val_main_v3 (F := F) (V (Proc.devRef .tc main_arg0)) := by
    rw [e₂]; exact (ops2_keep W₁ main_v3 (Or.inr rfl)).trans a3₁
  have a83 : W₃ (Proc.devRef .tc main_v83) = val_main_v83 (F := F) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) := by
    rw [e₃]; exact ops3_v83 W₂ _ _ _ _ _ _ _ _ _ a54 (K₂ _ asm_mem6) (K₂ _ asm_mem7) (K₂ _ asm_mem8) (K₂ _ asm_mem9)
  have a3₃ : W₃ (Proc.devRef .tc main_v3) = val_main_v3 (F := F) (V (Proc.devRef .tc main_arg0)) := by
    rw [e₃]; exact (ops3_keep W₂ main_v3 (Or.inr rfl)).trans a3₂
  have a112 : W₄ (Proc.devRef .tc main_v112) = val_main_v112 (F := F) (V (Proc.devRef .tc main_arg1)) (V (Proc.devRef .tc main_arg10)) (V (Proc.devRef .tc main_arg11)) (V (Proc.devRef .tc main_arg12)) (V (Proc.devRef .tc main_arg13)) := by
    rw [e₄]; exact ops4_v112 W₃ _ _ _ _ _ (K₃ _ asm_mem1) (K₃ _ asm_mem10) (K₃ _ asm_mem11) (K₃ _ asm_mem12) (K₃ _ asm_mem13)
  have a3₄ : W₄ (Proc.devRef .tc main_v3) = val_main_v3 (F := F) (V (Proc.devRef .tc main_arg0)) := by
    rw [e₄]; exact (ops4_keep W₃ main_v3 (Or.inr (Or.inl rfl))).trans a3₃
  have a83₄ : W₄ (Proc.devRef .tc main_v83) = val_main_v83 (F := F) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) := by
    rw [e₄]; exact (ops4_keep W₃ main_v83 (Or.inr (Or.inr rfl))).trans a83
  have a113 : W₅ (Proc.devRef .tc main_v113) = val_main_v113 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) := by
    rw [e₅]; exact ops5_v113 W₄ _ _ _ _ _ _ _ _ _ _ _ _ _ _ a3₄ a83₄ a112
  have a142 : W₆ (Proc.devRef .tc main_v142) = val_main_v142 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) := by
    rw [e₆]; exact ops6_v142 W₅ _ _ _ _ _ _ _ _ _ _ _ _ _ _ _ _ _ _ a113 (K₅ _ asm_mem14) (K₅ _ asm_mem15) (K₅ _ asm_mem16) (K₅ _ asm_mem17)
  have a171 : W₇ (Proc.devRef .tc main_v171) = val_main_v171 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) := by
    rw [e₇]; exact ops7_v171 W₆ _ _ _ _ _ _ _ _ _ _ _ _ _ _ _ _ _ _ _ _ _ _ a142 (K₆ _ asm_mem18) (K₆ _ asm_mem19) (K₆ _ asm_mem20) (K₆ _ asm_mem21)
  exact ops8_v182 W₇ _ _ _ _ _ _ _ _ _ _ _ _ _ _ _ _ _ _ _ _ _ _ _ _ _ _ a171 (K₇ _ asm_mem22) (K₇ _ asm_mem23) (K₇ _ asm_mem24) (K₇ _ asm_mem25)

/-- After the whole line the result buffer holds the last stage function of the argument buffers. -/
theorem after_v182 (V : Valuation τ sig (Elt F)) :
    after OpsP.ops V (Proc.devRef .tc main_v182) = val_main_v182 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) (V (Proc.devRef .tc main_arg23)) (V (Proc.devRef .tc main_arg24)) (V (Proc.devRef .tc main_arg25)) := by
  rw [asm_after_ops]
  exact asm_chain V _ _ _ _ _ _ _ rfl rfl rfl rfl rfl rfl rfl

/-- After the whole line every argument buffer is as it was. -/
theorem after_arg (V : Valuation τ sig (Elt F)) (r : Ref sig .tc) (hr : r ∈ argRefs) :
    after OpsP.ops V (Proc.devRef .tc r) = V (Proc.devRef .tc r) := by
  rw [asm_after_ops]
  exact (ops8_keep _ r hr).trans ((ops7_keep _ r hr).trans ((ops6_keep _ r hr).trans ((ops5_keep _ r hr).trans
    ((ops4_keep _ r (Or.inl hr)).trans ((ops3_keep _ r (Or.inl hr)).trans ((ops2_keep _ r (Or.inl hr)).trans
      (ops1_keep V r hr)))))))

set_option maxRecDepth 8192 in
/-- No operation of the line allocates. -/
theorem ops_fresh : ∀ op ∈ (OpsP.ops : List (HloOp τ sig (Elt F))), op.fresh = ∅ :=
  List.forall_iff_forall_mem.mp
    ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The result, named: the last stage function of the argument arrays. -/
def res_main_v182 (m : (ℓ : Loc nD τ sig) → Buf (Elt F) ℓ) (c : Dev nD) : Buf (Elt F) ((c.tc : Thread nD τ).loc main_v182) :=
  val_main_v182 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25))

/-- On every device, for any float values, from any memory with zero counters: every weakly fair execution of @main
    terminates with the result at the last stage function of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v182) = res_main_v182 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25) :=
  (θ_run defs _ _).mono (fun _ h c => ⟨(h c main_v182).trans ((after_v182 (launchContents m c)).trans rfl),
      (h c main_arg0).trans (after_arg (launchContents m c) main_arg0 asm_mem0),
      (h c main_arg1).trans (after_arg (launchContents m c) main_arg1 asm_mem1),
      (h c main_arg2).trans (after_arg (launchContents m c) main_arg2 asm_mem2),
      (h c main_arg3).trans (after_arg (launchContents m c) main_arg3 asm_mem3),
      (h c main_arg4).trans (after_arg (launchContents m c) main_arg4 asm_mem4),
      (h c main_arg5).trans (after_arg (launchContents m c) main_arg5 asm_mem5),
      (h c main_arg6).trans (after_arg (launchContents m c) main_arg6 asm_mem6),
      (h c main_arg7).trans (after_arg (launchContents m c) main_arg7 asm_mem7),
      (h c main_arg8).trans (after_arg (launchContents m c) main_arg8 asm_mem8),
      (h c main_arg9).trans (after_arg (launchContents m c) main_arg9 asm_mem9),
      (h c main_arg10).trans (after_arg (launchContents m c) main_arg10 asm_mem10),
      (h c main_arg11).trans (after_arg (launchContents m c) main_arg11 asm_mem11),
      (h c main_arg12).trans (after_arg (launchContents m c) main_arg12 asm_mem12),
      (h c main_arg13).trans (after_arg (launchContents m c) main_arg13 asm_mem13),
      (h c main_arg14).trans (after_arg (launchContents m c) main_arg14 asm_mem14),
      (h c main_arg15).trans (after_arg (launchContents m c) main_arg15 asm_mem15),
      (h c main_arg16).trans (after_arg (launchContents m c) main_arg16 asm_mem16),
      (h c main_arg17).trans (after_arg (launchContents m c) main_arg17 asm_mem17),
      (h c main_arg18).trans (after_arg (launchContents m c) main_arg18 asm_mem18),
      (h c main_arg19).trans (after_arg (launchContents m c) main_arg19 asm_mem19),
      (h c main_arg20).trans (after_arg (launchContents m c) main_arg20 asm_mem20),
      (h c main_arg21).trans (after_arg (launchContents m c) main_arg21 asm_mem21),
      (h c main_arg22).trans (after_arg (launchContents m c) main_arg22 asm_mem22),
      (h c main_arg23).trans (after_arg (launchContents m c) main_arg23 asm_mem23),
      (h c main_arg24).trans (after_arg (launchContents m c) main_arg24 asm_mem24),
      (h c main_arg25).trans (after_arg (launchContents m c) main_arg25 asm_mem25)⟩)
    (run_seq OpsP.scopedRefs_eq OpsP.scopedSems_eq defs main (fun _ => OpsP.ops) OpsP.main_eq (fun _ => OpsP.ops_sub) m ρ
      (fun _ => ops_fresh))

end Cert.ReferenceIdeal.RunP

end
-- ==== Proof.lean ====
/-
  The kernel computes, for each of the 65536 observation rows, a 10-bin histogram of 64 of its columns, encodes the
  normalised histogram and the two preference numbers by small dense + ReLU + layer-norm stacks, joins them with the
  remaining 448 columns, passes the 640 numbers through two more such layers and reads off two linear heads of 64
  numbers each.  It does so 1024 rows at a time; the reference does it for all rows at once.

  At the ideal reading (floats are extended reals, every operation exact, a change of float format the identity) the
  two programs apply the SAME operations in the same order to each row — the kernel's ten compare-and-count passes are
  the reference's one-hot sum column by column, its matmuls into a zero accumulator are the reference's dot products,
  its lane sums the reference's reductions — so no algebraic law is needed and the precondition is never opened.  The
  proof names that common row function (Spec), shows that every piece of the kernel's body and every stretch of the
  reference, read at a row, is the corresponding piece of it (the K… and R… modules), threads the pieces (KBody,
  RBody), and passes from the kernel's 64 blocks to the whole result array (Blocks).  The three frames are the
  generated frame runs and the reference's run with its result dropped; the ideal pass rewrote nothing, so the
  idealization claim is trivial.
-/
import proofs.«161807_j10033043603499_1_alg».proof.Defs
import proofs.«161807_j10033043603499_1_alg».proof.Proof.Gen.Kernel
import proofs.«161807_j10033043603499_1_alg».proof.Proof.Gen.Kernel.Frame
import proofs.«161807_j10033043603499_1_alg».proof.Proof.Gen.KernelIdeal
import proofs.«161807_j10033043603499_1_alg».proof.Proof.Gen.KernelIdeal.Frame
import proofs.«161807_j10033043603499_1_alg».proof.Proof.Gen.ReferenceIdeal
import proofs.«161807_j10033043603499_1_alg».proof.Proof.Gen.Pre_finite_inputs
import proofs.«161807_j10033043603499_1_alg».proof.Proof.Blocks
import proofs.«161807_j10033043603499_1_alg».proof.Proof.RBody
import proofs.«161807_j10033043603499_1_alg».proof.Proof.RefRun
import Idealize.ShloMosaic.Adequacy
import Idealize.ShloMosaic.Init

noncomputable section

namespace Cert.Proof

open Idealize.ShloMosaic Idealize.ShloMosaic.TcCoe Idealize.SL.Sem

theorem claim : Cert.Claim := ⟨Cert.Kernel.Gen.facts, Cert.KernelIdeal.Gen.facts, Cert.ReferenceIdeal.Gen.facts, Cert.Pre_finite_inputs.Gen.facts, by
  refine ⟨?_, ?_, ?_, trivial, ?_⟩
  · -- the kernel as printed runs and keeps its arguments
    exact fun m ρ _ => Cert.Kernel.Gen.frame m ρ
  · -- so does its idealization
    exact fun m ρ _ => Cert.KernelIdeal.Gen.frame m ρ
  · -- the reference's run, its result dropped
    exact fun m ρ _ => (θ_run Cert.ReferenceIdeal.defs _ _).mono (fun _ h c => (h c).2)
      (Cert.ReferenceIdeal.RunP.run (F := Ideal) m ρ)
  · -- both result arrays are the specification's function of the argument arrays
    intro m ρ m' ρ' _ hagree
    refine ⟨fun c => HistCritic.result
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (HistCritic.Weights.of (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))),
      Cert.KernelIdeal.BlockValue.run m ρ, ?_⟩
    refine (θ_run Cert.ReferenceIdeal.defs _ _).mono (fun _ h c => ⟨(h c).1.trans ?_, (h c).2⟩)
      (Cert.ReferenceIdeal.RunP.run (F := Ideal) m' ρ')
    obtain ⟨h0, h1, h2, h3, h4, h5, h6, h7, h8, h9, h10, h11, h12, h13, h14, h15, h16, h17, h18, h19, h20, h21, h22, h23, h24, h25⟩ := hagree c
    show Cert.ReferenceIdeal.RunP.res_main_v182 m' c = _
    unfold Cert.ReferenceIdeal.RunP.res_main_v182
    rw [Cert.ReferenceIdeal.RowValue.ref_result, h0, h1, h2, h3, h4, h5, h6, h7, h8, h9, h10, h11, h12, h13, h14, h15, h16, h17, h18, h19, h20, h21, h22, h23, h24, h25]⟩

end Cert.Proof

end
